-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x8 : Shape := ⟨2, ![500000, 8]⟩
abbrev S100000x8 : Shape := ⟨2, ![100000, 8]⟩
abbrev S2x500000 : Shape := ⟨2, ![2, 500000]⟩
abbrev S8x256 : Shape := ⟨2, ![8, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S500000x8 : S_.BroadcastsInDim S500000x8 (![] : Fin 0 → Fin S500000x8.rank)
  reducesTo_S500000x8_S_d0_1 : S500000x8.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_arg19 : FVec F S256x8 .f32) (main_arg20 : FVec F S8 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x8 .f32 := Host.absf main_arg19
  let main_cst_34 : FVec F S_ .f32 := constant S_ .f32 0x7F800000#32
  let main_v90 : FVec F S256x8 .f32 := broadcastInDim S256x8 ![] bcast_S_S256x8 main_cst_34
  let main_v91 : IVec S256x8 1 := cmpf .olt main_v89 main_v90
  let main_c_35 : IVec S_ 1 := constantI S_ 1 1#1
  let main_v92 : IVec S_ 1 := (fun x v => Host.reduce IntOp.andi x v reducesTo_S256x8_S_d0_1 h_S_) main_v91 main_c_35
  let main_v93 : IVec S_ 1 := andi main_v88 main_v92
  let main_v94 : FVec F S8 .f32 := Host.absf main_arg20
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  main_v98

def fn_part4 {F : FTy → Type} [FloatOps F] (main_arg15 : FVec F S256x256 .f32) (main_arg16 : FVec F S256 .f32) (main_arg17 : FVec F S256x256 .f32) (main_arg18 : FVec F S256 .f32) (main_arg19 : FVec F S256x8 .f32) (main_arg20 : FVec F S8 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x8 .f32) (main_arg20 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S256 .f32) (main_arg9 : FVec F S8x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x8 .f32) (main_arg20 : FVec F S8 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S8x256 .f32 := Host.absf main_arg9
  let main_cst_14 : FVec F S_ .f32 := constant S_ .f32 0x7F800000#32
  let main_v40 : FVec F S8x256 .f32 := broadcastInDim S8x256 ![] bcast_S_S8x256 main_cst_14
  let main_v41 : IVec S8x256 1 := cmpf .olt main_v39 main_v40
  let main_c_15 : IVec S_ 1 := constantI S_ 1 1#1
  let main_v42 : IVec S_ 1 := (fun x v => Host.reduce IntOp.andi x v reducesTo_S8x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256 .f32) (main_arg7 : FVec F S256x256 .f32) (main_arg8 : FVec F S256 .f32) (main_arg9 : FVec F S8x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x8 .f32) (main_arg20 : FVec F S8 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S500000x8 .f32) (main_arg1 : FVec F S100000x8 .f32) (main_arg2 : IVec S2x500000 32) (main_arg3 : FVec F S8x256 .f32) (main_arg4 : FVec F S256 .f32) (main_arg5 : FVec F S256 .f32) (main_arg6 : FVec F S256 .f32) (main_arg7 : FVec F S256x256 .f32) (main_arg8 : FVec F S256 .f32) (main_arg9 : FVec F S8x256 .f32) (main_arg10 : FVec F S256 .f32) (main_arg11 : FVec F S256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x8 .f32) (main_arg20 : FVec F S8 .f32) : IVec S_ 1 :=
  let main_v0 : FVec F S500000x8 .f32 := Host.absf main_arg0
  let main_cst : FVec F S_ .f32 := constant S_ .f32 0x7F800000#32
  let main_v1 : FVec F S500000x8 .f32 := broadcastInDim S500000x8 ![] bcast_S_S500000x8 main_cst
  let main_v2 : IVec S500000x8 1 := cmpf .olt main_v0 main_v1
  let main_c : IVec S_ 1 := constantI S_ 1 1#1
  let main_v3 : IVec S_ 1 := (fun x v => Host.reduce IntOp.andi x v reducesTo_S500000x8_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S8x256 .f32 := Host.absf main_arg3
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S500000x8 : Shape := ⟨2, ![500000, 8]⟩
abbrev S100000x8 : Shape := ⟨2, ![100000, 8]⟩
abbrev S2x500000 : Shape := ⟨2, ![2, 500000]⟩
abbrev S8x256 : Shape := ⟨2, ![8, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x256 : Shape := ⟨2, ![1, 256]⟩
abbrev S1x8 : Shape := ⟨2, ![1, 8]⟩
abbrev S5000x8 : Shape := ⟨2, ![5000, 8]⟩
abbrev S5000x256 : Shape := ⟨2, ![5000, 256]⟩

abbrev nBuf : Space → Nat
  | .hbm => 65
  | .vmem => 28
  | .smem => 0
  | _ => 0

abbrev bufTy : (tb : Table) → Fin (tcTables nBuf tb) → BufTy
  | .hbm, ⟨0, _⟩ => ⟨S500000x8, .f32⟩
  | .hbm, ⟨1, _⟩ => ⟨S100000x8, .f32⟩
  | .hbm, ⟨2, _⟩ => ⟨S2x500000, .i32⟩
  | .hbm, ⟨3, _⟩ => ⟨S8x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x8, .f32⟩
  | .hbm, ⟨20, _⟩ => ⟨S8, .f32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x8, .f32⟩
  | .hbm, ⟨32, _⟩ => ⟨S1x500000, .i32⟩
  | .hbm, ⟨33, _⟩ => ⟨S500000, .i32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x8, .f32⟩
  | .hbm, ⟨43, _⟩ => ⟨S500000x8, .f32⟩
  | .hbm, ⟨44, _⟩ => ⟨S_, .f32⟩
  | .hbm, ⟨45, _⟩ => ⟨S500000x8, .f32⟩
  | .hbm, ⟨46, _⟩ => ⟨S500000x8, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x8, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S500000x8, .f32⟩
  | .local _ .vmem, ⟨0, _⟩ => ⟨S5000x8, .f32⟩
  | .local _ .vmem, ⟨1, _⟩ => ⟨S5000x8, .f32⟩
  | .local _ .vmem, ⟨2, _⟩ => ⟨S8x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S1x256, .f32⟩
  | .local _ .vmem, ⟨13, _⟩ => ⟨S1x256, .f32⟩
  | .local _ .vmem, ⟨14, _⟩ => ⟨S8x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S256x8, .f32⟩
  | .local _ .vmem, ⟨25, _⟩ => ⟨S1x8, .f32⟩
  | .local _ .vmem, ⟨26, _⟩ => ⟨S5000x8, .f32⟩
  | .local _ .vmem, ⟨27, _⟩ => ⟨S5000x8, .f32⟩
  | _, _ => ⟨S500000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem16_1 : DmaSem sig := 25

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v30 : BitVec 1 := Scalar.cmpi .eq arg0 c99_i32
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x8 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S5000x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S500000x8 : S_.BroadcastsInDim S500000x8 (![] : Fin 0 → Fin S500000x8.rank)
  shapeCasts_S256_S1x256 : S256.ShapeCasts S1x256
  shapeCasts_S8_S1x8 : S8.ShapeCasts S1x8
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  broadcasts_S1x256_S5000x256 : S1x256.Broadcasts S5000x256
  reduces_S5000x256_S256 : S5000x256.Reduces [0] S256
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  gather_S100000x8_S500000x1_S500000x8_1_0_n_n_0_1_18_wf : GatherDims.WF S100000x8 S500000x1 S500000x8 [1] [0] [] [0] [] 1 ![1, 8]
  dot_S5000x8_S8x256_S5000x256_1_0_0_1_n_n_wf : DotDims.WF S5000x8 S8x256 S5000x256 [1] [0] [0] [1] [] []
  dot_S5000x256_S256x256_S5000x256_1_0_0_1_n_n_wf : DotDims.WF S5000x256 S256x256 S5000x256 [1] [0] [0] [1] [] []
  dot_S5000x256_S256x8_S5000x8_1_0_0_1_n_n_wf : DotDims.WF S5000x256 S256x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S500000x8.size a
  hwx0_0 : ∀ i : grid0.Coords, EltTy.bits .f32 = 32 ∨ (Rect.block (s := S500000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S500000x8.size a
  hwx1_0 : ∀ i : grid1.Coords, EltTy.bits .f32 = 32 ∨ (Rect.block (s := S500000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S500000x8.size a
  hwx1_1 : ∀ i : grid1.Coords, EltTy.bits .f32 = 32 ∨ (Rect.block (s := S500000x8) S5000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x256.size a
  hwx1_4 : ∀ i : grid1.Coords, EltTy.bits .f32 = 32 ∨ (Rect.block (s := S8x256) S8x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S256x256.size a
  hwx1_10 : ∀ i : grid1.Coords, EltTy.bits .f32 = 32 ∨ (Rect.block (s := S256x256) S256x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x256.size a ≤ S256x256.size a
  hwx1_12 : ∀ i : grid1.Coords, EltTy.bits .f32 = 32 ∨ (Rect.block (s := S256x256) S256x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x8.size a ≤ S256x8.size a
  hwx1_14 : ∀ i : grid1.Coords, EltTy.bits .f32 = 32 ∨ (Rect.block (s := S256x8) S256x8.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x8.size a ≤ S1x8.size a
  hwx1_15 : ∀ i : grid1.Coords, EltTy.bits .f32 = 32 ∨ (Rect.block (s := S1x8) S1x8.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S5000x8.size a ≤ S500000x8.size a
  hwx1_16 : ∀ i : grid1.Coords, EltTy.bits .f32 = 32 ∨ (Rect.block (s := S500000x8) S5000x8.size (cc1_transform_16 i) (hinb1_16 i)).WholeWords (EltTy.packing .f32)

variable [Facts₀]

def gather_S100000x8_S500000x1_S500000x8_1_0_n_n_0_1_18 : GatherDims S100000x8 S500000x1 S500000x8 where
  offsetDims := [1]
  collapsedSliceDims := [0]
  operandBatchingDims := []
  startIndicesBatchingDims := []
  startIndexMap := [0]
  indexVectorDim := 1
  sliceSizes := ![1, 8]
  wf := gather_S100000x8_S500000x1_S500000x8_1_0_n_n_0_1_18_wf
def dot_S5000x8_S8x256_S5000x256_1_0_0_1_n_n : DotDims S5000x8 S8x256 S5000x256 where
  lhsContracting := [1]
  rhsContracting := [0]
  lhsNonContracting := [0]
  rhsNonContracting := [1]
  lhsBatch := []
  rhsBatch := []
  wf := dot_S5000x8_S8x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x8_S5000x8_1_0_0_1_n_n : DotDims S5000x256 S256x8 S5000x8 where
  lhsContracting := [1]
  rhsContracting := [0]
  lhsNonContracting := [0]
  rhsNonContracting := [1]
  lhsBatch := []
  rhsBatch := []
  wf := dot_S5000x256_S256x8_S5000x8_1_0_0_1_n_n_wf

abbrev win0_0 : Pipeline.Window sig grid0 :=
  Pipeline.Window.ofSpec (Memref.whole main_v20) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v20) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S8x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S256x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S256x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v26) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg19) S256x8.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v27) S1x8.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v35) S5000x8.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S500000x8 : Shape := ⟨2, ![500000, 8]⟩
abbrev S100000x8 : Shape := ⟨2, ![100000, 8]⟩
abbrev S2x500000 : Shape := ⟨2, ![2, 500000]⟩
abbrev S8x256 : Shape := ⟨2, ![8, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S500000x256 : Shape := ⟨2, ![500000, 256]⟩
abbrev S1x256 : Shape := ⟨2, ![1, 256]⟩
abbrev S_ : Shape := ⟨0, ![]⟩
abbrev S1x500000 : Shape := ⟨2, ![1, 500000]⟩
abbrev S500000 : Shape := ⟨1, ![500000]⟩
abbrev S500000x1 : Shape := ⟨2, ![500000, 1]⟩
abbrev S1x8 : Shape := ⟨2, ![1, 8]⟩

abbrev nBuf : Space → Nat
  | .hbm => 173
  | .vmem => 0
  | .smem => 0
  | _ => 0

abbrev hbmTy0_0 (i : Nat) : BufTy := match i % 128 with
  | 0 => ⟨S500000x8, .f32⟩
  | 1 => ⟨S100000x8, .f32⟩
  | 2 => ⟨S2x500000, .i32⟩
  | 3 => ⟨S8x256, .f32⟩
  | 4 => ⟨S256, .f32⟩
  | 5 => ⟨S256, .f32⟩
  | 6 => ⟨S256, .f32⟩
  | 7 => ⟨S256x256, .f32⟩
  | 8 => ⟨S256, .f32⟩
  | 9 => ⟨S8x256, .f32⟩
  | 10 => ⟨S256, .f32⟩
  | 11 => ⟨S256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x8, .f32⟩
  | 20 => ⟨S8, .f32⟩
  | 21 => ⟨S500000x256, .f32⟩
  | 22 => ⟨S1x256, .f32⟩
  | 23 => ⟨S500000x256, .f32⟩
  | 24 => ⟨S500000x256, .f32⟩
  | 25 => ⟨S_, .f32⟩
  | 26 => ⟨S500000x256, .f32⟩
  | 27 => ⟨S500000x256, .f32⟩
  | 28 => ⟨S_, .f32⟩
  | 29 => ⟨S256, .f32⟩
  | 30 => ⟨S_, .f32⟩
  | 31 => ⟨S256, .f32⟩
  | 32 => ⟨S256, .f32⟩
  | 33 => ⟨S_, .i32⟩
  | 34 => ⟨S_, .f32⟩
  | 35 => ⟨S256, .f32⟩
  | 36 => ⟨S1x256, .f32⟩
  | 37 => ⟨S_, .f32⟩
  | 38 => ⟨S1x256, .f32⟩
  | 39 => ⟨S1x256, .f32⟩
  | 40 => ⟨S500000x256, .f32⟩
  | 41 => ⟨S500000x256, .f32⟩
  | 42 => ⟨S500000x256, .f32⟩
  | 43 => ⟨S_, .f32⟩
  | 44 => ⟨S_, .f32⟩
  | 45 => ⟨S_, .f32⟩
  | 46 => ⟨S_, .f32⟩
  | 47 => ⟨S256, .f32⟩
  | 48 => ⟨S256, .f32⟩
  | 49 => ⟨S256, .f32⟩
  | 50 => ⟨S_, .f32⟩
  | 51 => ⟨S_, .i1⟩
  | 52 => ⟨S_, .f32⟩
  | 53 => ⟨S_, .f32⟩
  | 54 => ⟨S256, .f32⟩
  | 55 => ⟨S256, .f32⟩
  | 56 => ⟨S1x256, .f32⟩
  | 57 => ⟨S500000x256, .f32⟩
  | 58 => ⟨S500000x256, .f32⟩
  | 59 => ⟨S_, .f32⟩
  | 60 => ⟨S256, .f32⟩
  | 61 => ⟨S256, .f32⟩
  | 62 => ⟨S256, .f32⟩
  | 63 => ⟨S1x256, .f32⟩
  | 64 => ⟨S500000x256, .f32⟩
  | 65 => ⟨S500000x256, .f32⟩
  | 66 => ⟨S1x256, .f32⟩
  | 67 => ⟨S500000x256, .f32⟩
  | 68 => ⟨S500000x256, .f32⟩
  | 69 => ⟨S1x256, .f32⟩
  | 70 => ⟨S500000x256, .f32⟩
  | 71 => ⟨S500000x256, .f32⟩
  | 72 => ⟨S500000x256, .f32⟩
  | 73 => ⟨S1x256, .f32⟩
  | 74 => ⟨S500000x256, .f32⟩
  | 75 => ⟨S500000x256, .f32⟩
  | 76 => ⟨S1x500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x8, .f32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x8, .f32⟩
  | 98 => ⟨S500000x8, .f32⟩
  | 99 => ⟨S_, .f32⟩
  | 100 => ⟨S500000x8, .f32⟩
  | 101 => ⟨S500000x8, .f32⟩
  | 102 => ⟨S500000x256, .f32⟩
  | 103 => ⟨S1x256, .f32⟩
  | 104 => ⟨S500000x256, .f32⟩
  | 105 => ⟨S500000x256, .f32⟩
  | 106 => ⟨S_, .f32⟩
  | 107 => ⟨S500000x256, .f32⟩
  | 108 => ⟨S500000x256, .f32⟩
  | 109 => ⟨S_, .f32⟩
  | 110 => ⟨S256, .f32⟩
  | 111 => ⟨S_, .f32⟩
  | 112 => ⟨S256, .f32⟩
  | 113 => ⟨S256, .f32⟩
  | 114 => ⟨S_, .i32⟩
  | 115 => ⟨S_, .f32⟩
  | 116 => ⟨S256, .f32⟩
  | 117 => ⟨S1x256, .f32⟩
  | 118 => ⟨S_, .f32⟩
  | 119 => ⟨S1x256, .f32⟩
  | 120 => ⟨S1x256, .f32⟩
  | 121 => ⟨S500000x256, .f32⟩
  | 122 => ⟨S500000x256, .f32⟩
  | 123 => ⟨S500000x256, .f32⟩
  | 124 => ⟨S_, .f32⟩
  | 125 => ⟨S_, .f32⟩
  | 126 => ⟨S_, .f32⟩
  | 127 => ⟨S_, .f32⟩
  | _ => ⟨S500000x8, .f32⟩

abbrev hbmTy0_1 (i : Nat) : BufTy := match i % 128 with
  | 0 => ⟨S256, .f32⟩
  | 1 => ⟨S256, .f32⟩
  | 2 => ⟨S256, .f32⟩
  | 3 => ⟨S_, .f32⟩
  | 4 => ⟨S_, .i1⟩
  | 5 => ⟨S_, .f32⟩
  | 6 => ⟨S_, .f32⟩
  | 7 => ⟨S256, .f32⟩
  | 8 => ⟨S256, .f32⟩
  | 9 => ⟨S1x256, .f32⟩
  | 10 => ⟨S500000x256, .f32⟩
  | 11 => ⟨S500000x256, .f32⟩
  | 12 => ⟨S_, .f32⟩
  | 13 => ⟨S256, .f32⟩
  | 14 => ⟨S256, .f32⟩
  | 15 => ⟨S256, .f32⟩
  | 16 => ⟨S1x256, .f32⟩
  | 17 => ⟨S500000x256, .f32⟩
  | 18 => ⟨S500000x256, .f32⟩
  | 19 => ⟨S1x256, .f32⟩
  | 20 => ⟨S500000x256, .f32⟩
  | 21 => ⟨S500000x256, .f32⟩
  | 22 => ⟨S1x256, .f32⟩
  | 23 => ⟨S500000x256, .f32⟩
  | 24 => ⟨S500000x256, .f32⟩
  | 25 => ⟨S500000x256, .f32⟩
  | 26 => ⟨S1x256, .f32⟩
  | 27 => ⟨S500000x256, .f32⟩
  | 28 => ⟨S500000x256, .f32⟩
  | 29 => ⟨S500000x256, .f32⟩
  | 30 => ⟨S1x256, .f32⟩
  | 31 => ⟨S500000x256, .f32⟩
  | 32 => ⟨S500000x256, .f32⟩
  | 33 => ⟨S500000x256, .f32⟩
  | 34 => ⟨S1x256, .f32⟩
  | 35 => ⟨S500000x256, .f32⟩
  | 36 => ⟨S500000x256, .f32⟩
  | 37 => ⟨S500000x8, .f32⟩
  | 38 => ⟨S1x8, .f32⟩
  | 39 => ⟨S500000x8, .f32⟩
  | 40 => ⟨S500000x8, .f32⟩
  | 41 => ⟨S_, .f32⟩
  | 42 => ⟨S500000x8, .f32⟩
  | 43 => ⟨S500000x8, .f32⟩
  | 44 => ⟨S500000x8, .f32⟩
  | _ => ⟨S500000x8, .f32⟩

abbrev hbmTy (i : Nat) : BufTy := match i / 128 with
  | 0 => hbmTy0_0 i
  | 1 => hbmTy0_1 i
  | _ => ⟨S500000x8, .f32⟩

abbrev bufTy : (tb : Table) → Fin (tcTables nBuf tb) → BufTy
  | .hbm, ⟨i, _⟩ => hbmTy i
  | _, _ => ⟨S500000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_cst_2 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_cst_3 : Ref sig .tc := ⟨.hbm, 50, rfl⟩
abbrev main_call1_v12 : Ref sig .tc := ⟨.hbm, 51, rfl⟩
abbrev main_call1_cst_4 : Ref sig .tc := ⟨.hbm, 52, rfl⟩
abbrev main_call1_call0_v0 : Ref sig .tc := ⟨.hbm, 53, rfl⟩
abbrev main_call1_call0_v1 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst_1 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_2 : Ref sig .tc := ⟨.hbm, 78, rfl⟩
abbrev main_v30 : Ref sig .tc := ⟨.hbm, 79, rfl⟩
abbrev main_v31 : Ref sig .tc := ⟨.hbm, 80, rfl⟩
abbrev main_c_3 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_c_4 : Ref sig .tc := ⟨.hbm, 89, rfl⟩
abbrev main_v39 : Ref sig .tc := ⟨.hbm, 90, rfl⟩
abbrev main_v40 : Ref sig .tc := ⟨.hbm, 91, rfl⟩
abbrev main_c_5 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_6 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_call2_cst : Ref sig .tc := ⟨.hbm, 106, rfl⟩
abbrev main_call2_v0 : Ref sig .tc := ⟨.hbm, 107, rfl⟩
abbrev main_v53 : Ref sig .tc := ⟨.hbm, 108, rfl⟩
abbrev main_cst_7 : Ref sig .tc := ⟨.hbm, 109, rfl⟩
abbrev main_v54 : Ref sig .tc := ⟨.hbm, 110, rfl⟩
abbrev main_cst_8 : Ref sig .tc := ⟨.hbm, 111, rfl⟩
abbrev main_v55 : Ref sig .tc := ⟨.hbm, 112, rfl⟩
abbrev main_v56 : Ref sig .tc := ⟨.hbm, 113, rfl⟩
abbrev main_c_9 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_v7 : Ref sig .tc := ⟨.hbm, 124, rfl⟩
abbrev main_call3_cst_1 : Ref sig .tc := ⟨.hbm, 125, rfl⟩
abbrev main_call3_v8 : Ref sig .tc := ⟨.hbm, 126, rfl⟩
abbrev main_call3_cst_2 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_cst_3 : Ref sig .tc := ⟨.hbm, 131, rfl⟩
abbrev main_call3_v12 : Ref sig .tc := ⟨.hbm, 132, rfl⟩
abbrev main_call3_cst_4 : Ref sig .tc := ⟨.hbm, 133, rfl⟩
abbrev main_call3_call0_v0 : Ref sig .tc := ⟨.hbm, 134, rfl⟩
abbrev main_call3_call0_v1 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_10 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_cst_11 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  reducesTo_S500000x256_S256_d0 : S500000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  dot_S500000x8_S8x256_S500000x256_1_0_0_1_n_n_wf : DotDims.WF S500000x8 S8x256 S500000x256 [1] [0] [0] [1] [] []
  dot_S500000x256_S256x256_S500000x256_1_0_0_1_n_n_wf : DotDims.WF S500000x256 S256x256 S500000x256 [1] [0] [0] [1] [] []
  gather_S100000x8_S500000x1_S500000x8_1_0_n_n_0_1_18_wf : GatherDims.WF S100000x8 S500000x1 S500000x8 [1] [0] [] [0] [] 1 ![1, 8]
  dot_S500000x256_S256x8_S500000x8_1_0_0_1_n_n_wf : DotDims.WF S500000x256 S256x8 S500000x8 [1] [0] [0] [1] [] []

variable [Facts₀]

def dot_S500000x8_S8x256_S500000x256_1_0_0_1_n_n : DotDims S500000x8 S8x256 S500000x256 where
  lhsContracting := [1]
  rhsContracting := [0]
  lhsNonContracting := [0]
  rhsNonContracting := [1]
  lhsBatch := []
  rhsBatch := []
  wf := dot_S500000x8_S8x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def gather_S100000x8_S500000x1_S500000x8_1_0_n_n_0_1_18 : GatherDims S100000x8 S500000x1 S500000x8 where
  offsetDims := [1]
  collapsedSliceDims := [0]
  operandBatchingDims := []
  startIndicesBatchingDims := []
  startIndexMap := [0]
  indexVectorDim := 1
  sliceSizes := ![1, 8]
  wf := gather_S100000x8_S500000x1_S500000x8_1_0_n_n_0_1_18_wf
def dot_S500000x256_S256x8_S500000x8_1_0_0_1_n_n : DotDims S500000x256 S256x8 S500000x8 where
  lhsContracting := [1]
  rhsContracting := [0]
  lhsNonContracting := [0]
  rhsNonContracting := [1]
  lhsBatch := []
  rhsBatch := []
  wf := dot_S500000x256_S256x8_S500000x8_1_0_0_1_n_n_wf

class Facts : Prop extends Facts₀ where

variable [Facts]
-- ==== Proof.Bits.Region0.lean ====
import proofs.«121266_j58025008169388_1_alg».proof.Proof.Gen.Kernel.Launch
import proofs.«121266_j58025008169388_1_alg».proof.Proof.Gen.Kernel.Skeleton
import proofs.«121266_j58025008169388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the column sums of the rectified rows and of their squares, accumulated over the grid

The body adds, at every grid point, the column sums of the block's rectified affine image (and of its
square) to two rows it keeps from point to point; it clears the two rows at the first point and copies them
to the two result blocks at the last. This module states what the two rows hold after each point, by
recursion on the point, and proves that the body, run at any point from the rows as the point before left
them, leaves them so. -/

/-! ## The two conditions of the body, in closed form over the grid -/

/-- The condition under which the body clears the two rows: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition under which the body copies the two rows out: the grid coordinate is the last. -/
abbrev cond0_1 (i : grid0.Coords) : Prop := k0_cond2 i = 1#1
/-- It holds at the last point only. -/
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point the two result windows are idle and not written back; at it they are live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## A row stored whole reads back as what was stored -/

/-- The zero offsets, however spelt. -/
theorem offs0_zero : (![0, 0] : Fin 2 → ℕ) = fun _ => 0 := funext fun a => by fin_cases a <;> rfl

/-- The whole-row rectangle through which the body loads and stores each [1,256] row. -/
abbrev rRow0 : Rect S1x256 := Rect.unit (s := S1x256) ![0, 0] S1x256.size inb_S1x256_S1x256_0_0

/-- A row whose last store went through the whole-row rectangle reads as that store's payload, whatever the
    view, the earlier stores and the contents before them: the last store covers every index. -/
theorem read_row0_last {sig' : RefSig} {κ : Kind} {sp : Space} (v : View sig' κ sp S1x256 .f32) (f : v.ty.Contents (Elt F))
    (w : Vec F S1x256 .f32) (L : List (View.Piece (Elt F) S1x256 .f32)) :
    v.read (Elt F) (v.writes (Elt F) f (⟨rRow0, w⟩ :: L)) = w := by
  rw [View.read_writes_eq_canon _ _ _ (fun y => ⟨_, List.mem_cons_self, View.mem_set_unit_zero offs0_zero inb_S1x256_S1x256_0_0 y⟩),
    View.canon_cons_unit_zero offs0_zero]

set_option maxHeartbeats 1000000 in
theorem run0_A (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : cond0_0 i) (hc1 : ¬cond0_1 i)
    (x0 : Vec F S5000x8 .f32) (x1 : Vec F S8x256 .f32) (x2 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg6 fullShare (k0_pay4 x0 x1 x2 k0_pay1) ∗ owns (c : Thread nD τ) arg7 fullShare (k0_pay5 x0 x1 x2 k0_pay2)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

set_option maxHeartbeats 1000000 in
theorem run0_B (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : ¬cond0_0 i) (hc1 : ¬cond0_1 i)
    (x0 : Vec F S5000x8 .f32) (x1 : Vec F S8x256 .f32) (x2 : Vec F S1x256 .f32) (xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg6 fullShare (k0_pay4 x0 x1 x2 xs0) ∗ owns (c : Thread nD τ) arg7 fullShare (k0_pay5 x0 x1 x2 xs1)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

set_option maxHeartbeats 1000000 in
theorem run0_C (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : ¬cond0_0 i) (hc1 : cond0_1 i)
    (x0 : Vec F S5000x8 .f32) (x1 : Vec F S8x256 .f32) (x2 : Vec F S1x256 .f32) (xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 x2 xs0) ∗ owns (c : Thread nD τ) arg5 fullShare (k0_pay5 x0 x1 x2 xs1) ∗ owns (c : Thread nD τ) arg6 fullShare (k0_pay4 x0 x1 x2 xs0) ∗ owns (c : Thread nD τ) arg7 fullShare (k0_pay5 x0 x1 x2 xs1)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  isplitl [H4]
  · iexists _; isplitr
    swap; · iexact H4
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the two carried rows hold after each point -/

/-- The two rows after point `n`: after the first point, the column sums of the first block's rectified image
    (and of its square) added to the zero rows; after a later one, those of that point's block added to what the
    point before left. -/
def accAt0 (c : Dev nD) : (n : ℕ) → n < cfg0.N → Vec F S1x256 .f32 × Vec F S1x256 .f32
  | 0, hn => (k0_pay4 (iblk0 V c 0 ⟨0, hn⟩) (iblk0 V c 1 ⟨0, hn⟩) (iblk0 V c 2 ⟨0, hn⟩) k0_pay1,
      k0_pay5 (iblk0 V c 0 ⟨0, hn⟩) (iblk0 V c 1 ⟨0, hn⟩) (iblk0 V c 2 ⟨0, hn⟩) k0_pay2)
  | n + 1, hn => (k0_pay4 (iblk0 V c 0 ⟨n + 1, hn⟩) (iblk0 V c 1 ⟨n + 1, hn⟩) (iblk0 V c 2 ⟨n + 1, hn⟩) (accAt0 c n (Nat.lt_of_succ_lt hn)).1,
      k0_pay5 (iblk0 V c 0 ⟨n + 1, hn⟩) (iblk0 V c 1 ⟨n + 1, hn⟩) (iblk0 V c 2 ⟨n + 1, hn⟩) (accAt0 c n (Nat.lt_of_succ_lt hn)).2)

/-- After the first point. -/
theorem accAt0_zero (c : Dev nD) (hn : 0 < cfg0.N) :
    accAt0 V c 0 hn = (k0_pay4 (iblk0 V c 0 ⟨0, hn⟩) (iblk0 V c 1 ⟨0, hn⟩) (iblk0 V c 2 ⟨0, hn⟩) k0_pay1,
      k0_pay5 (iblk0 V c 0 ⟨0, hn⟩) (iblk0 V c 1 ⟨0, hn⟩) (iblk0 V c 2 ⟨0, hn⟩) k0_pay2) := rfl

/-- After a later point: that point's sums added to what the point before left. -/
theorem accAt0_succ (c : Dev nD) (n : ℕ) (hn : n + 1 < cfg0.N) :
    accAt0 V c (n + 1) hn = (k0_pay4 (iblk0 V c 0 ⟨n + 1, hn⟩) (iblk0 V c 1 ⟨n + 1, hn⟩) (iblk0 V c 2 ⟨n + 1, hn⟩) (accAt0 V c n (Nat.lt_of_succ_lt hn)).1,
      k0_pay5 (iblk0 V c 0 ⟨n + 1, hn⟩) (iblk0 V c 1 ⟨n + 1, hn⟩) (iblk0 V c 2 ⟨n + 1, hn⟩) (accAt0 V c n (Nat.lt_of_succ_lt hn)).2) := rfl

/-- The same two equations at a point of the grid. -/
theorem accAt0_first (c : Dev nD) (t : Fin cfg0.N) (h : t.val = 0) :
    accAt0 V c t.val t.isLt = (k0_pay4 (iblk0 V c 0 t) (iblk0 V c 1 t) (iblk0 V c 2 t) k0_pay1,
      k0_pay5 (iblk0 V c 0 t) (iblk0 V c 1 t) (iblk0 V c 2 t) k0_pay2) := by
  obtain ⟨n, hn⟩ := t
  cases n with
  | zero => rfl
  | succ n => exact absurd h (Nat.succ_ne_zero n)

theorem accAt0_later (c : Dev nD) (t : Fin cfg0.N) (h : t.val ≠ 0) :
    accAt0 V c t.val t.isLt = (k0_pay4 (iblk0 V c 0 t) (iblk0 V c 1 t) (iblk0 V c 2 t) (accAt0 V c (t.val - 1) (Nat.lt_of_le_of_lt (Nat.sub_le _ _) t.isLt)).1,
      k0_pay5 (iblk0 V c 0 t) (iblk0 V c 1 t) (iblk0 V c 2 t) (accAt0 V c (t.val - 1) (Nat.lt_of_le_of_lt (Nat.sub_le _ _) t.isLt)).2) := by
  obtain ⟨n, hn⟩ := t
  cases n with
  | zero => exact absurd rfl h
  | succ n => rfl

/-! ## The region invariant -/

/-- The two rows the body keeps from point to point, as memrefs. -/
abbrev scM0_0 : Memref sig .tc .vmem S1x256 .f32 := Memref.whole cc0_scratch0
abbrev scM0_1 : Memref sig .tc .vmem S1x256 .f32 := Memref.whole cc0_scratch1

/-- Every other scoped buffer of the core that is no staging buffer of this region, at some contents each. -/
abbrev restS0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two rows split off as memrefs owned at some contents. -/
theorem PhiA0_eq (c : Dev nD) :
    (Pipeline.ΦA spec0 c : sProp 𝕄)
      = iprop(((( ∃ d, owns (c : Thread nD τ) scM0_0 fullShare d) ∗ (∃ d, owns (c : Thread nD τ) scM0_1 fullShare d)) ∗ restS0 c) ∗ (∃ r, prngReg c r)) := by
  unfold Pipeline.ΦA
  rw [Pipeline.scopedRest_split_of_list spec0 c [cc0_scratch0, cc0_scratch1] (by decide) (by decide)]
  simp only [scM0_0, scM0_1, owns_whole]; try rfl

/-- The invariant before position `n`: before the first point what the launch hands the region; afterwards the
    two rows owned at what the point before left in them, beside the other scoped buffers and the generator
    register at some state. -/
def PhiS0 (c : Dev nD) : (n : ℕ) → n ≤ cfg0.N → sProp 𝕄
  | 0, _ => Pipeline.ΦA spec0 c
  | n + 1, hn => iprop(((owns (c : Thread nD τ) scM0_0 fullShare (accAt0 V c n hn).1 ∗ owns (c : Thread nD τ) scM0_1 fullShare (accAt0 V c n hn).2) ∗ restS0 c) ∗ (∃ r, prngReg c r))

theorem PhiS0_zero (c : Dev nD) (n : ℕ) (h : n ≤ cfg0.N) (hn0 : n = 0) : PhiS0 V c n h = Pipeline.ΦA spec0 c := by
  subst hn0; rfl

theorem PhiS0_succ (c : Dev nD) (n : ℕ) (hn : n < cfg0.N) :
    PhiS0 V c (n + 1) hn = iprop(((owns (c : Thread nD τ) scM0_0 fullShare (accAt0 V c n hn).1 ∗ owns (c : Thread nD τ) scM0_1 fullShare (accAt0 V c n hn).2) ∗ restS0 c) ∗ (∃ r, prngReg c r)) := rfl

theorem PhiS0_pos (c : Dev nD) (n : ℕ) (h : n ≤ cfg0.N) (hn0 : n ≠ 0) :
    PhiS0 V c n h = iprop(((owns (c : Thread nD τ) scM0_0 fullShare (accAt0 V c (n - 1) (by omega)).1 ∗ owns (c : Thread nD τ) scM0_1 fullShare (accAt0 V c (n - 1) (by omega)).2) ∗ restS0 c) ∗ (∃ r, prngReg c r)) := by
  cases n with
  | zero => exact absurd rfl hn0
  | succ n => rfl

/-! ## The proof data -/

/-- The proof data of the region on core `c`: the arrays as the region finds them; after the body at point `t`
    each input's buffer at its block and the two result buffers at the two rows after `t`; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accAt0 V c t.val t.isLt).1 := by dsimp only [dat0]
theorem after0_4 (c : Dev nD) (t : Fin cfg0.N) : (dat0 V c).after 4 t = (accAt0 V c t.val t.isLt).2 := by dsimp only [dat0]

/-- At the last point the two result buffers hold the two rows. -/
theorem after0_3_last (c : Dev nD) (t : Fin cfg0.N) (ht : t.val = 99) : (dat0 V c).after 3 t = (accAt0 V c t.val t.isLt).1 := after0_3 V c t
theorem after0_4_last (c : Dev nD) (t : Fin cfg0.N) (ht : t.val = 99) : (dat0 V c).after 4 t = (accAt0 V c t.val t.isLt).2 := after0_4 V c t

/-- Each input's current staging buffer holds its block at every point, fetched there or not: an unfetched
    window's block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body. -/
abbrev ms0_0 (t : Fin cfg0.N) : Memref sig .tc .vmem S5000x8 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1x256 .f32 := win0_4.stage (cfg0.slots t 4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the grid coordinate says which of the three
    control cases the point is in. At the first point the invariant hands the body the two rows at anything and
    the body clears them before adding; at a later point it hands them at what the point before left. In every
    case it takes them back at this point's contents. Off the last point the two result buffers are handed back
    as found; at the last they hold the two rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val = 0
  · have h1 : ¬t.val = 99 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [accAt0_first V c t h0]; dsimp only
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, H3, H4⟩
    iapply (run0_A c (grid0.coords t) _ _ _ _ _ _ _ _ _ _ _ _ _ _ ((hcond0_0 t).mpr h0) (fun h => h1 ((hcond0_1 t).mp h)) (iblk0 V c 0 t) (iblk0 V c 1 t) (iblk0 V c 2 t) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · rw [accAt0_later V c t h0]; dsimp only
    rw [PhiS0_castSucc V c t, PhiS0_pos V c _ _ h0]
    by_cases h1 : t.val = 99
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [accAt0_later V c t h0]; dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      iintro ⟨⟨⟨⟨HS0, HS1⟩, HR⟩, Hg⟩, Ho, ⟨%d0, H0⟩, ⟨%d1, H1⟩, ⟨%d2, H2⟩, H3, H4⟩
      iapply (run0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: what the two rows hold is forgotten. -/
theorem Phi0_out (c : Dev nD) : (dat0 V c).Φ (Fin.last cfg0.N) ⊢ Pipeline.ΦA spec0 c := by
  have hN : cfg0.N = 100 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

end Cert.Kernel.Hand

end
-- ==== Proof.Bits.Region1.lean ====
/- Region 1 of the kernel, the frame half. The region walks 100 blocks of 5000 rows. At each point its body loads the
   sixteen input windows' blocks, computes the normalised hidden layer and the four affine maps after it, and stores
   the whole output block once. This module states, for any contents V of the buffers when the region is entered,
   what each window's block is, what the one store leaves in the output window as a function of the input blocks,
   and that the body meets the pipeline's obligation at every point. -/
import proofs.«121266_j58025008169388_1_alg».proof.Proof.Gen.Kernel.Launch
import proofs.«121266_j58025008169388_1_alg».proof.Proof.Gen.Kernel.Skeleton
import proofs.«121266_j58025008169388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or its index stood still, for any
    proof data over `V`'s arrays whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether the point fetched it or its index stood still, for any
    proof data over `V`'s arrays whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether the point fetched it or its index stood still, for any
    proof data over `V`'s arrays whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether the point fetched it or its index stood still, for any
    proof data over `V`'s arrays whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, whether the point fetched it or its index stood still, for any
    proof data over `V`'s arrays whose body leaves that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, whether the point fetched it or its index stood still, for any
    proof data over `V`'s arrays whose body leaves that block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 holds its block at every point, whether the point fetched it or its index stood still, for any
    proof data over `V`'s arrays whose body leaves that block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 holds its block at every point, whether the point fetched it or its index stood still, for any
    proof data over `V`'s arrays whose body leaves that block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8 holds its block at every point, whether the point fetched it or its index stood still, for any
    proof data over `V`'s arrays whose body leaves that block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9 holds its block at every point, whether the point fetched it or its index stood still, for any
    proof data over `V`'s arrays whose body leaves that block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10 holds its block at every point, whether the point fetched it or its index stood still, for any
    proof data over `V`'s arrays whose body leaves that block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11 holds its block at every point, whether the point fetched it or its index stood still, for any
    proof data over `V`'s arrays whose body leaves that block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12 holds its block at every point, whether the point fetched it or its index stood still, for any
    proof data over `V`'s arrays whose body leaves that block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13 holds its block at every point, whether the point fetched it or its index stood still, for any
    proof data over `V`'s arrays whose body leaves that block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14 holds its block at every point, whether the point fetched it or its index stood still, for any
    proof data over `V`'s arrays whose body leaves that block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15 holds its block at every point, whether the point fetched it or its index stood still, for any
    proof data over `V`'s arrays whose body leaves that block in place. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body's loads and its store go through -/

abbrev whole_S5000x8 : Rect S5000x8 := Rect.unit (s := S5000x8) ![0, 0] S5000x8.size inb_S5000x8_S5000x8_0_0
abbrev whole_S1x256 : Rect S1x256 := Rect.unit (s := S1x256) ![0, 0] S1x256.size inb_S1x256_S1x256_0_0
abbrev whole_S8x256 : Rect S8x256 := Rect.unit (s := S8x256) ![0, 0] S8x256.size inb_S8x256_S8x256_0_0
abbrev whole_S256x256 : Rect S256x256 := Rect.unit (s := S256x256) ![0, 0] S256x256.size inb_S256x256_S256x256_0_0
abbrev whole_S256x8 : Rect S256x8 := Rect.unit (s := S256x8) ![0, 0] S256x8.size inb_S256x8_S256x8_0_0
abbrev whole_S1x8 : Rect S1x8 := Rect.unit (s := S1x8) ![0, 0] S1x8.size inb_S1x8_S1x8_0_0

/-- The offsets of every such rectangle are zero on both axes. -/
theorem zero_offsets : (![0, 0] : Fin 2 → Nat) = fun _ => 0 := funext fun a => by fin_cases a <;> rfl

/-! ## What the body leaves in the output window -/

/-- The output window's buffer after the body, from the sixteen input blocks: the one store's payload laid over the
    whole buffer. The payload is the residual sum of the edge attributes (input 1) and half of the last affine map
    of the chain that starts at the normalised hidden layer of input 0. -/
def out1_16 (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) : Vec F S5000x8 .f32 :=
  View.canon [⟨whole_S5000x8, k1_pay1 (k1_pay2 (View.ld x0 whole_S5000x8) (View.ld x4 whole_S8x256) (View.ld x5 whole_S1x256) (View.ld x3 whole_S1x256) (View.ld x2 whole_S1x256) (View.ld x6 whole_S1x256) (View.ld x7 whole_S1x256) (View.ld x8 whole_S256x256)) (k1_pay3 (View.ld x9 whole_S1x256)) (View.ld x10 whole_S256x256) (View.ld x11 whole_S1x256) (View.ld x12 whole_S256x256) (View.ld x13 whole_S1x256) (View.ld x14 whole_S256x8) (View.ld x15 whole_S1x8) (View.ld x1 whole_S5000x8)⟩]

/-- The one store is through the whole buffer, so it covers every index. -/
theorem cover1_16 (p0 : Vec F S5000x8 .f32) (y : S5000x8.Idx) :
    ∃ pc ∈ ([⟨whole_S5000x8, p0⟩] : List (View.Piece (Elt F) S5000x8 .f32)), y ∈ pc.1.set :=
  ⟨_, List.mem_singleton_self _, View.mem_set_unit_zero zero_offsets inb_S5000x8_S5000x8_0_0 y⟩

/-- A load through a whole-buffer rectangle reads the buffer and a store through one leaves its payload, so the
    output block is one pure term of the input blocks. -/
theorem out1_16_eq (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) :
    out1_16 x0 x1 x2 x3 x4 x5 x6 x7 x8 x9 x10 x11 x12 x13 x14 x15 = k1_pay1 (k1_pay2 x0 x4 x5 x3 x2 x6 x7 x8) (k1_pay3 x9) x10 x11 x12 x13 x14 x15 x1 := by
  unfold out1_16
  rw [View.canon_unit_zero (S := S5000x8) zero_offsets inb_S5000x8_S5000x8_0_0]
  simp only [View.ld_unit_zero (S := S5000x8) zero_offsets inb_S5000x8_S5000x8_0_0, View.ld_unit_zero (S := S1x256) zero_offsets inb_S1x256_S1x256_0_0, View.ld_unit_zero (S := S8x256) zero_offsets inb_S8x256_S8x256_0_0, View.ld_unit_zero (S := S256x256) zero_offsets inb_S256x256_S256x256_0_0, View.ld_unit_zero (S := S256x8) zero_offsets inb_S256x8_S256x8_0_0, View.ld_unit_zero (S := S1x8) zero_offsets inb_S1x8_S1x8_0_0]

/-! ## The body's triple -/

set_option maxHeartbeats 4000000 in
/-- The body on whole staging buffers, the inputs' reading `x0 … x15` and the output's holding anything, runs to a
    state where the inputs read as before and the output reads `out1_16` of them. -/
theorem sound_kernel1 (c : Dev nD) (E : Set ℕ) (i : grid1.Coords) (arg1 : Memref sig .tc .vmem S5000x8 .f32) (harg1 : arg1.IsWhole) (arg2 : Memref sig .tc .vmem S5000x8 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x8 .f32) (harg15 : arg15.IsWhole) (arg16 : Memref sig .tc .vmem S1x8 .f32) (harg16 : arg16.IsWhole) (arg17 : Memref sig .tc .vmem S5000x8 .f32) (harg17 : arg17.IsWhole)
    (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover1_16 _)

/-! ## The pipeline's proof data -/

/-- The proof data of the region on core `c`: the arrays as the region finds them; after the body at point `t` each
    input's buffer still at its block and the output's at `out1_16` of the input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
import proofs.«121266_j58025008169388_1_alg».proof.Proof.Bits.Region0
import proofs.«121266_j58025008169388_1_alg».proof.Proof.Bits.Region1
import proofs.«121266_j58025008169388_1_alg».proof.Proof.Gen.Kernel.Regions

set_option maxRecDepth 16384

/-!
# The run of the two-region program

@main is a host stretch (the gathered and averaged node context, the bias rows), the reduction region (column sums and
column sums of squares of the first-layer activation over all rows), a host stretch (the mean and the variance rows) and the
fused region (normalisation and the four dense layers, blended into the edge attributes). The buffer contents at each of the
five boundaries are a fold from the launch memory; each region is entered with every unscoped buffer at its boundary's
contents and left with its windows' arrays at what the write-backs leave. One run over the four segments gives, in every
final state, every unscoped buffer at the fold's last contents: the frame (each argument array is never written: no host
operation names it and the regions only read it) and the result array are read off that.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, the reduction region, a host stretch, the fused region

## The buffer contents at each boundary, a fold through @main -/

/-- Core `c`'s buffers at launch. -/
abbrev B0 : Dev nD → Valuation τ sig (Elt F) := fun c b => m ((c : Dev nD), b)
/-- After the first host stretch (the gathered and averaged node context, the bias rows). -/
abbrev B1 : Dev nD → Valuation τ sig (Elt F) := fun c => StableHlo.after hostOps0 (B0 m c)
/-- The same read at the TensorCore's references: what the reduction region is entered with. -/
abbrev Vin0 : (c : Dev nD) → (b : Ref sig .tc) → Buf (Elt F) ((c : Thread nD τ).loc b) := fun c b => B1 m c b
/-- After the reduction region: its arrays at what its write-backs leave, every other buffer as entered. -/
def B2 (c : Dev nD) : Valuation τ sig (Elt F) :=
  Pipeline.withArrays spec0 c (B1 m c) fun w => (dat0 (Vin0 m) c).arrAt w cfg0.N
theorem B2_arr (c : Dev nD) (w : Fin cfg0.W) :
    B2 m c (Proc.devRef .tc (Pipeline.arrRef spec0 w)) = (dat0 (Vin0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vout0 : (c : Dev nD) → (b : Ref sig .tc) → Buf (Elt F) ((c : Thread nD τ).loc b) := fun c b => B2 m c b
theorem hF0 (c : Dev nD) (w : Fin cfg0.W) : (dat0 (Vin0 m) c).arrAt w cfg0.N = Vout0 m c (Pipeline.arrRef spec0 w) :=
  (B2_arr m c w).symm
theorem hrest0 (c : Dev nD) : ∀ b, b ∉ Finset.univ.image (Pipeline.arrRef spec0) → Vout0 m c b = Vin0 m c b :=
  fun b hb => B2_of_ne m c b fun w e => hb (Finset.mem_image.mpr ⟨w, Finset.mem_univ _, e⟩)
/-- After the second host stretch (the mean and the variance rows). -/
abbrev B3 : Dev nD → Valuation τ sig (Elt F) := fun c => StableHlo.after hostOps1 (B2 m c)
abbrev Vin1 : (c : Dev nD) → (b : Ref sig .tc) → Buf (Elt F) ((c : Thread nD τ).loc b) := fun c b => B3 m c b
/-- After the fused region: its arrays at what its write-backs leave, every other buffer as entered. -/
def B4 (c : Dev nD) : Valuation τ sig (Elt F) :=
  Pipeline.withArrays spec1 c (B3 m c) fun w => (dat1 (Vin1 m) c).arrAt w cfg1.N
theorem B4_arr (c : Dev nD) (w : Fin cfg1.W) :
    B4 m c (Proc.devRef .tc (Pipeline.arrRef spec1 w)) = (dat1 (Vin1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Vout1 : (c : Dev nD) → (b : Ref sig .tc) → Buf (Elt F) ((c : Thread nD τ).loc b) := fun c b => B4 m c b
theorem hF1 (c : Dev nD) (w : Fin cfg1.W) : (dat1 (Vin1 m) c).arrAt w cfg1.N = Vout1 m c (Pipeline.arrRef spec1 w) :=
  (B4_arr m c w).symm
theorem hrest1 (c : Dev nD) : ∀ b, b ∉ Finset.univ.image (Pipeline.arrRef spec1) → Vout1 m c b = Vin1 m c b :=
  fun b hb => B4_of_ne m c b fun w e => hb (Finset.mem_image.mpr ⟨w, Finset.mem_univ _, e⟩)

/-- A buffer that is no array of the reduction region, or the array of one of its INPUT windows, is as entered. -/
theorem B2_keep (c : Dev nD) (b : Ref sig .tc) (h : ∀ w, Pipeline.arrRef spec0 w = b → (cfg0.win w).isOut = false) :
    B2 m c (Proc.devRef .tc b) = B1 m c (Proc.devRef .tc b) := by
  by_cases hb : ∃ w, Pipeline.arrRef spec0 w = b
  · obtain ⟨w, rfl⟩ := hb
    exact (B2_arr m c w).trans (((dat0 (Vin0 m) c).arrAt_in w (h w rfl) _).trans (A_eq0 (Vin0 m) c w))
  · exact B2_of_ne m c b fun w e => hb ⟨w, e⟩
/-- The same for the fused region. -/
theorem B4_keep (c : Dev nD) (b : Ref sig .tc) (h : ∀ w, Pipeline.arrRef spec1 w = b → (cfg1.win w).isOut = false) :
    B4 m c (Proc.devRef .tc b) = B3 m c (Proc.devRef .tc b) := by
  by_cases hb : ∃ w, Pipeline.arrRef spec1 w = b
  · obtain ⟨w, rfl⟩ := hb
    exact (B4_arr m c w).trans (((dat1 (Vin1 m) c).arrAt_in w (h w rfl) _).trans (A_eq1 (Vin1 m) c w))
  · exact B4_of_ne m c b fun w e => hb ⟨w, e⟩
/-- A buffer no host stretch writes and no region writes back ends as launched. -/
theorem B4_arg (c : Dev nD) (b : Ref sig .tc) (h0 : b ∉ hostOps0_W) (h1 : b ∉ hostOps1_W)
    (hw0 : ∀ w, Pipeline.arrRef spec0 w = b → (cfg0.win w).isOut = false)
    (hw1 : ∀ w, Pipeline.arrRef spec1 w = b → (cfg1.win w).isOut = false) :
    B4 m c (Proc.devRef .tc b) = m ((c : Thread nD τ).loc b) :=
  (B4_keep m c b hw1).trans <| (StableHlo.after_of_writes_sub hostOps1 _ hostOps1_writes h1).trans <|
    (B2_keep m c b hw0).trans <| (StableHlo.after_of_writes_sub hostOps0 _ hostOps0_writes h0).trans rfl

/-- A buffer the first host stretch does not write is as launched when the reduction region is entered. -/
theorem B1_arg (c : Dev nD) (b : Ref sig .tc) (h0 : b ∉ hostOps0_W) :
    B1 m c (Proc.devRef .tc b) = m ((c : Thread nD τ).loc b) :=
  (StableHlo.after_of_writes_sub hostOps0 _ hostOps0_writes h0).trans rfl
/-- A buffer the second host stretch does not write and the reduction region does not write back holds, when the fused
    region is entered, what it held when the reduction region was entered. -/
theorem B3_of_B1 (c : Dev nD) (b : Ref sig .tc) (h1 : b ∉ hostOps1_W)
    (hw0 : ∀ w, Pipeline.arrRef spec0 w = b → (cfg0.win w).isOut = false) :
    B3 m c (Proc.devRef .tc b) = B1 m c (Proc.devRef .tc b) :=
  (StableHlo.after_of_writes_sub hostOps1 _ hostOps1_writes h1).trans (B2_keep m c b hw0)
/-- An argument array is as launched when the fused region is entered. -/
theorem B3_arg (c : Dev nD) (b : Ref sig .tc) (h0 : b ∉ hostOps0_W) (h1 : b ∉ hostOps1_W)
    (hw0 : ∀ w, Pipeline.arrRef spec0 w = b → (cfg0.win w).isOut = false) :
    B3 m c (Proc.devRef .tc b) = m ((c : Thread nD τ).loc b) :=
  (B3_of_B1 m c b h1 hw0).trans (B1_arg m c b h0)

/-! ## The proof data family and the thread state -/

/-- No pipeline has a prefetched table. -/
abbrev admH : (p : Fin 2) → (pcfgs (F := F) p).Adm := fun p => (cfgs p).toPCfg_adm
/-- Each pipeline's proof data at its region's entry contents: a literal match on the pipeline index. -/
def pdats : (p : Fin 2) → (c : Dev nD) → Dat τ (Elt F) Unit ℕ (UR sig nD τ) ℕ (Pipeline.pin (pcfgs (F := F)) admH p) c
  | ⟨0, _⟩ => fun c => dat0 (Vin0 m) c
  | ⟨1, _⟩ => fun c => dat1 (Vin1 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B4 m c) ∗ ∃ r, prngReg c r)

/-! ## The regions as segments -/

set_option backward.isDefEq.respectTransparency.types false in
/-- Region 0 as a segment: entered with every unscoped buffer at the boundary's contents before it, left with them at the
    contents after it; its windows' arrays are split out of the unscoped buffers at entry and put back at exit. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (admH (F := F) 0).1
        ∗ Pipeline.scopedRest (Pipeline.pin (pcfgs (F := F)) admH 0).spec c) : sProp 𝕄) ⊢ Pipeline.ΦA spec0 c := by
      unfold Pipeline.ΦA
      iintro ⟨Hp, -, Hr⟩
      isplitl [Hr]; · iexact Hr
      iexact Hp
    exact h.trans (Phi0_in (Vin0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) admH 0).spec c) := by
      unfold Pipeline.ΦA
      iintro ⟨Hr, Hp⟩
      isplitl [Hp]; · iexact Hp
      isplitr; · iempintro
      iexact Hr
    exact (Phi0_out (Vin0 m) c).trans h
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents before it, left with them at the
    contents after it; its windows' arrays are split out of the unscoped buffers at entry and put back at exit. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segsH m) := (main_chain c).trans (by chain_rfl)

set_option backward.isDefEq.respectTransparency.types false in
/-- THE RUN. From any memory with zero counters every weakly fair execution of @main terminates without a fault, and in
    every final state each unscoped buffer of each core holds the fold's last contents `B4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (B4_arg m c main_arg0 (by decide) (by decide) (by decide) (by decide)),
    (h c _ (mem_uc main_arg1 (by decide))).trans (B4_arg m c main_arg1 (by decide) (by decide) (by decide) (by decide)),
    (h c _ (mem_uc main_arg2 (by decide))).trans (B4_arg m c main_arg2 (by decide) (by decide) (by decide) (by decide)),
    (h c _ (mem_uc main_arg3 (by decide))).trans (B4_arg m c main_arg3 (by decide) (by decide) (by decide) (by decide)),
    (h c _ (mem_uc main_arg4 (by decide))).trans (B4_arg m c main_arg4 (by decide) (by decide) (by decide) (by decide)),
    (h c _ (mem_uc main_arg5 (by decide))).trans (B4_arg m c main_arg5 (by decide) (by decide) (by decide) (by decide)),
    (h c _ (mem_uc main_arg6 (by decide))).trans (B4_arg m c main_arg6 (by decide) (by decide) (by decide) (by decide)),
    (h c _ (mem_uc main_arg7 (by decide))).trans (B4_arg m c main_arg7 (by decide) (by decide) (by decide) (by decide)),
    (h c _ (mem_uc main_arg8 (by decide))).trans (B4_arg m c main_arg8 (by decide) (by decide) (by decide) (by decide)),
    (h c _ (mem_uc main_arg9 (by decide))).trans (B4_arg m c main_arg9 (by decide) (by decide) (by decide) (by decide)),
    (h c _ (mem_uc main_arg10 (by decide))).trans (B4_arg m c main_arg10 (by decide) (by decide) (by decide) (by decide)),
    (h c _ (mem_uc main_arg11 (by decide))).trans (B4_arg m c main_arg11 (by decide) (by decide) (by decide) (by decide)),
    (h c _ (mem_uc main_arg12 (by decide))).trans (B4_arg m c main_arg12 (by decide) (by decide) (by decide) (by decide)),
    (h c _ (mem_uc main_arg13 (by decide))).trans (B4_arg m c main_arg13 (by decide) (by decide) (by decide) (by decide)),
    (h c _ (mem_uc main_arg14 (by decide))).trans (B4_arg m c main_arg14 (by decide) (by decide) (by decide) (by decide)),
    (h c _ (mem_uc main_arg15 (by decide))).trans (B4_arg m c main_arg15 (by decide) (by decide) (by decide) (by decide)),
    (h c _ (mem_uc main_arg16 (by decide))).trans (B4_arg m c main_arg16 (by decide) (by decide) (by decide) (by decide)),
    (h c _ (mem_uc main_arg17 (by decide))).trans (B4_arg m c main_arg17 (by decide) (by decide) (by decide) (by decide)),
    (h c _ (mem_uc main_arg18 (by decide))).trans (B4_arg m c main_arg18 (by decide) (by decide) (by decide) (by decide)),
    (h c _ (mem_uc main_arg19 (by decide))).trans (B4_arg m c main_arg19 (by decide) (by decide) (by decide) (by decide)),
    (h c _ (mem_uc main_arg20 (by decide))).trans (B4_arg m c main_arg20 (by decide) (by decide) (by decide) (by decide))⟩) (run_all m ρ)

/-- The result array in every final state: what the fused region's write-backs leave. -/
theorem run_result : θ_run defs (onTc (τ := τ) (main (F := F))) ⟨m, fun _ => 0, ρ⟩ (fun r => ∀ c : Dev nD,
      r.2.mem ((c.tc : Thread nD τ).loc main_v35) = (dat1 (Vin1 m) c).arrAt 16 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_v35 (by decide))).trans (B4_arr m c 16), (h c _ (mem_uc main_arg0 (by decide))).trans (B4_arg m c main_arg0 (by decide) (by decide) (by decide) (by decide)),
    (h c _ (mem_uc main_arg1 (by decide))).trans (B4_arg m c main_arg1 (by decide) (by decide) (by decide) (by decide)),
    (h c _ (mem_uc main_arg2 (by decide))).trans (B4_arg m c main_arg2 (by decide) (by decide) (by decide) (by decide)),
    (h c _ (mem_uc main_arg3 (by decide))).trans (B4_arg m c main_arg3 (by decide) (by decide) (by decide) (by decide)),
    (h c _ (mem_uc main_arg4 (by decide))).trans (B4_arg m c main_arg4 (by decide) (by decide) (by decide) (by decide)),
    (h c _ (mem_uc main_arg5 (by decide))).trans (B4_arg m c main_arg5 (by decide) (by decide) (by decide) (by decide)),
    (h c _ (mem_uc main_arg6 (by decide))).trans (B4_arg m c main_arg6 (by decide) (by decide) (by decide) (by decide)),
    (h c _ (mem_uc main_arg7 (by decide))).trans (B4_arg m c main_arg7 (by decide) (by decide) (by decide) (by decide)),
    (h c _ (mem_uc main_arg8 (by decide))).trans (B4_arg m c main_arg8 (by decide) (by decide) (by decide) (by decide)),
    (h c _ (mem_uc main_arg9 (by decide))).trans (B4_arg m c main_arg9 (by decide) (by decide) (by decide) (by decide)),
    (h c _ (mem_uc main_arg10 (by decide))).trans (B4_arg m c main_arg10 (by decide) (by decide) (by decide) (by decide)),
    (h c _ (mem_uc main_arg11 (by decide))).trans (B4_arg m c main_arg11 (by decide) (by decide) (by decide) (by decide)),
    (h c _ (mem_uc main_arg12 (by decide))).trans (B4_arg m c main_arg12 (by decide) (by decide) (by decide) (by decide)),
    (h c _ (mem_uc main_arg13 (by decide))).trans (B4_arg m c main_arg13 (by decide) (by decide) (by decide) (by decide)),
    (h c _ (mem_uc main_arg14 (by decide))).trans (B4_arg m c main_arg14 (by decide) (by decide) (by decide) (by decide)),
    (h c _ (mem_uc main_arg15 (by decide))).trans (B4_arg m c main_arg15 (by decide) (by decide) (by decide) (by decide)),
    (h c _ (mem_uc main_arg16 (by decide))).trans (B4_arg m c main_arg16 (by decide) (by decide) (by decide) (by decide)),
    (h c _ (mem_uc main_arg17 (by decide))).trans (B4_arg m c main_arg17 (by decide) (by decide) (by decide) (by decide)),
    (h c _ (mem_uc main_arg18 (by decide))).trans (B4_arg m c main_arg18 (by decide) (by decide) (by decide) (by decide)),
    (h c _ (mem_uc main_arg19 (by decide))).trans (B4_arg m c main_arg19 (by decide) (by decide) (by decide) (by decide)),
    (h c _ (mem_uc main_arg20 (by decide))).trans (B4_arg m c main_arg20 (by decide) (by decide) (by decide) (by decide))⟩) (run_all m ρ)

end Cert.Kernel.Hand

end
-- ==== Proof.Ideal.Region0.lean ====
import proofs.«121266_j58025008169388_1_alg».proof.Proof.Gen.KernelIdeal.Launch
import proofs.«121266_j58025008169388_1_alg».proof.Proof.Gen.KernelIdeal.Skeleton
import proofs.«121266_j58025008169388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the column sums of the rectified rows and of their squares, accumulated over the grid

The body adds, at every grid point, the column sums of the block's rectified affine image (and of its
square) to two rows it keeps from point to point; it clears the two rows at the first point and copies them
to the two result blocks at the last. This module states what the two rows hold after each point, by
recursion on the point, and proves that the body, run at any point from the rows as the point before left
them, leaves them so. -/

/-! ## The two conditions of the body, in closed form over the grid -/

/-- The condition under which the body clears the two rows: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition under which the body copies the two rows out: the grid coordinate is the last. -/
abbrev cond0_1 (i : grid0.Coords) : Prop := k0_cond2 i = 1#1
/-- It holds at the last point only. -/
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point the two result windows are idle and not written back; at it they are live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## A row stored whole reads back as what was stored -/

/-- The zero offsets, however spelt. -/
theorem offs0_zero : (![0, 0] : Fin 2 → ℕ) = fun _ => 0 := funext fun a => by fin_cases a <;> rfl

/-- The whole-row rectangle through which the body loads and stores each [1,256] row. -/
abbrev rRow0 : Rect S1x256 := Rect.unit (s := S1x256) ![0, 0] S1x256.size inb_S1x256_S1x256_0_0

/-- A row whose last store went through the whole-row rectangle reads as that store's payload, whatever the
    view, the earlier stores and the contents before them: the last store covers every index. -/
theorem read_row0_last {sig' : RefSig} {κ : Kind} {sp : Space} (v : View sig' κ sp S1x256 .f32) (f : v.ty.Contents (Elt F))
    (w : Vec F S1x256 .f32) (L : List (View.Piece (Elt F) S1x256 .f32)) :
    v.read (Elt F) (v.writes (Elt F) f (⟨rRow0, w⟩ :: L)) = w := by
  rw [View.read_writes_eq_canon _ _ _ (fun y => ⟨_, List.mem_cons_self, View.mem_set_unit_zero offs0_zero inb_S1x256_S1x256_0_0 y⟩),
    View.canon_cons_unit_zero offs0_zero]

set_option maxHeartbeats 1000000 in
theorem run0_A (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : cond0_0 i) (hc1 : ¬cond0_1 i)
    (x0 : Vec F S5000x8 .f32) (x1 : Vec F S8x256 .f32) (x2 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg6 fullShare (k0_pay4 x0 x1 x2 k0_pay1) ∗ owns (c : Thread nD τ) arg7 fullShare (k0_pay5 x0 x1 x2 k0_pay2)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

set_option maxHeartbeats 1000000 in
theorem run0_B (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : ¬cond0_0 i) (hc1 : ¬cond0_1 i)
    (x0 : Vec F S5000x8 .f32) (x1 : Vec F S8x256 .f32) (x2 : Vec F S1x256 .f32) (xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg6 fullShare (k0_pay4 x0 x1 x2 xs0) ∗ owns (c : Thread nD τ) arg7 fullShare (k0_pay5 x0 x1 x2 xs1)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

set_option maxHeartbeats 1000000 in
theorem run0_C (c : Dev nD) (i : grid0.Coords) (arg1 : Memref sig .tc .vmem S5000x8 .f32) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole)
    (hc0 : ¬cond0_0 i) (hc1 : cond0_1 i)
    (x0 : Vec F S5000x8 .f32) (x1 : Vec F S8x256 .f32) (x2 : Vec F S1x256 .f32) (xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 x2 xs0) ∗ owns (c : Thread nD τ) arg5 fullShare (k0_pay5 x0 x1 x2 xs1) ∗ owns (c : Thread nD τ) arg6 fullShare (k0_pay4 x0 x1 x2 xs0) ∗ owns (c : Thread nD τ) arg7 fullShare (k0_pay5 x0 x1 x2 xs1)) -∗ K ⟨⟩))
      ⊢ wp frame (wpE (defs₀ (F := F)) Variants.none c none) E (cc0__reduction_kernel i arg1 harg1 arg2 harg2 arg3 harg3 arg4 harg4 arg5 harg5 arg6 harg6 arg7 harg7) K := by
  simp only [cc0__reduction_kernel_eq_skeleton]; unfold cc0__reduction_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  isplitl [H4]
  · iexists _; isplitr
    swap; · iexact H4
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  isplitl [HS0]
  · iexists _; isplitr
    swap; · iexact HS0
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]
  · iexists _; isplitr
    swap; · iexact HS1
    ipureintro
    sl_unfold_words
    refine (read_row0_last _ _ _ _).trans ?_
    simp only [View.readAt_eq_ld, View.ld_unit_zero (S := S5000x8) (Val := Elt F) offs0_zero, View.ld_unit_zero (S := S8x256) (Val := Elt F) offs0_zero,
      View.ld_unit_zero (S := S1x256) (Val := Elt F) offs0_zero, View.readCov_cons_toLoadRect]

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the two carried rows hold after each point -/

/-- The two rows after point `n`: after the first point, the column sums of the first block's rectified image
    (and of its square) added to the zero rows; after a later one, those of that point's block added to what the
    point before left. -/
def accAt0 (c : Dev nD) : (n : ℕ) → n < cfg0.N → Vec F S1x256 .f32 × Vec F S1x256 .f32
  | 0, hn => (k0_pay4 (iblk0 V c 0 ⟨0, hn⟩) (iblk0 V c 1 ⟨0, hn⟩) (iblk0 V c 2 ⟨0, hn⟩) k0_pay1,
      k0_pay5 (iblk0 V c 0 ⟨0, hn⟩) (iblk0 V c 1 ⟨0, hn⟩) (iblk0 V c 2 ⟨0, hn⟩) k0_pay2)
  | n + 1, hn => (k0_pay4 (iblk0 V c 0 ⟨n + 1, hn⟩) (iblk0 V c 1 ⟨n + 1, hn⟩) (iblk0 V c 2 ⟨n + 1, hn⟩) (accAt0 c n (Nat.lt_of_succ_lt hn)).1,
      k0_pay5 (iblk0 V c 0 ⟨n + 1, hn⟩) (iblk0 V c 1 ⟨n + 1, hn⟩) (iblk0 V c 2 ⟨n + 1, hn⟩) (accAt0 c n (Nat.lt_of_succ_lt hn)).2)

/-- After the first point. -/
theorem accAt0_zero (c : Dev nD) (hn : 0 < cfg0.N) :
    accAt0 V c 0 hn = (k0_pay4 (iblk0 V c 0 ⟨0, hn⟩) (iblk0 V c 1 ⟨0, hn⟩) (iblk0 V c 2 ⟨0, hn⟩) k0_pay1,
      k0_pay5 (iblk0 V c 0 ⟨0, hn⟩) (iblk0 V c 1 ⟨0, hn⟩) (iblk0 V c 2 ⟨0, hn⟩) k0_pay2) := rfl

/-- After a later point: that point's sums added to what the point before left. -/
theorem accAt0_succ (c : Dev nD) (n : ℕ) (hn : n + 1 < cfg0.N) :
    accAt0 V c (n + 1) hn = (k0_pay4 (iblk0 V c 0 ⟨n + 1, hn⟩) (iblk0 V c 1 ⟨n + 1, hn⟩) (iblk0 V c 2 ⟨n + 1, hn⟩) (accAt0 V c n (Nat.lt_of_succ_lt hn)).1,
      k0_pay5 (iblk0 V c 0 ⟨n + 1, hn⟩) (iblk0 V c 1 ⟨n + 1, hn⟩) (iblk0 V c 2 ⟨n + 1, hn⟩) (accAt0 V c n (Nat.lt_of_succ_lt hn)).2) := rfl

/-- The same two equations at a point of the grid. -/
theorem accAt0_first (c : Dev nD) (t : Fin cfg0.N) (h : t.val = 0) :
    accAt0 V c t.val t.isLt = (k0_pay4 (iblk0 V c 0 t) (iblk0 V c 1 t) (iblk0 V c 2 t) k0_pay1,
      k0_pay5 (iblk0 V c 0 t) (iblk0 V c 1 t) (iblk0 V c 2 t) k0_pay2) := by
  obtain ⟨n, hn⟩ := t
  cases n with
  | zero => rfl
  | succ n => exact absurd h (Nat.succ_ne_zero n)

theorem accAt0_later (c : Dev nD) (t : Fin cfg0.N) (h : t.val ≠ 0) :
    accAt0 V c t.val t.isLt = (k0_pay4 (iblk0 V c 0 t) (iblk0 V c 1 t) (iblk0 V c 2 t) (accAt0 V c (t.val - 1) (Nat.lt_of_le_of_lt (Nat.sub_le _ _) t.isLt)).1,
      k0_pay5 (iblk0 V c 0 t) (iblk0 V c 1 t) (iblk0 V c 2 t) (accAt0 V c (t.val - 1) (Nat.lt_of_le_of_lt (Nat.sub_le _ _) t.isLt)).2) := by
  obtain ⟨n, hn⟩ := t
  cases n with
  | zero => exact absurd rfl h
  | succ n => rfl

/-! ## The region invariant -/

/-- The two rows the body keeps from point to point, as memrefs. -/
abbrev scM0_0 : Memref sig .tc .vmem S1x256 .f32 := Memref.whole cc0_scratch0
abbrev scM0_1 : Memref sig .tc .vmem S1x256 .f32 := Memref.whole cc0_scratch1

/-- Every other scoped buffer of the core that is no staging buffer of this region, at some contents each. -/
abbrev restS0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two rows split off as memrefs owned at some contents. -/
theorem PhiA0_eq (c : Dev nD) :
    (Pipeline.ΦA spec0 c : sProp 𝕄)
      = iprop(((( ∃ d, owns (c : Thread nD τ) scM0_0 fullShare d) ∗ (∃ d, owns (c : Thread nD τ) scM0_1 fullShare d)) ∗ restS0 c) ∗ (∃ r, prngReg c r)) := by
  unfold Pipeline.ΦA
  rw [Pipeline.scopedRest_split_of_list spec0 c [cc0_scratch0, cc0_scratch1] (by decide) (by decide)]
  simp only [scM0_0, scM0_1, owns_whole]; try rfl

/-- The invariant before position `n`: before the first point what the launch hands the region; afterwards the
    two rows owned at what the point before left in them, beside the other scoped buffers and the generator
    register at some state. -/
def PhiS0 (c : Dev nD) : (n : ℕ) → n ≤ cfg0.N → sProp 𝕄
  | 0, _ => Pipeline.ΦA spec0 c
  | n + 1, hn => iprop(((owns (c : Thread nD τ) scM0_0 fullShare (accAt0 V c n hn).1 ∗ owns (c : Thread nD τ) scM0_1 fullShare (accAt0 V c n hn).2) ∗ restS0 c) ∗ (∃ r, prngReg c r))

theorem PhiS0_zero (c : Dev nD) (n : ℕ) (h : n ≤ cfg0.N) (hn0 : n = 0) : PhiS0 V c n h = Pipeline.ΦA spec0 c := by
  subst hn0; rfl

theorem PhiS0_succ (c : Dev nD) (n : ℕ) (hn : n < cfg0.N) :
    PhiS0 V c (n + 1) hn = iprop(((owns (c : Thread nD τ) scM0_0 fullShare (accAt0 V c n hn).1 ∗ owns (c : Thread nD τ) scM0_1 fullShare (accAt0 V c n hn).2) ∗ restS0 c) ∗ (∃ r, prngReg c r)) := rfl

theorem PhiS0_pos (c : Dev nD) (n : ℕ) (h : n ≤ cfg0.N) (hn0 : n ≠ 0) :
    PhiS0 V c n h = iprop(((owns (c : Thread nD τ) scM0_0 fullShare (accAt0 V c (n - 1) (by omega)).1 ∗ owns (c : Thread nD τ) scM0_1 fullShare (accAt0 V c (n - 1) (by omega)).2) ∗ restS0 c) ∗ (∃ r, prngReg c r)) := by
  cases n with
  | zero => exact absurd rfl hn0
  | succ n => rfl

/-! ## The proof data -/

/-- The proof data of the region on core `c`: the arrays as the region finds them; after the body at point `t`
    each input's buffer at its block and the two result buffers at the two rows after `t`; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accAt0 V c t.val t.isLt).1 := by dsimp only [dat0]
theorem after0_4 (c : Dev nD) (t : Fin cfg0.N) : (dat0 V c).after 4 t = (accAt0 V c t.val t.isLt).2 := by dsimp only [dat0]

/-- At the last point the two result buffers hold the two rows. -/
theorem after0_3_last (c : Dev nD) (t : Fin cfg0.N) (ht : t.val = 99) : (dat0 V c).after 3 t = (accAt0 V c t.val t.isLt).1 := after0_3 V c t
theorem after0_4_last (c : Dev nD) (t : Fin cfg0.N) (ht : t.val = 99) : (dat0 V c).after 4 t = (accAt0 V c t.val t.isLt).2 := after0_4 V c t

/-- Each input's current staging buffer holds its block at every point, fetched there or not: an unfetched
    window's block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body. -/
abbrev ms0_0 (t : Fin cfg0.N) : Memref sig .tc .vmem S5000x8 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1x256 .f32 := win0_4.stage (cfg0.slots t 4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the grid coordinate says which of the three
    control cases the point is in. At the first point the invariant hands the body the two rows at anything and
    the body clears them before adding; at a later point it hands them at what the point before left. In every
    case it takes them back at this point's contents. Off the last point the two result buffers are handed back
    as found; at the last they hold the two rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val = 0
  · have h1 : ¬t.val = 99 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [accAt0_first V c t h0]; dsimp only
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, H3, H4⟩
    iapply (run0_A c (grid0.coords t) _ _ _ _ _ _ _ _ _ _ _ _ _ _ ((hcond0_0 t).mpr h0) (fun h => h1 ((hcond0_1 t).mp h)) (iblk0 V c 0 t) (iblk0 V c 1 t) (iblk0 V c 2 t) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · rw [accAt0_later V c t h0]; dsimp only
    rw [PhiS0_castSucc V c t, PhiS0_pos V c _ _ h0]
    by_cases h1 : t.val = 99
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [accAt0_later V c t h0]; dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      iintro ⟨⟨⟨⟨HS0, HS1⟩, HR⟩, Hg⟩, Ho, ⟨%d0, H0⟩, ⟨%d1, H1⟩, ⟨%d2, H2⟩, H3, H4⟩
      iapply (run0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: what the two rows hold is forgotten. -/
theorem Phi0_out (c : Dev nD) : (dat0 V c).Φ (Fin.last cfg0.N) ⊢ Pipeline.ΦA spec0 c := by
  have hN : cfg0.N = 100 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

end Cert.KernelIdeal.Hand

end
-- ==== Proof.Ideal.Region1.lean ====
/- Region 1 of the kernel, the frame half. The region walks 100 blocks of 5000 rows. At each point its body loads the
   sixteen input windows' blocks, computes the normalised hidden layer and the four affine maps after it, and stores
   the whole output block once. This module states, for any contents V of the buffers when the region is entered,
   what each window's block is, what the one store leaves in the output window as a function of the input blocks,
   and that the body meets the pipeline's obligation at every point. -/
import proofs.«121266_j58025008169388_1_alg».proof.Proof.Gen.KernelIdeal.Launch
import proofs.«121266_j58025008169388_1_alg».proof.Proof.Gen.KernelIdeal.Skeleton
import proofs.«121266_j58025008169388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or its index stood still, for any
    proof data over `V`'s arrays whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether the point fetched it or its index stood still, for any
    proof data over `V`'s arrays whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether the point fetched it or its index stood still, for any
    proof data over `V`'s arrays whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether the point fetched it or its index stood still, for any
    proof data over `V`'s arrays whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, whether the point fetched it or its index stood still, for any
    proof data over `V`'s arrays whose body leaves that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, whether the point fetched it or its index stood still, for any
    proof data over `V`'s arrays whose body leaves that block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 holds its block at every point, whether the point fetched it or its index stood still, for any
    proof data over `V`'s arrays whose body leaves that block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 holds its block at every point, whether the point fetched it or its index stood still, for any
    proof data over `V`'s arrays whose body leaves that block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8 holds its block at every point, whether the point fetched it or its index stood still, for any
    proof data over `V`'s arrays whose body leaves that block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9 holds its block at every point, whether the point fetched it or its index stood still, for any
    proof data over `V`'s arrays whose body leaves that block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10 holds its block at every point, whether the point fetched it or its index stood still, for any
    proof data over `V`'s arrays whose body leaves that block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11 holds its block at every point, whether the point fetched it or its index stood still, for any
    proof data over `V`'s arrays whose body leaves that block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12 holds its block at every point, whether the point fetched it or its index stood still, for any
    proof data over `V`'s arrays whose body leaves that block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13 holds its block at every point, whether the point fetched it or its index stood still, for any
    proof data over `V`'s arrays whose body leaves that block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14 holds its block at every point, whether the point fetched it or its index stood still, for any
    proof data over `V`'s arrays whose body leaves that block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15 holds its block at every point, whether the point fetched it or its index stood still, for any
    proof data over `V`'s arrays whose body leaves that block in place. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body's loads and its store go through -/

abbrev whole_S5000x8 : Rect S5000x8 := Rect.unit (s := S5000x8) ![0, 0] S5000x8.size inb_S5000x8_S5000x8_0_0
abbrev whole_S1x256 : Rect S1x256 := Rect.unit (s := S1x256) ![0, 0] S1x256.size inb_S1x256_S1x256_0_0
abbrev whole_S8x256 : Rect S8x256 := Rect.unit (s := S8x256) ![0, 0] S8x256.size inb_S8x256_S8x256_0_0
abbrev whole_S256x256 : Rect S256x256 := Rect.unit (s := S256x256) ![0, 0] S256x256.size inb_S256x256_S256x256_0_0
abbrev whole_S256x8 : Rect S256x8 := Rect.unit (s := S256x8) ![0, 0] S256x8.size inb_S256x8_S256x8_0_0
abbrev whole_S1x8 : Rect S1x8 := Rect.unit (s := S1x8) ![0, 0] S1x8.size inb_S1x8_S1x8_0_0

/-- The offsets of every such rectangle are zero on both axes. -/
theorem zero_offsets : (![0, 0] : Fin 2 → Nat) = fun _ => 0 := funext fun a => by fin_cases a <;> rfl

/-! ## What the body leaves in the output window -/

/-- The output window's buffer after the body, from the sixteen input blocks: the one store's payload laid over the
    whole buffer. The payload is the residual sum of the edge attributes (input 1) and half of the last affine map
    of the chain that starts at the normalised hidden layer of input 0. -/
def out1_16 (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) : Vec F S5000x8 .f32 :=
  View.canon [⟨whole_S5000x8, k1_pay1 (k1_pay2 (View.ld x0 whole_S5000x8) (View.ld x4 whole_S8x256) (View.ld x5 whole_S1x256) (View.ld x3 whole_S1x256) (View.ld x2 whole_S1x256) (View.ld x6 whole_S1x256) (View.ld x7 whole_S1x256) (View.ld x8 whole_S256x256)) (k1_pay3 (View.ld x9 whole_S1x256)) (View.ld x10 whole_S256x256) (View.ld x11 whole_S1x256) (View.ld x12 whole_S256x256) (View.ld x13 whole_S1x256) (View.ld x14 whole_S256x8) (View.ld x15 whole_S1x8) (View.ld x1 whole_S5000x8)⟩]

/-- The one store is through the whole buffer, so it covers every index. -/
theorem cover1_16 (p0 : Vec F S5000x8 .f32) (y : S5000x8.Idx) :
    ∃ pc ∈ ([⟨whole_S5000x8, p0⟩] : List (View.Piece (Elt F) S5000x8 .f32)), y ∈ pc.1.set :=
  ⟨_, List.mem_singleton_self _, View.mem_set_unit_zero zero_offsets inb_S5000x8_S5000x8_0_0 y⟩

/-- A load through a whole-buffer rectangle reads the buffer and a store through one leaves its payload, so the
    output block is one pure term of the input blocks. -/
theorem out1_16_eq (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) :
    out1_16 x0 x1 x2 x3 x4 x5 x6 x7 x8 x9 x10 x11 x12 x13 x14 x15 = k1_pay1 (k1_pay2 x0 x4 x5 x3 x2 x6 x7 x8) (k1_pay3 x9) x10 x11 x12 x13 x14 x15 x1 := by
  unfold out1_16
  rw [View.canon_unit_zero (S := S5000x8) zero_offsets inb_S5000x8_S5000x8_0_0]
  simp only [View.ld_unit_zero (S := S5000x8) zero_offsets inb_S5000x8_S5000x8_0_0, View.ld_unit_zero (S := S1x256) zero_offsets inb_S1x256_S1x256_0_0, View.ld_unit_zero (S := S8x256) zero_offsets inb_S8x256_S8x256_0_0, View.ld_unit_zero (S := S256x256) zero_offsets inb_S256x256_S256x256_0_0, View.ld_unit_zero (S := S256x8) zero_offsets inb_S256x8_S256x8_0_0, View.ld_unit_zero (S := S1x8) zero_offsets inb_S1x8_S1x8_0_0]

/-! ## The body's triple -/

set_option maxHeartbeats 4000000 in
/-- The body on whole staging buffers, the inputs' reading `x0 … x15` and the output's holding anything, runs to a
    state where the inputs read as before and the output reads `out1_16` of them. -/
theorem sound_kernel1 (c : Dev nD) (E : Set ℕ) (i : grid1.Coords) (arg1 : Memref sig .tc .vmem S5000x8 .f32) (harg1 : arg1.IsWhole) (arg2 : Memref sig .tc .vmem S5000x8 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x8 .f32) (harg15 : arg15.IsWhole) (arg16 : Memref sig .tc .vmem S1x8 .f32) (harg16 : arg16.IsWhole) (arg17 : Memref sig .tc .vmem S5000x8 .f32) (harg17 : arg17.IsWhole)
    (x0 : Vec F S5000x8 .f32) (x1 : Vec F S5000x8 .f32) (x2 : Vec F S1x256 .f32) (x3 : Vec F S1x256 .f32) (x4 : Vec F S8x256 .f32) (x5 : Vec F S1x256 .f32) (x6 : Vec F S1x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x8 .f32) (x15 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out1_16 x0 x1 x2 x3 x4 x5 x6 x7 x8 x9 x10 x11 x12 x13 x14 x15)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover1_16 _)

/-! ## The pipeline's proof data -/

/-- The proof data of the region on core `c`: the arrays as the region finds them; after the body at point `t` each
    input's buffer still at its block and the output's at `out1_16` of the input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 17, h⟩ => absurd h (Nat.not_lt.2 (Nat.le_add_left _ _))
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
import proofs.«121266_j58025008169388_1_alg».proof.Proof.Ideal.Region0
import proofs.«121266_j58025008169388_1_alg».proof.Proof.Ideal.Region1
import proofs.«121266_j58025008169388_1_alg».proof.Proof.Gen.KernelIdeal.Regions

set_option maxRecDepth 16384

/-!
# The run of the two-region program

@main is a host stretch (the gathered and averaged node context, the bias rows), the reduction region (column sums and
column sums of squares of the first-layer activation over all rows), a host stretch (the mean and the variance rows) and the
fused region (normalisation and the four dense layers, blended into the edge attributes). The buffer contents at each of the
five boundaries are a fold from the launch memory; each region is entered with every unscoped buffer at its boundary's
contents and left with its windows' arrays at what the write-backs leave. One run over the four segments gives, in every
final state, every unscoped buffer at the fold's last contents: the frame (each argument array is never written: no host
operation names it and the regions only read it) and the result array are read off that.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, the reduction region, a host stretch, the fused region

## The buffer contents at each boundary, a fold through @main -/

/-- Core `c`'s buffers at launch. -/
abbrev B0 : Dev nD → Valuation τ sig (Elt F) := fun c b => m ((c : Dev nD), b)
/-- After the first host stretch (the gathered and averaged node context, the bias rows). -/
abbrev B1 : Dev nD → Valuation τ sig (Elt F) := fun c => StableHlo.after hostOps0 (B0 m c)
/-- The same read at the TensorCore's references: what the reduction region is entered with. -/
abbrev Vin0 : (c : Dev nD) → (b : Ref sig .tc) → Buf (Elt F) ((c : Thread nD τ).loc b) := fun c b => B1 m c b
/-- After the reduction region: its arrays at what its write-backs leave, every other buffer as entered. -/
def B2 (c : Dev nD) : Valuation τ sig (Elt F) :=
  Pipeline.withArrays spec0 c (B1 m c) fun w => (dat0 (Vin0 m) c).arrAt w cfg0.N
theorem B2_arr (c : Dev nD) (w : Fin cfg0.W) :
    B2 m c (Proc.devRef .tc (Pipeline.arrRef spec0 w)) = (dat0 (Vin0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vout0 : (c : Dev nD) → (b : Ref sig .tc) → Buf (Elt F) ((c : Thread nD τ).loc b) := fun c b => B2 m c b
theorem hF0 (c : Dev nD) (w : Fin cfg0.W) : (dat0 (Vin0 m) c).arrAt w cfg0.N = Vout0 m c (Pipeline.arrRef spec0 w) :=
  (B2_arr m c w).symm
theorem hrest0 (c : Dev nD) : ∀ b, b ∉ Finset.univ.image (Pipeline.arrRef spec0) → Vout0 m c b = Vin0 m c b :=
  fun b hb => B2_of_ne m c b fun w e => hb (Finset.mem_image.mpr ⟨w, Finset.mem_univ _, e⟩)
/-- After the second host stretch (the mean and the variance rows). -/
abbrev B3 : Dev nD → Valuation τ sig (Elt F) := fun c => StableHlo.after hostOps1 (B2 m c)
abbrev Vin1 : (c : Dev nD) → (b : Ref sig .tc) → Buf (Elt F) ((c : Thread nD τ).loc b) := fun c b => B3 m c b
/-- After the fused region: its arrays at what its write-backs leave, every other buffer as entered. -/
def B4 (c : Dev nD) : Valuation τ sig (Elt F) :=
  Pipeline.withArrays spec1 c (B3 m c) fun w => (dat1 (Vin1 m) c).arrAt w cfg1.N
theorem B4_arr (c : Dev nD) (w : Fin cfg1.W) :
    B4 m c (Proc.devRef .tc (Pipeline.arrRef spec1 w)) = (dat1 (Vin1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Vout1 : (c : Dev nD) → (b : Ref sig .tc) → Buf (Elt F) ((c : Thread nD τ).loc b) := fun c b => B4 m c b
theorem hF1 (c : Dev nD) (w : Fin cfg1.W) : (dat1 (Vin1 m) c).arrAt w cfg1.N = Vout1 m c (Pipeline.arrRef spec1 w) :=
  (B4_arr m c w).symm
theorem hrest1 (c : Dev nD) : ∀ b, b ∉ Finset.univ.image (Pipeline.arrRef spec1) → Vout1 m c b = Vin1 m c b :=
  fun b hb => B4_of_ne m c b fun w e => hb (Finset.mem_image.mpr ⟨w, Finset.mem_univ _, e⟩)

/-- A buffer that is no array of the reduction region, or the array of one of its INPUT windows, is as entered. -/
theorem B2_keep (c : Dev nD) (b : Ref sig .tc) (h : ∀ w, Pipeline.arrRef spec0 w = b → (cfg0.win w).isOut = false) :
    B2 m c (Proc.devRef .tc b) = B1 m c (Proc.devRef .tc b) := by
  by_cases hb : ∃ w, Pipeline.arrRef spec0 w = b
  · obtain ⟨w, rfl⟩ := hb
    exact (B2_arr m c w).trans (((dat0 (Vin0 m) c).arrAt_in w (h w rfl) _).trans (A_eq0 (Vin0 m) c w))
  · exact B2_of_ne m c b fun w e => hb ⟨w, e⟩
/-- The same for the fused region. -/
theorem B4_keep (c : Dev nD) (b : Ref sig .tc) (h : ∀ w, Pipeline.arrRef spec1 w = b → (cfg1.win w).isOut = false) :
    B4 m c (Proc.devRef .tc b) = B3 m c (Proc.devRef .tc b) := by
  by_cases hb : ∃ w, Pipeline.arrRef spec1 w = b
  · obtain ⟨w, rfl⟩ := hb
    exact (B4_arr m c w).trans (((dat1 (Vin1 m) c).arrAt_in w (h w rfl) _).trans (A_eq1 (Vin1 m) c w))
  · exact B4_of_ne m c b fun w e => hb ⟨w, e⟩
/-- A buffer no host stretch writes and no region writes back ends as launched. -/
theorem B4_arg (c : Dev nD) (b : Ref sig .tc) (h0 : b ∉ hostOps0_W) (h1 : b ∉ hostOps1_W)
    (hw0 : ∀ w, Pipeline.arrRef spec0 w = b → (cfg0.win w).isOut = false)
    (hw1 : ∀ w, Pipeline.arrRef spec1 w = b → (cfg1.win w).isOut = false) :
    B4 m c (Proc.devRef .tc b) = m ((c : Thread nD τ).loc b) :=
  (B4_keep m c b hw1).trans <| (StableHlo.after_of_writes_sub hostOps1 _ hostOps1_writes h1).trans <|
    (B2_keep m c b hw0).trans <| (StableHlo.after_of_writes_sub hostOps0 _ hostOps0_writes h0).trans rfl

/-- A buffer the first host stretch does not write is as launched when the reduction region is entered. -/
theorem B1_arg (c : Dev nD) (b : Ref sig .tc) (h0 : b ∉ hostOps0_W) :
    B1 m c (Proc.devRef .tc b) = m ((c : Thread nD τ).loc b) :=
  (StableHlo.after_of_writes_sub hostOps0 _ hostOps0_writes h0).trans rfl
/-- A buffer the second host stretch does not write and the reduction region does not write back holds, when the fused
    region is entered, what it held when the reduction region was entered. -/
theorem B3_of_B1 (c : Dev nD) (b : Ref sig .tc) (h1 : b ∉ hostOps1_W)
    (hw0 : ∀ w, Pipeline.arrRef spec0 w = b → (cfg0.win w).isOut = false) :
    B3 m c (Proc.devRef .tc b) = B1 m c (Proc.devRef .tc b) :=
  (StableHlo.after_of_writes_sub hostOps1 _ hostOps1_writes h1).trans (B2_keep m c b hw0)
/-- An argument array is as launched when the fused region is entered. -/
theorem B3_arg (c : Dev nD) (b : Ref sig .tc) (h0 : b ∉ hostOps0_W) (h1 : b ∉ hostOps1_W)
    (hw0 : ∀ w, Pipeline.arrRef spec0 w = b → (cfg0.win w).isOut = false) :
    B3 m c (Proc.devRef .tc b) = m ((c : Thread nD τ).loc b) :=
  (B3_of_B1 m c b h1 hw0).trans (B1_arg m c b h0)

/-! ## The proof data family and the thread state -/

/-- No pipeline has a prefetched table. -/
abbrev admH : (p : Fin 2) → (pcfgs (F := F) p).Adm := fun p => (cfgs p).toPCfg_adm
/-- Each pipeline's proof data at its region's entry contents: a literal match on the pipeline index. -/
def pdats : (p : Fin 2) → (c : Dev nD) → Dat τ (Elt F) Unit ℕ (UR sig nD τ) ℕ (Pipeline.pin (pcfgs (F := F)) admH p) c
  | ⟨0, _⟩ => fun c => dat0 (Vin0 m) c
  | ⟨1, _⟩ => fun c => dat1 (Vin1 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B4 m c) ∗ ∃ r, prngReg c r)

/-! ## The regions as segments -/

set_option backward.isDefEq.respectTransparency.types false in
/-- Region 0 as a segment: entered with every unscoped buffer at the boundary's contents before it, left with them at the
    contents after it; its windows' arrays are split out of the unscoped buffers at entry and put back at exit. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (admH (F := F) 0).1
        ∗ Pipeline.scopedRest (Pipeline.pin (pcfgs (F := F)) admH 0).spec c) : sProp 𝕄) ⊢ Pipeline.ΦA spec0 c := by
      unfold Pipeline.ΦA
      iintro ⟨Hp, -, Hr⟩
      isplitl [Hr]; · iexact Hr
      iexact Hp
    exact h.trans (Phi0_in (Vin0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) admH 0).spec c) := by
      unfold Pipeline.ΦA
      iintro ⟨Hr, Hp⟩
      isplitl [Hp]; · iexact Hp
      isplitr; · iempintro
      iexact Hr
    exact (Phi0_out (Vin0 m) c).trans h
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents before it, left with them at the
    contents after it; its windows' arrays are split out of the unscoped buffers at entry and put back at exit. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segsH m) := (main_chain c).trans (by chain_rfl)

set_option backward.isDefEq.respectTransparency.types false in
/-- THE RUN. From any memory with zero counters every weakly fair execution of @main terminates without a fault, and in
    every final state each unscoped buffer of each core holds the fold's last contents `B4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (B4_arg m c main_arg0 (by decide) (by decide) (by decide) (by decide)),
    (h c _ (mem_uc main_arg1 (by decide))).trans (B4_arg m c main_arg1 (by decide) (by decide) (by decide) (by decide)),
    (h c _ (mem_uc main_arg2 (by decide))).trans (B4_arg m c main_arg2 (by decide) (by decide) (by decide) (by decide)),
    (h c _ (mem_uc main_arg3 (by decide))).trans (B4_arg m c main_arg3 (by decide) (by decide) (by decide) (by decide)),
    (h c _ (mem_uc main_arg4 (by decide))).trans (B4_arg m c main_arg4 (by decide) (by decide) (by decide) (by decide)),
    (h c _ (mem_uc main_arg5 (by decide))).trans (B4_arg m c main_arg5 (by decide) (by decide) (by decide) (by decide)),
    (h c _ (mem_uc main_arg6 (by decide))).trans (B4_arg m c main_arg6 (by decide) (by decide) (by decide) (by decide)),
    (h c _ (mem_uc main_arg7 (by decide))).trans (B4_arg m c main_arg7 (by decide) (by decide) (by decide) (by decide)),
    (h c _ (mem_uc main_arg8 (by decide))).trans (B4_arg m c main_arg8 (by decide) (by decide) (by decide) (by decide)),
    (h c _ (mem_uc main_arg9 (by decide))).trans (B4_arg m c main_arg9 (by decide) (by decide) (by decide) (by decide)),
    (h c _ (mem_uc main_arg10 (by decide))).trans (B4_arg m c main_arg10 (by decide) (by decide) (by decide) (by decide)),
    (h c _ (mem_uc main_arg11 (by decide))).trans (B4_arg m c main_arg11 (by decide) (by decide) (by decide) (by decide)),
    (h c _ (mem_uc main_arg12 (by decide))).trans (B4_arg m c main_arg12 (by decide) (by decide) (by decide) (by decide)),
    (h c _ (mem_uc main_arg13 (by decide))).trans (B4_arg m c main_arg13 (by decide) (by decide) (by decide) (by decide)),
    (h c _ (mem_uc main_arg14 (by decide))).trans (B4_arg m c main_arg14 (by decide) (by decide) (by decide) (by decide)),
    (h c _ (mem_uc main_arg15 (by decide))).trans (B4_arg m c main_arg15 (by decide) (by decide) (by decide) (by decide)),
    (h c _ (mem_uc main_arg16 (by decide))).trans (B4_arg m c main_arg16 (by decide) (by decide) (by decide) (by decide)),
    (h c _ (mem_uc main_arg17 (by decide))).trans (B4_arg m c main_arg17 (by decide) (by decide) (by decide) (by decide)),
    (h c _ (mem_uc main_arg18 (by decide))).trans (B4_arg m c main_arg18 (by decide) (by decide) (by decide) (by decide)),
    (h c _ (mem_uc main_arg19 (by decide))).trans (B4_arg m c main_arg19 (by decide) (by decide) (by decide) (by decide)),
    (h c _ (mem_uc main_arg20 (by decide))).trans (B4_arg m c main_arg20 (by decide) (by decide) (by decide) (by decide))⟩) (run_all m ρ)

/-- The result array in every final state: what the fused region's write-backs leave. -/
theorem run_result : θ_run defs (onTc (τ := τ) (main (F := F))) ⟨m, fun _ => 0, ρ⟩ (fun r => ∀ c : Dev nD,
      r.2.mem ((c.tc : Thread nD τ).loc main_v35) = (dat1 (Vin1 m) c).arrAt 16 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_v35 (by decide))).trans (B4_arr m c 16), (h c _ (mem_uc main_arg0 (by decide))).trans (B4_arg m c main_arg0 (by decide) (by decide) (by decide) (by decide)),
    (h c _ (mem_uc main_arg1 (by decide))).trans (B4_arg m c main_arg1 (by decide) (by decide) (by decide) (by decide)),
    (h c _ (mem_uc main_arg2 (by decide))).trans (B4_arg m c main_arg2 (by decide) (by decide) (by decide) (by decide)),
    (h c _ (mem_uc main_arg3 (by decide))).trans (B4_arg m c main_arg3 (by decide) (by decide) (by decide) (by decide)),
    (h c _ (mem_uc main_arg4 (by decide))).trans (B4_arg m c main_arg4 (by decide) (by decide) (by decide) (by decide)),
    (h c _ (mem_uc main_arg5 (by decide))).trans (B4_arg m c main_arg5 (by decide) (by decide) (by decide) (by decide)),
    (h c _ (mem_uc main_arg6 (by decide))).trans (B4_arg m c main_arg6 (by decide) (by decide) (by decide) (by decide)),
    (h c _ (mem_uc main_arg7 (by decide))).trans (B4_arg m c main_arg7 (by decide) (by decide) (by decide) (by decide)),
    (h c _ (mem_uc main_arg8 (by decide))).trans (B4_arg m c main_arg8 (by decide) (by decide) (by decide) (by decide)),
    (h c _ (mem_uc main_arg9 (by decide))).trans (B4_arg m c main_arg9 (by decide) (by decide) (by decide) (by decide)),
    (h c _ (mem_uc main_arg10 (by decide))).trans (B4_arg m c main_arg10 (by decide) (by decide) (by decide) (by decide)),
    (h c _ (mem_uc main_arg11 (by decide))).trans (B4_arg m c main_arg11 (by decide) (by decide) (by decide) (by decide)),
    (h c _ (mem_uc main_arg12 (by decide))).trans (B4_arg m c main_arg12 (by decide) (by decide) (by decide) (by decide)),
    (h c _ (mem_uc main_arg13 (by decide))).trans (B4_arg m c main_arg13 (by decide) (by decide) (by decide) (by decide)),
    (h c _ (mem_uc main_arg14 (by decide))).trans (B4_arg m c main_arg14 (by decide) (by decide) (by decide) (by decide)),
    (h c _ (mem_uc main_arg15 (by decide))).trans (B4_arg m c main_arg15 (by decide) (by decide) (by decide) (by decide)),
    (h c _ (mem_uc main_arg16 (by decide))).trans (B4_arg m c main_arg16 (by decide) (by decide) (by decide) (by decide)),
    (h c _ (mem_uc main_arg17 (by decide))).trans (B4_arg m c main_arg17 (by decide) (by decide) (by decide) (by decide)),
    (h c _ (mem_uc main_arg18 (by decide))).trans (B4_arg m c main_arg18 (by decide) (by decide) (by decide) (by decide)),
    (h c _ (mem_uc main_arg19 (by decide))).trans (B4_arg m c main_arg19 (by decide) (by decide) (by decide) (by decide)),
    (h c _ (mem_uc main_arg20 (by decide))).trans (B4_arg m c main_arg20 (by decide) (by decide) (by decide) (by decide))⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx
import Mathlib.Data.EReal.Inv
import Mathlib.Algebra.BigOperators.Fin
import Mathlib.Tactic.Ring
import Mathlib.Tactic.FieldSimp
import Mathlib.Tactic.NormNum

/-!
The specification both programs are compared against, and the algebra that joins them.

Everything is over the extended reals. A row index set `R` (the 500000 edges), a feature index set
`J` (256), an input index set `K` (8) and an output index set `D` (8) are kept abstract; the
number of rows enters only through the literal divisor 500000 and, in the variance identity, through
the hypothesis that `R` has 500000 elements.
-/

noncomputable section

open scoped BigOperators
open Idealize.ShloMosaic

namespace Cert.Spec

variable {R J K D : Type} [Fintype R] [Fintype J] [Fintype K] [Fintype D]

/-- An affine layer at one output entry: the contraction of row `r` of `A` with column `j` of
    `W`, plus the bias. -/
def dense (A : R → K → EReal) (W : K → J → EReal) (b : J → EReal) (r : R) (j : J) : EReal :=
  (∑ k : K, A r k * W k j) + b j

/-- The first layer's activation: the affine layer clipped below at zero. -/
def act (x : R → K → EReal) (W1 : K → J → EReal) (b1 : J → EReal) (r : R) (j : J) : EReal :=
  max ((∑ k : K, x r k * W1 k j) + b1 j) 0

/-- The sum of a column over all rows. -/
def colSum (H : R → J → EReal) (j : J) : EReal := ∑ r : R, H r j

/-- The column mean: the column sum divided by 500000. -/
def mean (H : R → J → EReal) (j : J) : EReal :=
  Ideal.div (colSum H j) (Ideal.ofBits .f32 0x48F42400#32)

/-- The variance as "mean of squares minus square of mean". -/
def varK (H : R → J → EReal) (j : J) : EReal :=
  Ideal.div (∑ r : R, H r j * H r j) (Ideal.ofBits .f32 0x48F42400#32) - mean H j * mean H j

/-- The variance as "mean of squared deviations". -/
def varR (H : R → J → EReal) (j : J) : EReal :=
  Ideal.div (∑ r : R, (H r j - mean H j) * (H r j - mean H j)) (Ideal.ofBits .f32 0x48F42400#32)

/-- The normalised activation: centred by `mu`, scaled by the reciprocal square root of
    `var + ε`, then by `gamma`, shifted by `beta`. -/
def h1n (H : R → J → EReal) (mu var gamma beta : J → EReal) (r : R) (j : J) : EReal :=
  (H r j - mu j) * Ideal.rsqrt (var j + Ideal.ofBits .f32 0x3727C5AC#32) * gamma j + beta j

/-- Everything after the statistics, as a function of the mean and variance it is given: three
    square affine layers, the projection to the output width, the factor one half and the residual. -/
def tail (ea : R → D → EReal) (H : R → J → EReal) (mu var gamma beta : J → EReal)
    (W2 : J → J → EReal) (b2 : J → EReal) (Wv : J → J → EReal) (bv : J → EReal)
    (Wo : J → J → EReal) (bo : J → EReal) (Wp : J → D → EReal) (bp : D → EReal) (r : R) (d : D) : EReal :=
  ea r d + Ideal.ofBits .f32 0x3F000000#32 *
    dense (dense (dense (dense (h1n H mu var gamma beta) W2 b2) Wv bv) Wo bo) Wp bp r d

/-! ### Arrays read by coordinates -/

open Idealize.ShloMosaic.ValueIdx in
/-- A rank-2 array as a function of its two coordinates. -/
def rd2 {n0 n1 : ℕ} (v : (⟨2, ![n0, n1]⟩ : Shape).Idx → EReal) : Fin n0 → Fin n1 → EReal :=
  fun a b => v (ix2 a b)

open Idealize.ShloMosaic.ValueIdx in
/-- A rank-1 array as a function of its coordinate. -/
def rd1 {n : ℕ} (v : (⟨1, ![n]⟩ : Shape).Idx → EReal) : Fin n → EReal :=
  fun a => v (ix1 a)

open Idealize.ShloMosaic.ValueIdx in
/-- The one row of a `1 × n` array as a function of the column. -/
def row {n : ℕ} (v : (⟨2, ![1, n]⟩ : Shape).Idx → EReal) : Fin n → EReal :=
  fun a => v (ix2 0 a)

/-! ### The literals -/

/-- The divisor literal is the real number 500000. -/
theorem ofBits_rows : Ideal.ofBits .f32 0x48F42400#32 = ((500000 : ℝ) : EReal) := by
  simp [Ideal.ofBits, Ideal.ieee, -EReal.coe_mul]; norm_num

/-- The literal one half. -/
theorem ofBits_half : Ideal.ofBits .f32 0x3F000000#32 = (((1 : ℝ) / 2 : ℝ) : EReal) := by
  simp [Ideal.ofBits, Ideal.ieee, -EReal.coe_mul]; norm_num

/-! ### Real values stay real -/

/-- An extended real that is neither infinity is a real. -/
theorem real_of_ne {a : EReal} (hb : a ≠ ⊥) (ht : a ≠ ⊤) : ∃ x : ℝ, a = (x : EReal) := by
  induction a using EReal.rec with
  | bot => exact absurd rfl hb
  | top => exact absurd rfl ht
  | coe r => exact ⟨r, rfl⟩

/-- An extended real whose absolute value `max a (-a)` is below `⊤` is a real. -/
theorem real_of_abs_lt_top {a : EReal} (h : max a (-a) < ⊤) : ∃ x : ℝ, a = (x : EReal) := by
  refine real_of_ne ?_ ?_
  · rintro rfl
    rw [EReal.neg_bot, max_eq_right bot_le] at h
    exact lt_irrefl _ h
  · rintro rfl
    rw [max_eq_left le_top] at h
    exact lt_irrefl _ h

theorem real_half : ∃ x : ℝ, Ideal.ofBits .f32 0x3F000000#32 = (x : EReal) := ⟨_, ofBits_half⟩

theorem real_sub {a b : EReal} (ha : ∃ x : ℝ, a = (x : EReal)) (hb : ∃ y : ℝ, b = (y : EReal)) :
    ∃ z : ℝ, a - b = (z : EReal) := by
  obtain ⟨x, rfl⟩ := ha; obtain ⟨y, rfl⟩ := hb; exact ⟨x - y, (EReal.coe_sub x y).symm⟩

/-- Sums, products, differences and maxima of reals, and finite sums of reals, are reals. -/
theorem real_add {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb; exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb; exact ⟨x * y, (EReal.coe_mul x y).symm⟩

theorem real_max {a b : EReal} (ha : ∃ x : ℝ, a = (x : EReal)) (hb : ∃ y : ℝ, b = (y : EReal)) :
    ∃ z : ℝ, max a b = (z : EReal) := by
  obtain ⟨x, rfl⟩ := ha; obtain ⟨y, rfl⟩ := hb; exact ⟨max x y, (EReal.coe_strictMono.monotone.map_max).symm⟩

theorem real_sum {ι : Type} (s : Finset ι) (f : ι → EReal) (h : ∀ i, ∃ x : ℝ, f i = (x : EReal)) :
    ∃ z : ℝ, ∑ i ∈ s, f i = (z : EReal) := by
  classical
  induction s using Finset.induction_on with
  | empty => exact ⟨0, by simp⟩
  | insert a s ha ih => rw [Finset.sum_insert ha]; exact real_add (h a) ih

/-- The coercion of the reals commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- With real inputs, weights and biases every activation is real: sums, products and maxima of
    reals are real. -/
theorem act_real (x : R → K → EReal) (W1 : K → J → EReal) (b1 : J → EReal)
    (hx : ∀ r k, ∃ a : ℝ, x r k = (a : EReal)) (hW : ∀ k j, ∃ a : ℝ, W1 k j = (a : EReal))
    (hb : ∀ j, ∃ a : ℝ, b1 j = (a : EReal)) (r : R) (j : J) :
    ∃ a : ℝ, act x W1 b1 r j = (a : EReal) := by
  unfold act
  exact real_max (real_add (real_sum _ _ fun k => real_mul (hx r k) (hW k j)) (hb j)) ⟨0, EReal.coe_zero.symm⟩

/-! ### The variance identity -/

/-- The variance identity. With every entry real and exactly 500000 rows,
    `Q / n - (S / n)²  =  (∑ (h - S / n)²) / n` for `S = ∑ h`, `Q = ∑ h²`, `n = 500000`: expand the square,
    `∑ (h - m)² = Q - 2 m S + n m²`, and put `m = S / n`. Over the extended reals the identity needs the
    entries real (an infinite entry makes both sides junk of different kinds), so the coercion is
    pushed outward first and the identity is proved in the real field. -/
theorem var_eq_of_card (H : R → J → EReal) (hcard : Fintype.card R = 500000)
    (hreal : ∀ r j, ∃ a : ℝ, H r j = (a : EReal)) : varK H = varR H := by
  choose a ha using hreal
  obtain rfl : H = fun r j => ((a r j : ℝ) : EReal) := funext fun r => funext fun j => ha r j
  funext j
  have hN : (500000 : ℝ) ≠ 0 := by norm_num
  have key : ∀ m : ℝ, ∑ r : R, (a r j - m) * (a r j - m)
      = (∑ r : R, a r j * a r j) - 2 * m * (∑ r : R, a r j) + 500000 * (m * m) := by
    intro m
    have h1 : ∀ r : R, (a r j - m) * (a r j - m) = a r j * a r j - 2 * m * a r j + m * m := fun r => by ring
    simp only [h1, Finset.sum_add_distrib, Finset.sum_sub_distrib, ← Finset.mul_sum, Finset.sum_const,
      Finset.card_univ, hcard, nsmul_eq_mul]
    push_cast
    ring
  simp only [varK, varR, mean, colSum, ofBits_rows, Ideal.div_coe hN, ← EReal.coe_mul, ← EReal.coe_sub,
    coe_sum]
  rw [key]
  congr 1
  field_simp
  ring

/-- The variance identity at the row index set of the two programs. -/
theorem var_eq (H : Fin 500000 → J → EReal) (hreal : ∀ r j, ∃ a : ℝ, H r j = (a : EReal)) :
    varK H = varR H :=
  var_eq_of_card H (Fintype.card_fin _) hreal

/-- With real activations the two programs' outputs are one function: they differ only in which
    form of the variance they normalise by. -/
theorem tail_var_eq (ea : Fin 500000 → D → EReal) (H : Fin 500000 → J → EReal)
    (hreal : ∀ r j, ∃ a : ℝ, H r j = (a : EReal)) (gamma beta : J → EReal)
    (W2 : J → J → EReal) (b2 : J → EReal) (Wv : J → J → EReal) (bv : J → EReal)
    (Wo : J → J → EReal) (bo : J → EReal) (Wp : J → D → EReal) (bp : D → EReal) :
    tail ea H (mean H) (varK H) gamma beta W2 b2 Wv bv Wo bo Wp bp
      = tail ea H (mean H) (varR H) gamma beta W2 b2 Wv bv Wo bo Wp bp := by
  rw [var_eq H hreal]

/-! ### A sum over the rows, block by block -/

/-- Row `bs * t + i` of block `t` lies below `nb * bs`. -/
theorem blk_lt {nb bs N : ℕ} (h : nb * bs = N) (t : Fin nb) (i : Fin bs) : bs * t.val + i.val < N := by
  have ht := t.isLt
  have hi := i.isLt
  calc bs * t.val + i.val < bs * t.val + bs := by omega
    _ = bs * (t.val + 1) := by ring
    _ ≤ bs * nb := Nat.mul_le_mul_left _ ht
    _ = N := by rw [Nat.mul_comm]; exact h

/-- A sum over `N = nb * bs` rows is the sum over the `nb` blocks of the sums over the `bs`
    rows of each block. -/
theorem sum_blocks {nb bs N : ℕ} (h : nb * bs = N) (f : Fin N → EReal) :
    ∑ r : Fin N, f r = ∑ t : Fin nb, ∑ i : Fin bs, f ⟨bs * t.val + i.val, blk_lt h t i⟩ := by
  subst h
  rw [← finProdFinEquiv.sum_comp f, Fintype.sum_prod_type]
  refine Finset.sum_congr rfl fun t _ => Finset.sum_congr rfl fun i _ => ?_
  congr 1
  exact Fin.ext (Nat.add_comm _ _)

/-- A running total that starts from zero: after step `0` it is `0 + s 0`, and each later step
    adds that step's term. -/
def runSum (s : ℕ → EReal) : ℕ → EReal
  | 0 => 0 + s 0
  | t + 1 => runSum s t + s (t + 1)

/-- The running total after step `n` is the sum of the terms `0, …, n`. -/
theorem runSum_eq (s : ℕ → EReal) (n : ℕ) : runSum s n = ∑ t : Fin (n + 1), s t.val := by
  induction n with
  | zero => simp [runSum]
  | succ n ih =>
    rw [runSum, ih]
    exact (Fin.sum_univ_castSucc (fun t : Fin (n + 1 + 1) => s t.val)).symm

/-- A running total over the blocks, started from zero, ends at the sum over all rows: if step
    `t` adds the sum over block `t`, then after the last of `nb + 1` blocks the total is the sum
    over all `N = (nb + 1) * bs` rows. -/
theorem runSum_blocks {nb bs N : ℕ} (h : (nb + 1) * bs = N) (f : Fin N → EReal) (s : ℕ → EReal)
    (hs : ∀ t : Fin (nb + 1), s t.val = ∑ i : Fin bs, f ⟨bs * t.val + i.val, blk_lt h t i⟩) :
    runSum s nb = ∑ r : Fin N, f r := by
  rw [runSum_eq, sum_blocks h]
  exact Finset.sum_congr rfl fun t _ => hs t

end Cert.Spec
-- ==== Proof.Ideal.Value0.lean ====
import proofs.«121266_j58025008169388_1_alg».proof.Proof.Ideal.Region0
import proofs.«121266_j58025008169388_1_alg».proof.Proof.Spec
import Idealize.ShloMosaic.PureOps.Ideal.Laws
import Idealize.ShloMosaic.Lib.Pipeline.Value
import Idealize.ShloMosaic.Lib.ValueIdx
import Idealize.ShloMosaic.Lib.ValueLayout

/-!
What the first region leaves in its two result arrays, over the extended reals.

Write x for the rows array the region streams (500000 rows of 8), W for the first layer's weights,
b for its bias row, and H[r, j] = max (∑ₖ x[r, k] · W[k, j] + b[j]) 0 for the first layer's
activation. The region walks the rows in a hundred blocks of 5000. At each point it adds the block's
column sums of H, and of H squared, to two rows it keeps from point to point; it clears the two rows
before the first block is added and copies them to the two result arrays after the last.

* A block's payload at an entry: the product with the weights is the contraction of a row with a
  column, the column reduction is the sum over the block's 5000 rows, and a change of float format
  is the identity on extended reals; so a block's contribution to column j is the sum over its rows
  of H (or of H · H).
* Row p of the block at point t is row 5000 t + p of the array; the weights' and the bias's blocks are
  the whole arrays at every point.
* By induction on the point, after point n the two rows hold the running sums of the blocks'
  contributions up to n. After the last point these are the sums over all 500000 rows: a sum over
  the rows is the sum over the blocks of the sums inside each block.
* Each result array is written back once, after the last point, and the block written is the whole
  array.
-/

noncomputable section

namespace Cert.KernelIdeal.HandValue

namespace R0

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.Hand
open Cert.Spec

/-! ## The payloads at an entry -/

theorem lhs1_0 (j : S5000x256.Idx) (k : dot_S5000x8_S8x256_S5000x256_1_0_0_1_n_n.contr.Idx) :
    (dot_S5000x8_S8x256_S5000x256_1_0_0_1_n_n.lhsIdx j k 0).val = (j 0).val := by
  simp [DotDims.lhsIdx, dot_S5000x8_S8x256_S5000x256_1_0_0_1_n_n]; rfl

theorem lhs1_1 (j : S5000x256.Idx) (k : dot_S5000x8_S8x256_S5000x256_1_0_0_1_n_n.contr.Idx) :
    (dot_S5000x8_S8x256_S5000x256_1_0_0_1_n_n.lhsIdx j k 1).val = (k ⟨0, by decide⟩).val :=
  dot_S5000x8_S8x256_S5000x256_1_0_0_1_n_n.lhsIdx_val_of_single rfl j k

theorem rhs1_0 (j : S5000x256.Idx) (k : dot_S5000x8_S8x256_S5000x256_1_0_0_1_n_n.contr.Idx) :
    (dot_S5000x8_S8x256_S5000x256_1_0_0_1_n_n.rhsIdx j k 0).val = (k ⟨0, by decide⟩).val :=
  dot_S5000x8_S8x256_S5000x256_1_0_0_1_n_n.rhsIdx_val_of_single rfl j k

theorem rhs1_1 (j : S5000x256.Idx) (k : dot_S5000x8_S8x256_S5000x256_1_0_0_1_n_n.contr.Idx) :
    (dot_S5000x8_S8x256_S5000x256_1_0_0_1_n_n.rhsIdx j k 1).val = (j 1).val := by
  simp [DotDims.rhsIdx, dot_S5000x8_S8x256_S5000x256_1_0_0_1_n_n]; rfl

/-- The block's product with the weight matrix, into zero, at entry (p, q): the contraction of
    row p of the block with column q of the weights. -/
theorem matmul1_apply {φ₁ φ₂ : FTy} (x : FVec Ideal S5000x8 φ₁) (w : FVec Ideal S8x256 φ₂) (p : Fin 5000) (q : Fin 256) :
    matmul dot_S5000x8_S8x256_S5000x256_1_0_0_1_n_n none x w (constant (F := Ideal) S5000x256 .f32 0x00000000#32) (ix2 p q)
      = ∑ k : Fin 8, x (ix2 p k) * w (ix2 k q) := by
  show FloatOps.matmul _ none x w _ (ix2 p q) = _
  rw [Ideal.matmul_constant_zero_apply,
    ← Equiv.sum_comp (contrEquiv1 dot_S5000x8_S8x256_S5000x256_1_0_0_1_n_n 8 rfl rfl).symm]
  refine Finset.sum_congr rfl fun c _ => ?_
  have c2 := contrEquiv1_symm_val dot_S5000x8_S8x256_S5000x256_1_0_0_1_n_n 8 rfl rfl c
  have l2 : dot_S5000x8_S8x256_S5000x256_1_0_0_1_n_n.lhsIdx (ix2 p q)
      ((contrEquiv1 dot_S5000x8_S8x256_S5000x256_1_0_0_1_n_n 8 rfl rfl).symm c) = ix2 p c := by
    funext ax; apply Fin.ext
    match ax with
    | ⟨0, _⟩ => exact lhs1_0 _ _
    | ⟨1, _⟩ => exact (lhs1_1 _ _).trans c2
  have r2 : dot_S5000x8_S8x256_S5000x256_1_0_0_1_n_n.rhsIdx (ix2 p q)
      ((contrEquiv1 dot_S5000x8_S8x256_S5000x256_1_0_0_1_n_n 8 rfl rfl).symm c) = ix2 c q := by
    funext ax; apply Fin.ext
    match ax with
    | ⟨0, _⟩ => exact (rhs1_0 _ _).trans c2
    | ⟨1, _⟩ => exact rhs1_1 _ _
  rw [l2, r2]

theorem hzero : Ideal.ofBits .f32 0x00000000#32 = (0 : EReal) := Ideal.ofBits_zero_f32

/-- The first layer's activation of a block at entry (p, q). -/
theorem pay3_apply (x : Vec Ideal S5000x8 .f32) (w : Vec Ideal S8x256 .f32) (b : Vec Ideal S1x256 .f32)
    (p : Fin 5000) (q : Fin 256) :
    k0_pay3 (F := Ideal) x w b (ix2 p q) = act (rd2 x) (rd2 w) (row b) p q := by
  unfold k0_pay3
  rw [maximumf_apply, addf_apply, broadcast_apply, matmul1_apply, broadcastTo_1b_ab_apply]
  simp only [truncf_apply, shapeCast_self]
  show max _ (Ideal.ofBits .f32 0x00000000#32) = _
  rw [hzero]
  rfl

/-- The index a column reduction reads at row k of column q. -/
theorem lift1 (q : Fin 256) (k : Fin 5000) : reduces_S5000x256_S256.lift (ix1 q) k = ix2 k q := by
  funext a; apply Fin.ext
  match a with
  | ⟨0, _⟩ => rfl
  | ⟨1, _⟩ => rfl

/-- A block's column sum, re-laid as a one-row matrix, at column q. -/
theorem colrow_apply (v : FVec Ideal S5000x256 .f32) (hφ : FKind.Formats .f32)
    (hacc : (0x00000000#32 : BitVec FTy.f32.bits) = FKind.add.neutral .f32 hφ) (q : Fin 256) :
    shapeCast S1x256 (multiReduction (F := Ideal) .add [0] S256 v 0x00000000#32 reduces_S5000x256_S256 hφ hacc)
        shapeCasts_S256_S1x256 (ix2 0 q)
      = ∑ p : Fin 5000, v (ix2 p q) := by
  refine (shapeCast_a_1a_apply _ _ 0 q).trans ?_
  refine (Ideal.multiReduction_add_single v _ reduces_S5000x256_S256 hφ hacc (ix1 q)).trans ?_
  exact Finset.sum_congr rfl fun k _ => congrArg v (lift1 q k)

/-- The running column sums after a block: what was there plus the block's column sums. -/
theorem pay4_apply (x : Vec Ideal S5000x8 .f32) (w : Vec Ideal S8x256 .f32) (b : Vec Ideal S1x256 .f32)
    (acc : Vec Ideal S1x256 .f32) (q : Fin 256) :
    k0_pay4 (F := Ideal) x w b acc (ix2 0 q)
      = acc (ix2 0 q) + ∑ p : Fin 5000, k0_pay3 (F := Ideal) x w b (ix2 p q) := by
  unfold k0_pay4
  rw [shapeCast_self, addf_apply]
  exact congrArg (acc (ix2 0 q) + ·) (colrow_apply _ _ _ q)

/-- The running column sums of squares after a block. -/
theorem pay5_apply (x : Vec Ideal S5000x8 .f32) (w : Vec Ideal S8x256 .f32) (b : Vec Ideal S1x256 .f32)
    (acc : Vec Ideal S1x256 .f32) (q : Fin 256) :
    k0_pay5 (F := Ideal) x w b acc (ix2 0 q)
      = acc (ix2 0 q) + ∑ p : Fin 5000, k0_pay3 (F := Ideal) x w b (ix2 p q) * k0_pay3 (F := Ideal) x w b (ix2 p q) := by
  unfold k0_pay5
  rw [shapeCast_self, addf_apply]
  exact congrArg (acc (ix2 0 q) + ·) (colrow_apply _ _ _ q)

/-- The reset rows are zero. -/
theorem pay1_apply (i : S1x256.Idx) : k0_pay1 (F := Ideal) i = 0 := by
  unfold k0_pay1
  rw [shapeCast_self, broadcast_apply]
  exact hzero

theorem pay2_apply (i : S1x256.Idx) : k0_pay2 (F := Ideal) i = 0 := by
  unfold k0_pay2
  rw [shapeCast_self, broadcast_apply]
  exact hzero

/-! ## The blocks of the three input windows -/

/-- Where the three input windows' blocks sit, at every point of the grid: the rows window moves down
    one block per point, the other two stay. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)

section Blocks

variable (V : (c : Dev nD) → (b : Ref sig .tc) → Buf (Elt Ideal) ((c : Thread nD τ).loc b)) (c : Dev nD)

/-- The rows array, the weights and the bias row as the region finds them. -/
abbrev xarr : Vec Ideal S500000x8 .f32 := V c main_v20
abbrev warr : Vec Ideal S8x256 .f32 := V c main_arg9
abbrev barr : Vec Ideal S1x256 .f32 := V c main_v21

/-- The three blocks at point t, at their literal shapes. -/
abbrev xblk (t : Fin cfg0.N) : Vec Ideal S5000x8 .f32 := iblk0 V c 0 t
abbrev wblk (t : Fin cfg0.N) : Vec Ideal S8x256 .f32 := iblk0 V c 1 t
abbrev bblk (t : Fin cfg0.N) : Vec Ideal S1x256 .f32 := iblk0 V c 2 t

/-- Row p of the block at point t is row 5000 t + p of the array. -/
theorem xblk_apply (t : Fin cfg0.N) (p : Fin 5000) (k : Fin 8) (r : Fin 500000) (hr : r.val = 5000 * t.val + p.val) :
    xblk V c t (ix2 p k) = xarr V c (ix2 r k) := by
  unfold xblk iblk0
  rw [View.read_apply]
  show V c main_v20 _ = V c main_v20 _
  congr 1
  funext a
  apply Fin.ext
  match a with
  | ⟨0, _⟩ => show win0_0.index t 0 * 5000 + 1 * p.val = r.val; rw [(idx0_0 t).1, hr]; omega
  | ⟨1, _⟩ => show win0_0.index t 1 * 8 + 1 * k.val = k.val; rw [(idx0_0 t).2]; omega

/-- The weights' block is the whole array at every point. -/
theorem wblk_apply (t : Fin cfg0.N) (k : Fin 8) (q : Fin 256) :
    wblk V c t (ix2 k q) = warr V c (ix2 k q) := by
  unfold wblk iblk0
  rw [View.read_apply]
  show V c main_arg9 _ = V c main_arg9 _
  congr 1
  funext a
  apply Fin.ext
  match a with
  | ⟨0, _⟩ => show win0_1.index t 0 * 8 + 1 * k.val = k.val; rw [(idx0_1 t).1]; omega
  | ⟨1, _⟩ => show win0_1.index t 1 * 256 + 1 * q.val = q.val; rw [(idx0_1 t).2]; omega

/-- So is the bias row's. -/
theorem bblk_apply (t : Fin cfg0.N) (u : Fin 1) (q : Fin 256) :
    bblk V c t (ix2 u q) = barr V c (ix2 u q) := by
  unfold bblk iblk0
  rw [View.read_apply]
  show V c main_v21 _ = V c main_v21 _
  congr 1
  funext a
  apply Fin.ext
  match a with
  | ⟨0, _⟩ => show win0_2.index t 0 * 1 + 1 * u.val = u.val; rw [(idx0_2 t).1]; omega
  | ⟨1, _⟩ => show win0_2.index t 1 * 256 + 1 * q.val = q.val; rw [(idx0_2 t).2]; omega

end Blocks

/-! ## The two rows after each point: running sums over the blocks -/

section Sums

variable (V : (c : Dev nD) → (b : Ref sig .tc) → Buf (Elt Ideal) ((c : Thread nD τ).loc b)) (c : Dev nD)

/-- The activation matrix of the whole rows array. -/
abbrev Hmat : Fin 500000 → Fin 256 → EReal := act (rd2 (xarr V c)) (rd2 (warr V c)) (row (barr V c))

/-- The activation of the block at point t is rows 5000 t … 5000 t + 4999 of the activation matrix. -/
theorem pay3_blk (t : Fin cfg0.N) (p : Fin 5000) (q : Fin 256) (r : Fin 500000) (hr : r.val = 5000 * t.val + p.val) :
    k0_pay3 (F := Ideal) (xblk V c t) (wblk V c t) (bblk V c t) (ix2 p q) = Hmat V c r q := by
  rw [pay3_apply]
  have e1 : ∀ k : Fin 8, xblk V c t (ix2 p k) = xarr V c (ix2 r k) := fun k => xblk_apply V c t p k r hr
  show max ((∑ k : Fin 8, xblk V c t (ix2 p k) * wblk V c t (ix2 k q)) + bblk V c t (ix2 0 q)) 0
    = max ((∑ k : Fin 8, xarr V c (ix2 r k) * warr V c (ix2 k q)) + barr V c (ix2 0 q)) 0
  rw [bblk_apply V c t 0 q]
  exact congrArg (fun s => max (s + barr V c (ix2 0 q)) 0)
    (Finset.sum_congr rfl fun k _ => by rw [e1 k, wblk_apply V c t k q])

/-- Block s's column sums of the activation matrix (zero past the grid). -/
def blkSum (s : ℕ) (q : Fin 256) : EReal :=
  if h : s < 100 then ∑ p : Fin 5000, Hmat V c ⟨5000 * s + p.val, by have := p.isLt; omega⟩ q else 0

/-- Block s's column sums of squares. -/
def blkSq (s : ℕ) (q : Fin 256) : EReal :=
  if h : s < 100 then ∑ p : Fin 5000, Hmat V c ⟨5000 * s + p.val, by have := p.isLt; omega⟩ q
      * Hmat V c ⟨5000 * s + p.val, by have := p.isLt; omega⟩ q else 0

theorem blkSum_eq (t : Fin cfg0.N) (q : Fin 256) :
    ∑ p : Fin 5000, k0_pay3 (F := Ideal) (xblk V c t) (wblk V c t) (bblk V c t) (ix2 p q) = blkSum V c t.val q := by
  have ht : t.val < 100 := lt_of_lt_of_eq t.isLt (show cfg0.N = 100 from N_0)
  unfold blkSum
  rw [dif_pos ht]
  exact Finset.sum_congr rfl fun p _ => pay3_blk V c t p q _ rfl

theorem blkSq_eq (t : Fin cfg0.N) (q : Fin 256) :
    ∑ p : Fin 5000, k0_pay3 (F := Ideal) (xblk V c t) (wblk V c t) (bblk V c t) (ix2 p q)
        * k0_pay3 (F := Ideal) (xblk V c t) (wblk V c t) (bblk V c t) (ix2 p q) = blkSq V c t.val q := by
  have ht : t.val < 100 := lt_of_lt_of_eq t.isLt (show cfg0.N = 100 from N_0)
  unfold blkSq
  rw [dif_pos ht]
  exact Finset.sum_congr rfl fun p _ => by
    rw [pay3_blk V c t p q ⟨5000 * t.val + p.val, by have := p.isLt; omega⟩ rfl]

/-- After point n the first row holds the running sum of the blocks' column sums, the second that of
    their column sums of squares: cleared before the first block is added, then one block per point. -/
theorem acc_inv : ∀ (n : ℕ) (hn : n < cfg0.N) (q : Fin 256),
    (accAt0 V c n hn).1 (ix2 0 q) = runSum (fun s => blkSum V c s q) n
      ∧ (accAt0 V c n hn).2 (ix2 0 q) = runSum (fun s => blkSq V c s q) n
  | 0, hn, q => by
    rw [accAt0_zero V c hn]
    dsimp only
    constructor
    · rw [pay4_apply (xblk V c ⟨0, hn⟩) (wblk V c ⟨0, hn⟩) (bblk V c ⟨0, hn⟩) _ q, pay1_apply, blkSum_eq V c ⟨0, hn⟩ q]
      rfl
    · rw [pay5_apply (xblk V c ⟨0, hn⟩) (wblk V c ⟨0, hn⟩) (bblk V c ⟨0, hn⟩) _ q, pay2_apply, blkSq_eq V c ⟨0, hn⟩ q]
      rfl
  | n + 1, hn, q => by
    rw [accAt0_succ V c n hn]
    dsimp only
    have ih := acc_inv n (Nat.lt_of_succ_lt hn) q
    constructor
    · rw [pay4_apply (xblk V c ⟨n + 1, hn⟩) (wblk V c ⟨n + 1, hn⟩) (bblk V c ⟨n + 1, hn⟩) _ q, ih.1, blkSum_eq V c ⟨n + 1, hn⟩ q]
      rfl
    · rw [pay5_apply (xblk V c ⟨n + 1, hn⟩) (wblk V c ⟨n + 1, hn⟩) (bblk V c ⟨n + 1, hn⟩) _ q, ih.2, blkSq_eq V c ⟨n + 1, hn⟩ q]
      rfl

/-- A running sum over all hundred blocks is the sum over all rows. -/
theorem runSum_all (f : Fin 500000 → EReal) (M : ℕ → EReal)
    (hM : ∀ (s : ℕ) (hs : s < 100), M s = ∑ p : Fin 5000, f ⟨5000 * s + p.val, by have := p.isLt; omega⟩) :
    runSum M 99 = ∑ r : Fin 500000, f r := by
  rw [runSum_eq, sum_blocks (nb := 100) (bs := 5000) (by norm_num) f]
  exact Finset.sum_congr rfl fun t _ => hM t.val t.isLt

theorem sum_last (q : Fin 256) : runSum (fun s => blkSum V c s q) 99 = colSum (Hmat V c) q :=
  runSum_all (fun r => Hmat V c r q) _ fun s hs => by unfold blkSum; rw [dif_pos hs]

theorem sq_last (q : Fin 256) :
    runSum (fun s => blkSq V c s q) 99 = ∑ r : Fin 500000, Hmat V c r q * Hmat V c r q :=
  runSum_all (fun r => Hmat V c r q * Hmat V c r q) _ fun s hs => by unfold blkSq; rw [dif_pos hs]

end Sums

/-! ## The two result arrays after the region -/

section Final

open Idealize.SL Idealize.SL.RA

/-- Where the two result windows' blocks sit: at the origin, at every point. -/
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)

/-- The last point of the grid. -/
abbrev tLast : Fin cfg0.N := ⟨99, by rw [show cfg0.N = 100 from N_0]; decide⟩

variable {Ix : Type} [DecidableEq Ix] {Name : Type} [DecidableEq Name] {U : Type} [URA U] {Lvl : Type}
variable {c : Dev nD}

/-- The first result array is written back once, at the last point, and the block written there is the
    whole array: it ends holding what the first result buffer holds after the last point. -/
theorem arrAt_row3 (dat : Dat τ (Elt Ideal) Ix Name U Lvl cfg0 c) (G : Vec Ideal S1x256 .f32)
    (h : ∀ t : Fin cfg0.N, t.val = 99 → dat.after 3 t = G) : dat.arrAt 3 cfg0.N = G := by
  have hN : cfg0.N = 100 := N_0
  refine dat.arrAt_eq_of_cover 3 G (fun t hf => ?_) (fun i => ⟨tLast, (flush0_3 tLast).mpr rfl, ?_⟩)
  · have h99 : t.val = 99 := by have := (flush0_3 t).mp hf; have := t.isLt; omega
    show (cfg0.win 3).cut (grid0.coords t) (dat.after 3 t) = _
    rw [h t h99]
    have hz' : (fun a => win0_3.index t a * main_v28_0.ty.shape.size a) = fun _ => 0 := funext fun a => by
      match a with
      | ⟨0, _⟩ => show win0_3.index t 0 * 1 = 0; rw [(idx0_3 t).1]
      | ⟨1, _⟩ => show win0_3.index t 1 * 256 = 0; rw [(idx0_3 t).2]
    exact (Memref.read_access_unit_zero (Elt Ideal) main_v28_0 hz' (fun a => by rw [congrFun hz' a]; simp) G).symm
  · show i ∈ ((View.whole main_v28_0).slice (win0_3.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win0_3.index tLast 0 * 1 ≤ (i 0 : Nat) ∧ (i 0 : Nat) < win0_3.index tLast 0 * 1 + 1
      rw [(idx0_3 tLast).1]; omega
    | ⟨1, _⟩ =>
      show win0_3.index tLast 1 * 256 ≤ (i 1 : Nat) ∧ (i 1 : Nat) < win0_3.index tLast 1 * 256 + 256
      rw [(idx0_3 tLast).2]; omega

/-- The same for the second result array. -/
theorem arrAt_row4 (dat : Dat τ (Elt Ideal) Ix Name U Lvl cfg0 c) (G : Vec Ideal S1x256 .f32)
    (h : ∀ t : Fin cfg0.N, t.val = 99 → dat.after 4 t = G) : dat.arrAt 4 cfg0.N = G := by
  have hN : cfg0.N = 100 := N_0
  refine dat.arrAt_eq_of_cover 4 G (fun t hf => ?_) (fun i => ⟨tLast, (flush0_4 tLast).mpr rfl, ?_⟩)
  · have h99 : t.val = 99 := by have := (flush0_4 t).mp hf; have := t.isLt; omega
    show (cfg0.win 4).cut (grid0.coords t) (dat.after 4 t) = _
    rw [h t h99]
    have hz' : (fun a => win0_4.index t a * main_v28_1.ty.shape.size a) = fun _ => 0 := funext fun a => by
      match a with
      | ⟨0, _⟩ => show win0_4.index t 0 * 1 = 0; rw [(idx0_4 t).1]
      | ⟨1, _⟩ => show win0_4.index t 1 * 256 = 0; rw [(idx0_4 t).2]
    exact (Memref.read_access_unit_zero (Elt Ideal) main_v28_1 hz' (fun a => by rw [congrFun hz' a]; simp) G).symm
  · show i ∈ ((View.whole main_v28_1).slice (win0_4.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win0_4.index tLast 0 * 1 ≤ (i 0 : Nat) ∧ (i 0 : Nat) < win0_4.index tLast 0 * 1 + 1
      rw [(idx0_4 tLast).1]; omega
    | ⟨1, _⟩ =>
      show win0_4.index tLast 1 * 256 ≤ (i 1 : Nat) ∧ (i 1 : Nat) < win0_4.index tLast 1 * 256 + 256
      rw [(idx0_4 tLast).2]; omega

end Final

end R0

/-! ## The deliverables -/

section Region0

open Idealize.ShloMosaic Idealize.ShloMosaic.TcCoe Idealize.SL.Sem
open Idealize.ShloMosaic.ValueIdx
open Cert.KernelIdeal Cert.KernelIdeal.Gen Cert.KernelIdeal.Hand
open Cert.Spec

variable (V : (c : Dev nD) → (b : Ref sig .tc) → Buf (Elt Ideal) ((c : Thread nD τ).loc b))

/-- After the region the first result array holds, in column j, the sum over all rows of the first
    layer's activation. -/
theorem arrAt0_3 (c : Dev nD) :
    (dat0 (F := Ideal) V c).arrAt 3 cfg0.N = fun i =>
      colSum (act (rd2 (V c main_v20 : S500000x8.Idx → EReal)) (rd2 (V c main_arg9 : S8x256.Idx → EReal))
        (row (V c main_v21 : S1x256.Idx → EReal))) (i 1) := by
  refine R0.arrAt_row3 (dat0 (F := Ideal) V c) _ fun t ht => ?_
  rw [after0_3_last V c t ht]
  funext i
  obtain ⟨u, q, rfl⟩ : ∃ (u : Fin 1) (q : Fin 256), i = ix2 u q := ⟨i 0, i 1, eq_ix2 i⟩
  obtain rfl : u = 0 := Subsingleton.elim _ _
  have e : (accAt0 V c t.val t.isLt).1 (ix2 0 q) = runSum (fun s => R0.blkSum V c s q) t.val :=
    (R0.acc_inv V c t.val t.isLt q).1
  rw [e, ht]
  exact R0.sum_last V c q

/-- After the region the second result array holds, in column j, the sum over all rows of the
    activation's square. -/
theorem arrAt0_4 (c : Dev nD) :
    (dat0 (F := Ideal) V c).arrAt 4 cfg0.N = fun i =>
      ∑ r : Fin 500000,
        act (rd2 (V c main_v20 : S500000x8.Idx → EReal)) (rd2 (V c main_arg9 : S8x256.Idx → EReal))
            (row (V c main_v21 : S1x256.Idx → EReal)) r (i 1)
          * act (rd2 (V c main_v20 : S500000x8.Idx → EReal)) (rd2 (V c main_arg9 : S8x256.Idx → EReal))
            (row (V c main_v21 : S1x256.Idx → EReal)) r (i 1) := by
  refine R0.arrAt_row4 (dat0 (F := Ideal) V c) _ fun t ht => ?_
  rw [after0_4_last V c t ht]
  funext i
  obtain ⟨u, q, rfl⟩ : ∃ (u : Fin 1) (q : Fin 256), i = ix2 u q := ⟨i 0, i 1, eq_ix2 i⟩
  obtain rfl : u = 0 := Subsingleton.elim _ _
  have e : (accAt0 V c t.val t.isLt).2 (ix2 0 q) = runSum (fun s => R0.blkSq V c s q) t.val :=
    (R0.acc_inv V c t.val t.isLt q).2
  rw [e, ht]
  exact R0.sq_last V c q

end Region0

end Cert.KernelIdeal.HandValue

end
-- ==== Proof.Ideal.Value1.lean ====
/- What region 1 leaves in its output array.

   The region walks the 500000 rows in 100 blocks of 5000. At a point the body reads the point's block of the context
   rows and of the edge attributes, and the whole of every other operand, and stores one block of the output:

     out[r, q] = ea[r, q] + 1/2 * ((((n[r, ·] W2 + b2) Wv + bv) Wo + bo) Wp + bp)[q],
     n[r, j]   = (max (x[r, ·] W1 + b1, 0)[j] - mean[j]) * rsqrt (var[j] + eps) * gamma[j] + beta[j].

   Every entry of row r of the output depends on row r of the two row-blocked operands only, so the block a point
   writes is the restriction to its rows of one function of the whole arrays; the 100 blocks tile the rows, so the
   array ends holding that function. -/
import proofs.«121266_j58025008169388_1_alg».proof.Proof.Ideal.Region1
import proofs.«121266_j58025008169388_1_alg».proof.Proof.Spec
import Idealize.ShloMosaic.Lib.Pipeline.Value
import Idealize.ShloMosaic.Lib.ValueLayout
import Idealize.ShloMosaic.Lib.KernelVsHost
import Idealize.ShloMosaic.Lib.StackMember

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (rd2 row)

/-! ## A block product at an entry -/

/-- The product of an m×k block by a k×n block, accumulated into the zero block, at entry (a, b): the sum over the
    contracted coordinate of the products of the entries. -/
theorem matmul_plain_zero {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The first layer's product, 5000×8 by 8×256: its dimension numbers are the plain matrix product's. -/
theorem matmul_in (A : FVec Ideal S5000x8 .bf16) (B : FVec Ideal S8x256 .bf16) (p : Fin 5000) (j : Fin 256) :
    matmul dot_S5000x8_S8x256_S5000x256_1_0_0_1_n_n none A B (constant S5000x256 .f32 0x00000000#32) (ix2 p j)
      = ∑ c : Fin 8, A (ix2 p c) * B (ix2 c j) :=
  matmul_plain_zero (m := 5000) (k := 8) (n := 256) none A B p j

/-- The three square layers' product, 5000×256 by 256×256. -/
theorem matmul_sq (A : FVec Ideal S5000x256 .bf16) (B : FVec Ideal S256x256 .bf16) (p : Fin 5000) (j : Fin 256) :
    matmul dot_S5000x256_S256x256_S5000x256_1_0_0_1_n_n none A B (constant S5000x256 .f32 0x00000000#32) (ix2 p j)
      = ∑ c : Fin 256, A (ix2 p c) * B (ix2 c j) :=
  matmul_plain_zero (m := 5000) (k := 256) (n := 256) none A B p j

/-- The projection's product, 5000×256 by 256×8. -/
theorem matmul_out (A : FVec Ideal S5000x256 .bf16) (B : FVec Ideal S256x8 .bf16) (p : Fin 5000) (j : Fin 8) :
    matmul dot_S5000x256_S256x8_S5000x8_1_0_0_1_n_n none A B (constant S5000x8 .f32 0x00000000#32) (ix2 p j)
      = ∑ c : Fin 256, A (ix2 p c) * B (ix2 c j) :=
  matmul_plain_zero (m := 5000) (k := 256) (n := 8) none A B p j

/-! ## The stored block at an entry -/

/-- The block the body stores, at entry (p, q), is the specification's last stage over the 5000 rows of the blocks
    the body loaded: the pointwise operations read at the entry, a one-row operand broadcast down the rows read at
    its column, each product as the sum over its contracted coordinate; a change of float format is the identity on
    the extended reals and the zero the activation is clipped at is the extended real 0. -/
theorem stored_apply (x ea : Vec Ideal S5000x8 .f32) (mu va : Vec Ideal S1x256 .f32)
    (W1 : Vec Ideal S8x256 .f32) (b1 ga be : Vec Ideal S1x256 .f32) (W2 : Vec Ideal S256x256 .f32) (b2 : Vec Ideal S1x256 .f32)
    (Wv : Vec Ideal S256x256 .f32) (bv : Vec Ideal S1x256 .f32) (Wo : Vec Ideal S256x256 .f32) (bo : Vec Ideal S1x256 .f32)
    (Wp : Vec Ideal S256x8 .f32) (bp : Vec Ideal S1x8 .f32) (p : Fin 5000) (q : Fin 8) :
    k1_pay1 (k1_pay2 x W1 b1 va mu ga be W2) (k1_pay3 b2) Wv bv Wo bo Wp bp ea (ix2 p q)
      = Spec.tail (rd2 ea) (Spec.act (rd2 x) (rd2 W1) (row b1)) (row mu) (row va) (row ga) (row be) (rd2 W2) (row b2)
          (rd2 Wv) (row bv) (rd2 Wo) (row bo) (rd2 Wp) (row bp) p q := by
  unfold k1_pay1 k1_pay2 k1_pay3
  simp only [addf_apply, mulf_apply, subf_apply, maximumf_apply, broadcast_apply, truncf_apply, matmul_in, matmul_sq,
    matmul_out, broadcastTo_1b_ab_apply, shapeCast_self]
  have hz : (FloatOps.ofBits FTy.f32 0x00000000#32 : Ideal .f32) = (0 : EReal) := Ideal.ofBits_zero_f32
  simp only [hz]
  rfl

/-! ## An output row reads one row of the row-blocked operands -/

section Rows
variable {R R' J K D : Type} [Fintype R] [Fintype R'] [Fintype J] [Fintype K] [Fintype D]

/-- Row r of the activation is a function of row r of the context rows alone. -/
theorem act_of_row_eq (x : R → K → EReal) (x' : R' → K → EReal) (W1 : K → J → EReal) (b1 : J → EReal) (r : R) (r' : R')
    (hx : x r = x' r') : Spec.act x W1 b1 r = Spec.act x' W1 b1 r' := by
  funext j; unfold Spec.act; rw [hx]

/-- Row r of the last stage is a function of row r of the edge attributes and row r of the activation alone: each
    affine layer contracts along the row. -/
theorem tail_of_row_eq (ea : R → D → EReal) (ea' : R' → D → EReal) (H : R → J → EReal) (H' : R' → J → EReal)
    (mu var ga be : J → EReal) (W2 : J → J → EReal) (b2 : J → EReal) (Wv : J → J → EReal) (bv : J → EReal)
    (Wo : J → J → EReal) (bo : J → EReal) (Wp : J → D → EReal) (bp : D → EReal) (r : R) (r' : R') (d : D)
    (hea : ea r = ea' r') (hH : H r = H' r') :
    Spec.tail ea H mu var ga be W2 b2 Wv bv Wo bo Wp bp r d = Spec.tail ea' H' mu var ga be W2 b2 Wv bv Wo bo Wp bp r' d := by
  unfold Spec.tail Spec.dense Spec.h1n
  rw [hea]
  simp only [hH]

end Rows

/-- The stored block at entry (p, q) from the whole arrays: when row p of the two row-blocked blocks is row r of their
    arrays and every other block is its whole array, the entry is the specification's last stage at (r, q). -/
theorem stored_row (x ea : Vec Ideal S5000x8 .f32) (mu va : Vec Ideal S1x256 .f32)
    (W1 : Vec Ideal S8x256 .f32) (b1 ga be : Vec Ideal S1x256 .f32) (W2 : Vec Ideal S256x256 .f32) (b2 : Vec Ideal S1x256 .f32)
    (Wv : Vec Ideal S256x256 .f32) (bv : Vec Ideal S1x256 .f32) (Wo : Vec Ideal S256x256 .f32) (bo : Vec Ideal S1x256 .f32)
    (Wp : Vec Ideal S256x8 .f32) (bp : Vec Ideal S1x8 .f32)
    (X EA : S500000x8.Idx → EReal) (MU VA : S1x256.Idx → EReal) (W1' : S8x256.Idx → EReal) (B1 GA BE : S1x256.Idx → EReal)
    (W2' : S256x256.Idx → EReal) (B2 : S1x256.Idx → EReal) (WV : S256x256.Idx → EReal) (BV : S1x256.Idx → EReal)
    (WO : S256x256.Idx → EReal) (BO : S1x256.Idx → EReal) (WP : S256x8.Idx → EReal) (BP : S1x8.Idx → EReal)
    (p : Fin 5000) (r : Fin 500000) (q : Fin 8)
    (hx : rd2 x p = rd2 X r) (hea : rd2 ea p = rd2 EA r) (hmu : mu = MU) (hva : va = VA) (hW1 : W1 = W1') (hb1 : b1 = B1)
    (hga : ga = GA) (hbe : be = BE) (hW2 : W2 = W2') (hb2 : b2 = B2) (hWv : Wv = WV) (hbv : bv = BV) (hWo : Wo = WO)
    (hbo : bo = BO) (hWp : Wp = WP) (hbp : bp = BP) :
    k1_pay1 (k1_pay2 x W1 b1 va mu ga be W2) (k1_pay3 b2) Wv bv Wo bo Wp bp ea (ix2 p q)
      = Spec.tail (rd2 EA) (Spec.act (rd2 X) (rd2 W1') (row B1)) (row MU) (row VA) (row GA) (row BE) (rd2 W2') (row B2)
          (rd2 WV) (row BV) (rd2 WO) (row BO) (rd2 WP) (row BP) r q := by
  subst hmu hva hW1 hb1 hga hbe hW2 hb2 hWv hbv hWo hbo hWp hbp
  exact (stored_apply x ea mu va W1 b1 ga be W2 b2 Wv bv Wo bo Wp bp p q).trans
    (tail_of_row_eq (rd2 ea) (rd2 EA) (Spec.act (rd2 x) (rd2 W1) (row b1)) (Spec.act (rd2 X) (rd2 W1) (row b1))
      (row mu) (row va) (row ga) (row be) (rd2 W2) (row b2) (rd2 Wv) (row bv) (rd2 Wo) (row bo) (rd2 Wp) (row bp) p r q hea
      (act_of_row_eq (rd2 x) (rd2 X) (rd2 W1) (row b1) p r hx))

/-! ## Where the windows' blocks sit -/

/-- The three row-blocked windows (context rows, edge attributes, output) take block t of the rows at point t and
    the whole of the 8 columns. Decided over the 100 points. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_16.index t (0 : Fin 2) = t.val ∧ win1_16.index t (1 : Fin 2) = 0 :=
  (by decide +kernel : ∀ t : Fin grid1.N, _)

/-- Every other window's block is its whole array at every point: block index zero on both axes. Decided over the
    100 points, for windows 2 to 15 in order. -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 2) = 0 ∧ win1_15.index t (1 : Fin 2) = 0) :=
  (by decide +kernel : ∀ t : Fin grid1.N, _)

/-- Row p of block t is row 5000 t + p of the 500000. -/
theorem row_lt (t : Fin cfg1.N) (p : Fin 5000) : 5000 * t.val + p.val < 500000 := by
  have ht : t.val < 100 := N_1 ▸ t.isLt
  have hp := p.isLt
  omega

variable (V : (c : Dev nD) → (b : Ref sig .tc) → Buf (Elt Ideal) ((c : Thread nD τ).loc b))

/-! ## The blocks the body loads, read off the arrays -/

/-- Row p of the context rows' block at point t is row 5000 t + p of the array. -/
theorem blk_x_row (c : Dev nD) (t : Fin cfg1.N) (p : Fin 5000) :
    rd2 (iblk1 V c 0 t) p = rd2 (V c main_v20 : S500000x8.Idx → EReal) ⟨5000 * t.val + p.val, row_lt t p⟩ := by
  funext k
  show V c main_v20 (((cfg1.win 0).blk t).view.emb (ix2 p k)) = V c main_v20 (ix2 ⟨5000 * t.val + p.val, row_lt t p⟩ k)
  refine congrArg _ (funext fun a => Fin.ext ?_)
  obtain ⟨e0, e1, -⟩ := idx_rows t
  match a with
  | ⟨0, _⟩ => show win1_0.index t (0 : Fin 2) * 5000 + 1 * p.val = 5000 * t.val + p.val; omega
  | ⟨1, _⟩ => show win1_0.index t (1 : Fin 2) * 8 + 1 * k.val = k.val; omega

/-- Row p of the edge attributes' block at point t is row 5000 t + p of the array. -/
theorem blk_ea_row (c : Dev nD) (t : Fin cfg1.N) (p : Fin 5000) :
    rd2 (iblk1 V c 1 t) p = rd2 (V c main_arg0 : S500000x8.Idx → EReal) ⟨5000 * t.val + p.val, row_lt t p⟩ := by
  funext k
  show V c main_arg0 (((cfg1.win 1).blk t).view.emb (ix2 p k)) = V c main_arg0 (ix2 ⟨5000 * t.val + p.val, row_lt t p⟩ k)
  refine congrArg _ (funext fun a => Fin.ext ?_)
  obtain ⟨-, -, e0, e1, -⟩ := idx_rows t
  match a with
  | ⟨0, _⟩ => show win1_1.index t (0 : Fin 2) * 5000 + 1 * p.val = 5000 * t.val + p.val; omega
  | ⟨1, _⟩ => show win1_1.index t (1 : Fin 2) * 8 + 1 * k.val = k.val; omega

/-- The mean's block is the whole one-row array. -/
theorem blk_mean (c : Dev nD) (t : Fin cfg1.N) : iblk1 V c 2 t = (V c main_v30 : S1x256.Idx → EReal) := by
  funext y
  show V c main_v30 (((cfg1.win 2).blk t).view.emb y) = V c main_v30 y
  refine congrArg _ (funext fun a => Fin.ext ?_)
  obtain ⟨⟨e0, e1⟩, -⟩ := idx_whole t
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The variance's block is the whole one-row array. -/
theorem blk_var (c : Dev nD) (t : Fin cfg1.N) : iblk1 V c 3 t = (V c main_v34 : S1x256.Idx → EReal) := by
  funext y
  show V c main_v34 (((cfg1.win 3).blk t).view.emb y) = V c main_v34 y
  refine congrArg _ (funext fun a => Fin.ext ?_)
  obtain ⟨-, ⟨e0, e1⟩, -⟩ := idx_whole t
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The first layer's weights: the whole 8×256 array. -/
theorem blk_W1 (c : Dev nD) (t : Fin cfg1.N) : iblk1 V c 4 t = (V c main_arg9 : S8x256.Idx → EReal) := by
  funext y
  show V c main_arg9 (((cfg1.win 4).blk t).view.emb y) = V c main_arg9 y
  refine congrArg _ (funext fun a => Fin.ext ?_)
  obtain ⟨-, -, ⟨e0, e1⟩, -⟩ := idx_whole t
  match a with
  | ⟨0, _⟩ => show win1_4.index t (0 : Fin 2) * 8 + 1 * (y 0).val = (y 0).val; omega
  | ⟨1, _⟩ => show win1_4.index t (1 : Fin 2) * 256 + 1 * (y 1).val = (y 1).val; omega

/-- The first layer's bias: the whole one-row array. -/
theorem blk_b1 (c : Dev nD) (t : Fin cfg1.N) : iblk1 V c 5 t = (V c main_v21 : S1x256.Idx → EReal) := by
  funext y
  show V c main_v21 (((cfg1.win 5).blk t).view.emb y) = V c main_v21 y
  refine congrArg _ (funext fun a => Fin.ext ?_)
  obtain ⟨-, -, -, ⟨e0, e1⟩, -⟩ := idx_whole t
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- The scale of the normalisation: the whole one-row array. -/
theorem blk_gamma (c : Dev nD) (t : Fin cfg1.N) : iblk1 V c 6 t = (V c main_v22 : S1x256.Idx → EReal) := by
  funext y
  show V c main_v22 (((cfg1.win 6).blk t).view.emb y) = V c main_v22 y
  refine congrArg _ (funext fun a => Fin.ext ?_)
  obtain ⟨-, -, -, -, ⟨e0, e1⟩, -⟩ := idx_whole t
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- The shift of the normalisation: the whole one-row array. -/
theorem blk_beta (c : Dev nD) (t : Fin cfg1.N) : iblk1 V c 7 t = (V c main_v23 : S1x256.Idx → EReal) := by
  funext y
  show V c main_v23 (((cfg1.win 7).blk t).view.emb y) = V c main_v23 y
  refine congrArg _ (funext fun a => Fin.ext ?_)
  obtain ⟨-, -, -, -, -, ⟨e0, e1⟩, -⟩ := idx_whole t
  match a with
  | ⟨0, _⟩ => show win1_7.index t (0 : Fin 2) * 1 + 1 * (y 0).val = (y 0).val; omega
  | ⟨1, _⟩ => show win1_7.index t (1 : Fin 2) * 256 + 1 * (y 1).val = (y 1).val; omega

/-- The second layer's weights: the whole 256×256 array. -/
theorem blk_W2 (c : Dev nD) (t : Fin cfg1.N) : iblk1 V c 8 t = (V c main_arg13 : S256x256.Idx → EReal) := by
  funext y
  show V c main_arg13 (((cfg1.win 8).blk t).view.emb y) = V c main_arg13 y
  refine congrArg _ (funext fun a => Fin.ext ?_)
  obtain ⟨-, -, -, -, -, -, ⟨e0, e1⟩, -⟩ := idx_whole t
  match a with
  | ⟨0, _⟩ => show win1_8.index t (0 : Fin 2) * 256 + 1 * (y 0).val = (y 0).val; omega
  | ⟨1, _⟩ => show win1_8.index t (1 : Fin 2) * 256 + 1 * (y 1).val = (y 1).val; omega

/-- The second layer's bias: the whole one-row array. -/
theorem blk_b2 (c : Dev nD) (t : Fin cfg1.N) : iblk1 V c 9 t = (V c main_v24 : S1x256.Idx → EReal) := by
  funext y
  show V c main_v24 (((cfg1.win 9).blk t).view.emb y) = V c main_v24 y
  refine congrArg _ (funext fun a => Fin.ext ?_)
  obtain ⟨-, -, -, -, -, -, -, ⟨e0, e1⟩, -⟩ := idx_whole t
  match a with
  | ⟨0, _⟩ => show win1_9.index t (0 : Fin 2) * 1 + 1 * (y 0).val = (y 0).val; omega
  | ⟨1, _⟩ => show win1_9.index t (1 : Fin 2) * 256 + 1 * (y 1).val = (y 1).val; omega

/-- The third layer's weights: the whole 256×256 array. -/
theorem blk_Wv (c : Dev nD) (t : Fin cfg1.N) : iblk1 V c 10 t = (V c main_arg15 : S256x256.Idx → EReal) := by
  funext y
  show V c main_arg15 (((cfg1.win 10).blk t).view.emb y) = V c main_arg15 y
  refine congrArg _ (funext fun a => Fin.ext ?_)
  obtain ⟨-, -, -, -, -, -, -, -, ⟨e0, e1⟩, -⟩ := idx_whole t
  match a with
  | ⟨0, _⟩ => show win1_10.index t (0 : Fin 2) * 256 + 1 * (y 0).val = (y 0).val; omega
  | ⟨1, _⟩ => show win1_10.index t (1 : Fin 2) * 256 + 1 * (y 1).val = (y 1).val; omega

/-- The third layer's bias: the whole one-row array. -/
theorem blk_bv (c : Dev nD) (t : Fin cfg1.N) : iblk1 V c 11 t = (V c main_v25 : S1x256.Idx → EReal) := by
  funext y
  show V c main_v25 (((cfg1.win 11).blk t).view.emb y) = V c main_v25 y
  refine congrArg _ (funext fun a => Fin.ext ?_)
  obtain ⟨-, -, -, -, -, -, -, -, -, ⟨e0, e1⟩, -⟩ := idx_whole t
  match a with
  | ⟨0, _⟩ => show win1_11.index t (0 : Fin 2) * 1 + 1 * (y 0).val = (y 0).val; omega
  | ⟨1, _⟩ => show win1_11.index t (1 : Fin 2) * 256 + 1 * (y 1).val = (y 1).val; omega

/-- The fourth layer's weights: the whole 256×256 array. -/
theorem blk_Wo (c : Dev nD) (t : Fin cfg1.N) : iblk1 V c 12 t = (V c main_arg17 : S256x256.Idx → EReal) := by
  funext y
  show V c main_arg17 (((cfg1.win 12).blk t).view.emb y) = V c main_arg17 y
  refine congrArg _ (funext fun a => Fin.ext ?_)
  obtain ⟨-, -, -, -, -, -, -, -, -, -, ⟨e0, e1⟩, -⟩ := idx_whole t
  match a with
  | ⟨0, _⟩ => show win1_12.index t (0 : Fin 2) * 256 + 1 * (y 0).val = (y 0).val; omega
  | ⟨1, _⟩ => show win1_12.index t (1 : Fin 2) * 256 + 1 * (y 1).val = (y 1).val; omega

/-- The fourth layer's bias: the whole one-row array. -/
theorem blk_bo (c : Dev nD) (t : Fin cfg1.N) : iblk1 V c 13 t = (V c main_v26 : S1x256.Idx → EReal) := by
  funext y
  show V c main_v26 (((cfg1.win 13).blk t).view.emb y) = V c main_v26 y
  refine congrArg _ (funext fun a => Fin.ext ?_)
  obtain ⟨-, -, -, -, -, -, -, -, -, -, -, ⟨e0, e1⟩, -⟩ := idx_whole t
  match a with
  | ⟨0, _⟩ => show win1_13.index t (0 : Fin 2) * 1 + 1 * (y 0).val = (y 0).val; omega
  | ⟨1, _⟩ => show win1_13.index t (1 : Fin 2) * 256 + 1 * (y 1).val = (y 1).val; omega

/-- The projection's weights: the whole 256×8 array. -/
theorem blk_Wp (c : Dev nD) (t : Fin cfg1.N) : iblk1 V c 14 t = (V c main_arg19 : S256x8.Idx → EReal) := by
  funext y
  show V c main_arg19 (((cfg1.win 14).blk t).view.emb y) = V c main_arg19 y
  refine congrArg _ (funext fun a => Fin.ext ?_)
  obtain ⟨-, -, -, -, -, -, -, -, -, -, -, -, ⟨e0, e1⟩, -⟩ := idx_whole t
  match a with
  | ⟨0, _⟩ => show win1_14.index t (0 : Fin 2) * 256 + 1 * (y 0).val = (y 0).val; omega
  | ⟨1, _⟩ => show win1_14.index t (1 : Fin 2) * 8 + 1 * (y 1).val = (y 1).val; omega

/-- The projection's bias: the whole one-row array of 8. -/
theorem blk_bp (c : Dev nD) (t : Fin cfg1.N) : iblk1 V c 15 t = (V c main_v27 : S1x8.Idx → EReal) := by
  funext y
  show V c main_v27 (((cfg1.win 15).blk t).view.emb y) = V c main_v27 y
  refine congrArg _ (funext fun a => Fin.ext ?_)
  obtain ⟨-, -, -, -, -, -, -, -, -, -, -, -, -, e0, e1⟩ := idx_whole t
  match a with
  | ⟨0, _⟩ => show win1_15.index t (0 : Fin 2) * 1 + 1 * (y 0).val = (y 0).val; omega
  | ⟨1, _⟩ => show win1_15.index t (1 : Fin 2) * 8 + 1 * (y 1).val = (y 1).val; omega

/-! ## The output array -/

/-- What the output array ends holding, as one function of the arrays the region finds: at (r, q) the specification's
    last stage over all 500000 rows, on the activation of the context rows. -/
def out1 (c : Dev nD) : S500000x8.Idx → EReal := fun i =>
  Spec.tail (rd2 (V c main_arg0 : S500000x8.Idx → EReal))
    (Spec.act (rd2 (V c main_v20 : S500000x8.Idx → EReal)) (rd2 (V c main_arg9 : S8x256.Idx → EReal)) (row (V c main_v21 : S1x256.Idx → EReal)))
    (row (V c main_v30 : S1x256.Idx → EReal)) (row (V c main_v34 : S1x256.Idx → EReal))
    (row (V c main_v22 : S1x256.Idx → EReal)) (row (V c main_v23 : S1x256.Idx → EReal))
    (rd2 (V c main_arg13 : S256x256.Idx → EReal)) (row (V c main_v24 : S1x256.Idx → EReal))
    (rd2 (V c main_arg15 : S256x256.Idx → EReal)) (row (V c main_v25 : S1x256.Idx → EReal))
    (rd2 (V c main_arg17 : S256x256.Idx → EReal)) (row (V c main_v26 : S1x256.Idx → EReal))
    (rd2 (V c main_arg19 : S256x8.Idx → EReal)) (row (V c main_v27 : S1x8.Idx → EReal)) (i 0) (i 1)

/-- Entry (p, q) of the output's block at point t sits at (5000 t + p, q) of the array. -/
theorem emb_out (t : Fin cfg1.N) (p : Fin 5000) (q : Fin 8) :
    (((cfg1.win 16).blk t).view.emb (ix2 p q) : S500000x8.Idx) = ix2 ⟨5000 * t.val + p.val, row_lt t p⟩ q := by
  funext a; apply Fin.ext
  obtain ⟨-, -, -, -, e0, e1⟩ := idx_rows t
  match a with
  | ⟨0, _⟩ => show win1_16.index t (0 : Fin 2) * 5000 + 1 * p.val = 5000 * t.val + p.val; omega
  | ⟨1, _⟩ => show win1_16.index t (1 : Fin 2) * 8 + 1 * q.val = q.val; omega

/-- What point t writes back is block t of that function. -/
theorem flushed1_16_eq (c : Dev nD) (t : Fin cfg1.N) :
    (dat1 V c).flushed 16 t = ((cfg1.win 16).blk t).view.read (Elt Ideal) (out1 V c) := by
  show (cfg1.win 16).cut (grid1.coords t) ((dat1 V c).after 16 t) = _
  rw [after1_16, out1_16_eq]
  funext j
  obtain ⟨p, q, rfl⟩ : ∃ (p : Fin 5000) (q : Fin 8), j = ix2 p q := ⟨j 0, j 1, eq_ix2 j⟩
  show k1_pay1 (k1_pay2 (iblk1 V c 0 t) (iblk1 V c 4 t) (iblk1 V c 5 t) (iblk1 V c 3 t) (iblk1 V c 2 t) (iblk1 V c 6 t) (iblk1 V c 7 t) (iblk1 V c 8 t))
      (k1_pay3 (iblk1 V c 9 t)) (iblk1 V c 10 t) (iblk1 V c 11 t) (iblk1 V c 12 t) (iblk1 V c 13 t) (iblk1 V c 14 t) (iblk1 V c 15 t) (iblk1 V c 1 t) (ix2 p q)
    = out1 V c (((cfg1.win 16).blk t).view.emb (ix2 p q))
  rw [emb_out t p q]
  exact stored_row (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)
    (iblk1 V c 15 t) (V c main_v20) (V c main_arg0) (V c main_v30) (V c main_v34) (V c main_arg9) (V c main_v21) (V c main_v22)
    (V c main_v23) (V c main_arg13) (V c main_v24) (V c main_arg15) (V c main_v25) (V c main_arg17) (V c main_v26) (V c main_arg19)
    (V c main_v27) p ⟨5000 * t.val + p.val, row_lt t p⟩ q (blk_x_row V c t p) (blk_ea_row V c t p) (blk_mean V c t) (blk_var V c t)
    (blk_W1 V c t) (blk_b1 V c t) (blk_gamma V c t) (blk_beta V c t) (blk_W2 V c t) (blk_b2 V c t) (blk_Wv V c t) (blk_bv V c t)
    (blk_Wo V c t) (blk_bo V c t) (blk_Wp V c t) (blk_bp V c t)

/-- An index of the array is in point t's block iff each coordinate is in the block's range on its axis. -/
theorem mem_blk16 (t : Fin cfg1.N) (i : S500000x8.Idx) :
    i ∈ ((cfg1.win 16).blk t).view.set ↔ ∀ a : Fin 2, win1_16.index t a * S5000x8.size a ≤ (i a).val ∧ (i a).val < win1_16.index t a * S5000x8.size a + S5000x8.size a := by
  show i ∈ ((View.whole main_v35).slice (win1_16.rect t)).set ↔ _
  rw [View.set_slice_whole, Rect.mem_set_unit]
  exact Iff.rfl

/-- The 100 blocks tile the rows: row r lies in the block of point r / 5000, and every point writes its block back. -/
theorem cover16 (i : S500000x8.Idx) :
    ∃ t : Fin cfg1.N, (cfg1.win 16).flush t = true ∧ i ∈ ((cfg1.win 16).blk t).view.set := by
  have hi0 : (i 0).val < 500000 := (i 0).isLt
  have hi1 : (i 1).val < 8 := (i 1).isLt
  obtain ⟨t, ht⟩ : ∃ t : Fin cfg1.N, t.val = (i 0).val / 5000 := ⟨⟨(i 0).val / 5000, by show (i 0).val / 5000 < grid1.N; rw [N_1]; omega⟩, rfl⟩
  refine ⟨t, flush1_16 t, ?_⟩
  rw [mem_blk16]
  obtain ⟨-, -, -, -, e0, e1⟩ := idx_rows t
  intro a
  match a with
  | ⟨0, _⟩ => show win1_16.index t (0 : Fin 2) * 5000 ≤ (i 0).val ∧ (i 0).val < win1_16.index t (0 : Fin 2) * 5000 + 5000; omega
  | ⟨1, _⟩ => show win1_16.index t (1 : Fin 2) * 8 ≤ (i 1).val ∧ (i 1).val < win1_16.index t (1 : Fin 2) * 8 + 8; omega

/-- The output array after the region: the specification's last stage of the arrays the region finds, entry by entry. -/
theorem arrAt1_16_eq (c : Dev nD) : (dat1 V c).arrAt 16 cfg1.N = out1 V c :=
  (dat1 V c).arrAt_eq_of_cover 16 (out1 V c) (fun t _ => flushed1_16_eq V c t) (cover16)

/-- The same with the function written out. -/
theorem arrAt1_16 (c : Dev nD) : (dat1 V c).arrAt 16 cfg1.N = fun i =>
    Spec.tail (rd2 (V c main_arg0 : S500000x8.Idx → EReal))
      (Spec.act (rd2 (V c main_v20 : S500000x8.Idx → EReal)) (rd2 (V c main_arg9 : S8x256.Idx → EReal)) (row (V c main_v21 : S1x256.Idx → EReal)))
      (row (V c main_v30 : S1x256.Idx → EReal)) (row (V c main_v34 : S1x256.Idx → EReal))
      (row (V c main_v22 : S1x256.Idx → EReal)) (row (V c main_v23 : S1x256.Idx → EReal))
      (rd2 (V c main_arg13 : S256x256.Idx → EReal)) (row (V c main_v24 : S1x256.Idx → EReal))
      (rd2 (V c main_arg15 : S256x256.Idx → EReal)) (row (V c main_v25 : S1x256.Idx → EReal))
      (rd2 (V c main_arg17 : S256x256.Idx → EReal)) (row (V c main_v26 : S1x256.Idx → EReal))
      (rd2 (V c main_arg19 : S256x8.Idx → EReal)) (row (V c main_v27 : S1x8.Idx → EReal)) (i 0) (i 1) :=
  arrAt1_16_eq V c

end Cert.KernelIdeal.HandValue

end
-- ==== Proof.Ideal.Ctx.lean ====
import proofs.«121266_j58025008169388_1_alg».proof.KernelIdeal
import Idealize.ShloMosaic.PureOps.Ideal
import Mathlib.Data.EReal.Basic
import Mathlib.Tactic.NormNum

noncomputable section

namespace Cert.KernelIdeal.HandValue

open Idealize.ShloMosaic Idealize.SL.Sem
open Cert.KernelIdeal Cert.KernelIdeal.Facts₀

variable {F : FTy → Type} [FloatOps F] [Facts₀]

/-- The kernel's context rows: for every edge the mean of its two end nodes' features,
    `x[r, k] = (nf[ei[0, r], k] + nf[ei[1, r], k]) * 0.5`. Each end's row number is read from a row of
    `ei`, a negative one shifted up by the number of nodes, and the node's features are gathered at it. -/
def ctx (nf : Vec F S100000x8 .f32) (ei : Vec F S2x500000 .i32) : FVec F S500000x8 .f32 :=
  mulf
    (addf
      (Host.gather gather_S100000x8_S500000x1_S500000x8_1_0_n_n_0_1_18 nf
        (broadcastInDim S500000x1 ![0] bcast_S500000_S500000x1_0
          (select
            (cmpi .slt
              (fun i => shapeCast S500000 (extractStridedSlice S1x500000 ![0, 0] ei slices_S2x500000_S1x500000_0_0) shapeCasts_S1x500000_S500000 i)
              (broadcastInDim S500000 ![] bcast_S_S500000 (constantI S_ 32 0#32)))
            (addi
              (fun i => shapeCast S500000 (extractStridedSlice S1x500000 ![0, 0] ei slices_S2x500000_S1x500000_0_0) shapeCasts_S1x500000_S500000 i)
              (broadcastInDim S500000 ![] bcast_S_S500000 (constantI S_ 32 100000#32)))
            (fun i => shapeCast S500000 (extractStridedSlice S1x500000 ![0, 0] ei slices_S2x500000_S1x500000_0_0) shapeCasts_S1x500000_S500000 i))))
      (Host.gather gather_S100000x8_S500000x1_S500000x8_1_0_n_n_0_1_18 nf
        (broadcastInDim S500000x1 ![0] bcast_S500000_S500000x1_0
          (select
            (cmpi .slt
              (fun i => shapeCast S500000 (extractStridedSlice S1x500000 ![1, 0] ei slices_S2x500000_S1x500000_1_0) shapeCasts_S1x500000_S500000 i)
              (broadcastInDim S500000 ![] bcast_S_S500000 (constantI S_ 32 0#32)))
            (addi
              (fun i => shapeCast S500000 (extractStridedSlice S1x500000 ![1, 0] ei slices_S2x500000_S1x500000_1_0) shapeCasts_S1x500000_S500000 i)
              (broadcastInDim S500000 ![] bcast_S_S500000 (constantI S_ 32 100000#32)))
            (fun i => shapeCast S500000 (extractStridedSlice S1x500000 ![1, 0] ei slices_S2x500000_S1x500000_1_0) shapeCasts_S1x500000_S500000 i)))))
    (broadcastInDim S500000x8 ![] bcast_S_S500000x8 (constant S_ .f32 0x3F000000#32))

/-- The pattern `0x3F000000` is one half. -/
theorem half_eq : Ideal.ofBits .f32 0x3F000000#32 = ((1 / 2 : ℝ) : EReal) := by
  simp [Ideal.ofBits, Ideal.ieee, -EReal.coe_mul]; norm_num

/-- The mean of two reals is a real. -/
theorem real_mean (x y : EReal) (hx : ∃ a : ℝ, x = (a : EReal)) (hy : ∃ b : ℝ, y = (b : EReal)) :
    ∃ c : ℝ, (x + y) * Ideal.ofBits .f32 0x3F000000#32 = (c : EReal) := by
  obtain ⟨a, rfl⟩ := hx
  obtain ⟨b, rfl⟩ := hy
  exact ⟨(a + b) * (1 / 2), by rw [half_eq, ← EReal.coe_add, ← EReal.coe_mul]⟩

/-- Every context entry is a real number when every node feature is: a gathered entry is an entry of `nf`,
    whatever row number the index words select, and the mean of two reals is a real. -/
theorem ctx_real (nf : Vec Ideal S100000x8 .f32) (ei : Vec Ideal S2x500000 .i32)
    (hnf : ∀ i, ∃ a : ℝ, nf i = (a : EReal)) :
    ∀ i, ∃ a : ℝ, ctx (F := Ideal) nf ei i = (a : EReal) := by
  intro i
  exact real_mean _ _ (hnf _) (hnf _)

end Cert.KernelIdeal.HandValue

end
-- ==== Proof.Ideal.ValueHost.lean ====
import proofs.«121266_j58025008169388_1_alg».proof.Proof.Gen.KernelIdeal.Regions
import proofs.«121266_j58025008169388_1_alg».proof.Proof.Ideal.Ctx
import proofs.«121266_j58025008169388_1_alg».proof.Proof.Spec
import Idealize.ShloMosaic.Lib.StableHlo.Run
import Idealize.ShloMosaic.Lib.Pipeline.Value
import Idealize.ShloMosaic.Lib.ValueIdx

/-!
The two stretches of host operations of the kernel's program, read as values over the extended reals.

The first stretch, run from any contents of the buffers, leaves in the array the first region
streams the context rows (each edge's mean of its two end nodes' features), in seven arrays the
bias and scale vectors re-laid as one-row matrices (entry (0, j) of the matrix is entry j of the
vector), and every argument array as it found it.

The second stretch, run from any contents, divides the two one-row arrays the first region leaves
by the number of rows and subtracts the square of the first quotient from the second: when the two
rows hold the column sums and the column sums of squares of a matrix, the results are the column
means and the "mean of squares minus square of mean" variances of that matrix.
-/

noncomputable section

namespace Cert.KernelIdeal.HandValue

open Idealize.ShloMosaic Idealize.ShloMosaic.TcCoe Idealize.SL.Sem
open Idealize.ShloMosaic.ValueIdx
open Cert.KernelIdeal Cert.KernelIdeal.Gen
open Cert.Spec

variable (W : Valuation τ sig (Elt Ideal))

/-! ## A vector re-laid as a one-row matrix -/

/-- Entry (0, j) of a length-n vector re-laid as a 1 × n matrix is entry j of the vector: both sit at
    row-major position j. -/
theorem oneRow_apply {α : Type} {n : ℕ} (v : (⟨1, ![n]⟩ : Shape).Idx → α)
    (h : (⟨1, ![n]⟩ : Shape).ShapeCasts ⟨2, ![1, n]⟩) (i : (⟨2, ![1, n]⟩ : Shape).Idx) :
    shapeCast ⟨2, ![1, n]⟩ v h i = v (ix1 (i 1)) := by
  refine (shapeCast_addUnit_apply ![n] v h i).trans (congrArg v ?_)
  funext a
  match a with
  | ⟨0, _⟩ => rfl

/-! ## The first stretch -/

/-- The array the first region streams holds the context rows of the node features and the edge
    index array. -/
theorem host0_v20 :
    StableHlo.after (hostOps0 (F := Ideal)) W (Proc.devRef .tc main_v20)
      = ctx (F := Ideal) (W (Proc.devRef .tc main_arg1)) (W (Proc.devRef .tc main_arg2)) := by
  after_results_simp
  rfl

/-- The first layer's bias as a one-row matrix. -/
theorem host0_v21 (i : S1x256.Idx) :
    StableHlo.after (hostOps0 (F := Ideal)) W (Proc.devRef .tc main_v21) i = W (Proc.devRef .tc main_arg10) (ix1 (i 1)) := by
  have e : StableHlo.after (hostOps0 (F := Ideal)) W (Proc.devRef .tc main_v21)
      = fun i => shapeCast S1x256 (W (Proc.devRef .tc main_arg10)) shapeCasts_S256_S1x256 i := by
    after_results_simp
    rfl
  rw [e]
  exact oneRow_apply _ _ i

/-- The normalisation's scale as a one-row matrix. -/
theorem host0_v22 (i : S1x256.Idx) :
    StableHlo.after (hostOps0 (F := Ideal)) W (Proc.devRef .tc main_v22) i = W (Proc.devRef .tc main_arg11) (ix1 (i 1)) := by
  have e : StableHlo.after (hostOps0 (F := Ideal)) W (Proc.devRef .tc main_v22)
      = fun i => shapeCast S1x256 (W (Proc.devRef .tc main_arg11)) shapeCasts_S256_S1x256 i := by
    after_results_simp
    rfl
  rw [e]
  exact oneRow_apply _ _ i

/-- The normalisation's shift as a one-row matrix. -/
theorem host0_v23 (i : S1x256.Idx) :
    StableHlo.after (hostOps0 (F := Ideal)) W (Proc.devRef .tc main_v23) i = W (Proc.devRef .tc main_arg12) (ix1 (i 1)) := by
  have e : StableHlo.after (hostOps0 (F := Ideal)) W (Proc.devRef .tc main_v23)
      = fun i => shapeCast S1x256 (W (Proc.devRef .tc main_arg12)) shapeCasts_S256_S1x256 i := by
    after_results_simp
    rfl
  rw [e]
  exact oneRow_apply _ _ i

/-- The second layer's bias as a one-row matrix. -/
theorem host0_v24 (i : S1x256.Idx) :
    StableHlo.after (hostOps0 (F := Ideal)) W (Proc.devRef .tc main_v24) i = W (Proc.devRef .tc main_arg14) (ix1 (i 1)) := by
  have e : StableHlo.after (hostOps0 (F := Ideal)) W (Proc.devRef .tc main_v24)
      = fun i => shapeCast S1x256 (W (Proc.devRef .tc main_arg14)) shapeCasts_S256_S1x256 i := by
    after_results_simp
    rfl
  rw [e]
  exact oneRow_apply _ _ i

/-- The third layer's bias as a one-row matrix. -/
theorem host0_v25 (i : S1x256.Idx) :
    StableHlo.after (hostOps0 (F := Ideal)) W (Proc.devRef .tc main_v25) i = W (Proc.devRef .tc main_arg16) (ix1 (i 1)) := by
  have e : StableHlo.after (hostOps0 (F := Ideal)) W (Proc.devRef .tc main_v25)
      = fun i => shapeCast S1x256 (W (Proc.devRef .tc main_arg16)) shapeCasts_S256_S1x256 i := by
    after_results_simp
    rfl
  rw [e]
  exact oneRow_apply _ _ i

/-- The fourth layer's bias as a one-row matrix. -/
theorem host0_v26 (i : S1x256.Idx) :
    StableHlo.after (hostOps0 (F := Ideal)) W (Proc.devRef .tc main_v26) i = W (Proc.devRef .tc main_arg18) (ix1 (i 1)) := by
  have e : StableHlo.after (hostOps0 (F := Ideal)) W (Proc.devRef .tc main_v26)
      = fun i => shapeCast S1x256 (W (Proc.devRef .tc main_arg18)) shapeCasts_S256_S1x256 i := by
    after_results_simp
    rfl
  rw [e]
  exact oneRow_apply _ _ i

/-- The projection's bias as a one-row matrix. -/
theorem host0_v27 (i : S1x8.Idx) :
    StableHlo.after (hostOps0 (F := Ideal)) W (Proc.devRef .tc main_v27) i = W (Proc.devRef .tc main_arg20) (ix1 (i 1)) := by
  have e : StableHlo.after (hostOps0 (F := Ideal)) W (Proc.devRef .tc main_v27)
      = fun i => shapeCast S1x8 (W (Proc.devRef .tc main_arg20)) shapeCasts_S8_S1x8 i := by
    after_results_simp
    rfl
  rw [e]
  exact oneRow_apply _ _ i

/-- The first stretch writes only its own results: any other array, every argument among them, is
    left as it was found. -/
theorem host0_keep (r : Ref sig .tc) (h : r ∉ hostOps0_W) :
    StableHlo.after (hostOps0 (F := Ideal)) W (Proc.devRef .tc r) = W (Proc.devRef .tc r) :=
  StableHlo.after_of_writes_sub hostOps0 W hostOps0_writes h

/-! ## The second stretch -/

/-- The first quotient: the first region's first row divided, entry by entry, by the number of rows. -/
theorem host1_v30 (i : S1x256.Idx) :
    StableHlo.after (hostOps1 (F := Ideal)) W (Proc.devRef .tc main_v30) i
      = Ideal.div (W (Proc.devRef .tc main_v28_0) i) (Ideal.ofBits .f32 0x48F42400#32) := by
  have e : StableHlo.after (hostOps1 (F := Ideal)) W (Proc.devRef .tc main_v30)
      = Host.divf (W (Proc.devRef .tc main_v28_0))
          (broadcastInDim S1x256 ![] bcast_S_S1x256 (constant (F := Ideal) S_ .f32 0x48F42400#32)) := by
    after_results
  rw [e]
  rfl

/-- The second result: the second row's quotient less the square of the first quotient. -/
theorem host1_v34 (i : S1x256.Idx) :
    StableHlo.after (hostOps1 (F := Ideal)) W (Proc.devRef .tc main_v34) i
      = Ideal.div (W (Proc.devRef .tc main_v28_1) i) (Ideal.ofBits .f32 0x48F42400#32)
        - Ideal.div (W (Proc.devRef .tc main_v28_0) i) (Ideal.ofBits .f32 0x48F42400#32)
          * Ideal.div (W (Proc.devRef .tc main_v28_0) i) (Ideal.ofBits .f32 0x48F42400#32) := by
  have e : StableHlo.after (hostOps1 (F := Ideal)) W (Proc.devRef .tc main_v34)
      = subf
          (Host.divf (W (Proc.devRef .tc main_v28_1))
            (broadcastInDim S1x256 ![] bcast_S_S1x256 (constant (F := Ideal) S_ .f32 0x48F42400#32)))
          (mulf
            (Host.divf (W (Proc.devRef .tc main_v28_0))
              (broadcastInDim S1x256 ![] bcast_S_S1x256 (constant (F := Ideal) S_ .f32 0x48F42400#32)))
            (Host.divf (W (Proc.devRef .tc main_v28_0))
              (broadcastInDim S1x256 ![] bcast_S_S1x256 (constant (F := Ideal) S_ .f32 0x48F42400#32)))) := by
    after_results
  rw [e]
  rfl

/-- The second stretch writes only its own results. -/
theorem host1_keep (r : Ref sig .tc) (h : r ∉ hostOps1_W) :
    StableHlo.after (hostOps1 (F := Ideal)) W (Proc.devRef .tc r) = W (Proc.devRef .tc r) :=
  StableHlo.after_of_writes_sub hostOps1 W hostOps1_writes h

/-- When the first row holds the column sums of a matrix with 500000 rows, the first quotient is
    its column means. -/
theorem host1_mean (H : Fin 500000 → Fin 256 → EReal)
    (h0 : ∀ i : S1x256.Idx, W (Proc.devRef .tc main_v28_0) i = colSum H (i 1)) (i : S1x256.Idx) :
    StableHlo.after (hostOps1 (F := Ideal)) W (Proc.devRef .tc main_v30) i = mean H (i 1) := by
  rw [host1_v30, h0]
  rfl

/-- When moreover the second row holds the column sums of squares, the second result is the
    variance in its "mean of squares minus square of mean" form. -/
theorem host1_var (H : Fin 500000 → Fin 256 → EReal)
    (h0 : ∀ i : S1x256.Idx, W (Proc.devRef .tc main_v28_0) i = colSum H (i 1))
    (h1 : ∀ i : S1x256.Idx, W (Proc.devRef .tc main_v28_1) i = ∑ r : Fin 500000, H r (i 1) * H r (i 1))
    (i : S1x256.Idx) :
    StableHlo.after (hostOps1 (F := Ideal)) W (Proc.devRef .tc main_v34) i = varK H (i 1) := by
  rw [host1_v34, h0, h1]
  rfl

end Cert.KernelIdeal.HandValue

end
-- ==== Proof.Ideal.KernelOut.lean ====
import proofs.«121266_j58025008169388_1_alg».proof.Proof.Ideal.Ctx
import proofs.«121266_j58025008169388_1_alg».proof.Proof.Spec
import proofs.«121266_j58025008169388_1_alg».proof.Proof.Gen.KernelIdeal

/-!
# The result of the idealized kernel as a function of the launch memory

With `x` the edge context gathered from the node rows, `H = relu (x · W1 + b1)` the first-layer activation over all
500000 rows, the kernel's statistics are the column mean of `H` and the mean of squares minus the squared mean, and the
result is the edge attributes blended with the four dense layers applied to the normalised activation.
-/

noncomputable section

namespace Cert.KernelIdeal.HandValue

open Cert.KernelIdeal Idealize.ShloMosaic Idealize.ShloMosaic.TcCoe Idealize.SL.Sem

variable (m : (ℓ : Loc nD τ sig) → Buf (Elt Ideal) ℓ)

/-- The first-layer activation of every edge row, from the launch memory of core `c`. -/
def actOf (c : Dev nD) : Fin 500000 → Fin 256 → EReal :=
  Cert.Spec.act (Cert.Spec.rd2 (ctx (F := Ideal) (m ((c.tc : Thread nD τ).loc main_arg1)) (m ((c.tc : Thread nD τ).loc main_arg2)))) (Cert.Spec.rd2 (m ((c.tc : Thread nD τ).loc main_arg9))) (Cert.Spec.rd1 (m ((c.tc : Thread nD τ).loc main_arg10)))

/-- The common tail at given statistics. -/
def outWith (c : Dev nD) (mu var : Fin 256 → EReal) : S500000x8.Idx → EReal := fun i =>
  Cert.Spec.tail (Cert.Spec.rd2 (m ((c.tc : Thread nD τ).loc main_arg0))) (actOf m c) mu var (Cert.Spec.rd1 (m ((c.tc : Thread nD τ).loc main_arg11))) (Cert.Spec.rd1 (m ((c.tc : Thread nD τ).loc main_arg12)))
    (Cert.Spec.rd2 (m ((c.tc : Thread nD τ).loc main_arg13))) (Cert.Spec.rd1 (m ((c.tc : Thread nD τ).loc main_arg14))) (Cert.Spec.rd2 (m ((c.tc : Thread nD τ).loc main_arg15))) (Cert.Spec.rd1 (m ((c.tc : Thread nD τ).loc main_arg16)))
    (Cert.Spec.rd2 (m ((c.tc : Thread nD τ).loc main_arg17))) (Cert.Spec.rd1 (m ((c.tc : Thread nD τ).loc main_arg18))) (Cert.Spec.rd2 (m ((c.tc : Thread nD τ).loc main_arg19))) (Cert.Spec.rd1 (m ((c.tc : Thread nD τ).loc main_arg20))) (i 0) (i 1)

/-- What the kernel computes: the tail at the mean and at the mean of squares minus the squared mean. -/
def kernelOut (c : Dev nD) : S500000x8.Idx → EReal :=
  outWith m c (Cert.Spec.mean (actOf m c)) (Cert.Spec.varK (actOf m c))

end Cert.KernelIdeal.HandValue

end
-- ==== Proof.Ideal.KernelValue.lean ====
import proofs.«121266_j58025008169388_1_alg».proof.Proof.Ideal.Run
import proofs.«121266_j58025008169388_1_alg».proof.Proof.Ideal.Value0
import proofs.«121266_j58025008169388_1_alg».proof.Proof.Ideal.Value1
import proofs.«121266_j58025008169388_1_alg».proof.Proof.Ideal.ValueHost
import proofs.«121266_j58025008169388_1_alg».proof.Proof.Ideal.KernelOut

set_option maxRecDepth 16384

/-!
# The idealized kernel's result array is the specification's function of the launch memory

The fused region leaves in the result array the common tail of what it is entered with: the edge attributes and the
weights are as launched (nothing writes them), the edge context and the bias rows are what the first host stretch made
of the launch memory, and the two statistics rows are what the second host stretch makes of the column sums and the
column sums of squares the reduction region leaves, which are those of the first-layer activation over all rows.
-/

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx

variable (m : (ℓ : Loc nD τ sig) → Buf (Elt Ideal) ℓ)

/-! ## What the regions are entered with, read back to the launch memory -/

/-- The edge context when the reduction region is entered. -/
theorem vin0_x (c : Dev nD) : Vin0 m c main_v20 = ctx (F := Ideal) (m ((c.tc : Thread nD τ).loc main_arg1)) (m ((c.tc : Thread nD τ).loc main_arg2)) :=
  host0_v20 (B0 m c)
/-- The first-layer weights when the reduction region is entered. -/
theorem vin0_W1 (c : Dev nD) : Vin0 m c main_arg9 = (m ((c.tc : Thread nD τ).loc main_arg9)) :=
  B1_arg m c main_arg9 (by decide)
/-- The first-layer bias row when the reduction region is entered. -/
theorem vin0_b1 (c : Dev nD) : row (Vin0 m c main_v21 : S1x256.Idx → EReal) = rd1 ((m ((c.tc : Thread nD τ).loc main_arg10)) : S256.Idx → EReal) := by
  funext j
  exact host0_v21 (B0 m c) (ix2 0 j)
/-- The activation the reduction region sums is the launch memory's. -/
theorem vin0_act (c : Dev nD) :
    act (rd2 (Vin0 m c main_v20 : S500000x8.Idx → EReal)) (rd2 (Vin0 m c main_arg9 : S8x256.Idx → EReal)) (row (Vin0 m c main_v21 : S1x256.Idx → EReal))
      = actOf m c := by
  rw [vin0_x m c, vin0_W1 m c, vin0_b1 m c]; rfl

/-- The edge context when the fused region is entered: neither the reduction region nor the second host stretch writes it. -/
theorem vin1_x (c : Dev nD) : Vin1 m c main_v20 = ctx (F := Ideal) (m ((c.tc : Thread nD τ).loc main_arg1)) (m ((c.tc : Thread nD τ).loc main_arg2)) :=
  (B3_of_B1 m c main_v20 (by decide) (by decide)).trans (vin0_x m c)
theorem vin1_main_arg0 (c : Dev nD) : Vin1 m c main_arg0 = (m ((c.tc : Thread nD τ).loc main_arg0)) :=
  B3_arg m c main_arg0 (by decide) (by decide) (by decide)
theorem vin1_main_arg9 (c : Dev nD) : Vin1 m c main_arg9 = (m ((c.tc : Thread nD τ).loc main_arg9)) :=
  B3_arg m c main_arg9 (by decide) (by decide) (by decide)
theorem vin1_main_arg13 (c : Dev nD) : Vin1 m c main_arg13 = (m ((c.tc : Thread nD τ).loc main_arg13)) :=
  B3_arg m c main_arg13 (by decide) (by decide) (by decide)
theorem vin1_main_arg15 (c : Dev nD) : Vin1 m c main_arg15 = (m ((c.tc : Thread nD τ).loc main_arg15)) :=
  B3_arg m c main_arg15 (by decide) (by decide) (by decide)
theorem vin1_main_arg17 (c : Dev nD) : Vin1 m c main_arg17 = (m ((c.tc : Thread nD τ).loc main_arg17)) :=
  B3_arg m c main_arg17 (by decide) (by decide) (by decide)
theorem vin1_main_arg19 (c : Dev nD) : Vin1 m c main_arg19 = (m ((c.tc : Thread nD τ).loc main_arg19)) :=
  B3_arg m c main_arg19 (by decide) (by decide) (by decide)
theorem vin1_main_v21 (c : Dev nD) : row (Vin1 m c main_v21 : S1x256.Idx → EReal) = rd1 ((m ((c.tc : Thread nD τ).loc main_arg10)) : S256.Idx → EReal) := by
  funext j
  exact (congrFun (B3_of_B1 m c main_v21 (by decide) (by decide)) (ix2 0 j)).trans (host0_v21 (B0 m c) (ix2 0 j))
theorem vin1_main_v22 (c : Dev nD) : row (Vin1 m c main_v22 : S1x256.Idx → EReal) = rd1 ((m ((c.tc : Thread nD τ).loc main_arg11)) : S256.Idx → EReal) := by
  funext j
  exact (congrFun (B3_of_B1 m c main_v22 (by decide) (by decide)) (ix2 0 j)).trans (host0_v22 (B0 m c) (ix2 0 j))
theorem vin1_main_v23 (c : Dev nD) : row (Vin1 m c main_v23 : S1x256.Idx → EReal) = rd1 ((m ((c.tc : Thread nD τ).loc main_arg12)) : S256.Idx → EReal) := by
  funext j
  exact (congrFun (B3_of_B1 m c main_v23 (by decide) (by decide)) (ix2 0 j)).trans (host0_v23 (B0 m c) (ix2 0 j))
theorem vin1_main_v24 (c : Dev nD) : row (Vin1 m c main_v24 : S1x256.Idx → EReal) = rd1 ((m ((c.tc : Thread nD τ).loc main_arg14)) : S256.Idx → EReal) := by
  funext j
  exact (congrFun (B3_of_B1 m c main_v24 (by decide) (by decide)) (ix2 0 j)).trans (host0_v24 (B0 m c) (ix2 0 j))
theorem vin1_main_v25 (c : Dev nD) : row (Vin1 m c main_v25 : S1x256.Idx → EReal) = rd1 ((m ((c.tc : Thread nD τ).loc main_arg16)) : S256.Idx → EReal) := by
  funext j
  exact (congrFun (B3_of_B1 m c main_v25 (by decide) (by decide)) (ix2 0 j)).trans (host0_v25 (B0 m c) (ix2 0 j))
theorem vin1_main_v26 (c : Dev nD) : row (Vin1 m c main_v26 : S1x256.Idx → EReal) = rd1 ((m ((c.tc : Thread nD τ).loc main_arg18)) : S256.Idx → EReal) := by
  funext j
  exact (congrFun (B3_of_B1 m c main_v26 (by decide) (by decide)) (ix2 0 j)).trans (host0_v26 (B0 m c) (ix2 0 j))
theorem vin1_main_v27 (c : Dev nD) : row (Vin1 m c main_v27 : S1x8.Idx → EReal) = rd1 ((m ((c.tc : Thread nD τ).loc main_arg20)) : S8.Idx → EReal) := by
  funext j
  exact (congrFun (B3_of_B1 m c main_v27 (by decide) (by decide)) (ix2 0 j)).trans (host0_v27 (B0 m c) (ix2 0 j))
/-- The activation the fused region normalises is the launch memory's. -/
theorem vin1_act (c : Dev nD) :
    act (rd2 (Vin1 m c main_v20 : S500000x8.Idx → EReal)) (rd2 (Vin1 m c main_arg9 : S8x256.Idx → EReal)) (row (Vin1 m c main_v21 : S1x256.Idx → EReal))
      = actOf m c := by
  rw [vin1_x m c, vin1_main_arg9 m c, vin1_main_v21 m c]; rfl

/-! ## The statistics rows -/

/-- The reduction region leaves the column sums of the activation in its first result array, -/
theorem sums0 (c : Dev nD) (i : S1x256.Idx) : B2 m c (Proc.devRef .tc main_v28_0) i = colSum (actOf m c) (i 1) := by
  have h := congrFun ((B2_arr m c 3).trans (arrAt0_3 (Vin0 m) c)) i
  rw [vin0_act m c] at h
  exact h
/-- and the column sums of its squares in the second. -/
theorem sums1 (c : Dev nD) (i : S1x256.Idx) : B2 m c (Proc.devRef .tc main_v28_1) i = ∑ r : Fin 500000, actOf m c r (i 1) * actOf m c r (i 1) := by
  have h := congrFun ((B2_arr m c 4).trans (arrAt0_4 (Vin0 m) c)) i
  rw [vin0_act m c] at h
  exact h
/-- The mean row the fused region is entered with. -/
theorem vin1_mean (c : Dev nD) : row (Vin1 m c main_v30 : S1x256.Idx → EReal) = mean (actOf m c) := by
  funext j
  exact host1_mean (B2 m c) (actOf m c) (sums0 m c) (ix2 0 j)
/-- The variance row the fused region is entered with: the mean of squares minus the squared mean. -/
theorem vin1_var (c : Dev nD) : row (Vin1 m c main_v34 : S1x256.Idx → EReal) = varK (actOf m c) := by
  funext j
  exact host1_var (B2 m c) (actOf m c) (sums0 m c) (sums1 m c) (ix2 0 j)

/-! ## The result -/

/-- The result array after the fused region is the kernel's function of the launch memory. -/
theorem kernel_value (c : Dev nD) : (dat1 (F := Ideal) (Vin1 m) c).arrAt 16 cfg1.N = kernelOut m c := by
  rw [arrAt1_16_eq (Vin1 m) c]
  unfold out1 kernelOut outWith
  rw [vin1_act m c, vin1_main_arg0 m c, vin1_mean m c, vin1_var m c, vin1_main_v22 m c, vin1_main_v23 m c, vin1_main_arg13 m c,
    vin1_main_v24 m c, vin1_main_arg15 m c, vin1_main_v25 m c, vin1_main_arg17 m c, vin1_main_v26 m c, vin1_main_arg19 m c, vin1_main_v27 m c]

end Cert.KernelIdeal.HandValue

end
-- ==== Proof.RefRun.lean ====
import proofs.«121266_j58025008169388_1_alg».proof.Proof.Gen.ReferenceIdeal
import Idealize.ShloMosaic.Lib.StableHlo.Run
import Idealize.ShloMosaic.Lib.Pipeline.Frame

/-! # The reference's run

The reference is a straight line of host operations: two gathers of node rows averaged into the edge context,
a linear layer with a rectifier, the column mean and the column variance of its output over all edges, the
normalisation by them, four more linear layers, and the residual sum. This module names each of those stages as
the composition of the program's own operations, lists the operations in seven consecutive stretches, shows
that the program is that list run in order, and reads the final buffer contents back stage by stage. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages

Each stage is the composition of the operations that compute one named value from earlier ones, with the
program's own constants, shape facts and dimension records. -/

/-- Row `0` of the edge index table, as a vector of 500000 node numbers: the slice, then the reshape. -/
def ref_row0 (ei : IVec S2x500000 32) : IVec S500000 32 :=
  shapeCast S500000 (extractStridedSlice S1x500000 ![0, 0] ei slices_S2x500000_S1x500000_0_0) shapeCasts_S1x500000_S500000

/-- Row `1` of the edge index table, likewise. -/
def ref_row1 (ei : IVec S2x500000 32) : IVec S500000 32 :=
  shapeCast S500000 (extractStridedSlice S1x500000 ![1, 0] ei slices_S2x500000_S1x500000_1_0) shapeCasts_S1x500000_S500000

/-- A vector of node numbers made a gather's index column: a negative number has 100000 added (the select on the
    signed comparison with zero), and the vector becomes a `500000 × 1` table. -/
def ref_wrap (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 100000#32))) i)

/-- The node rows gathered at an index column. -/
def ref_take (nf : FVec F S100000x8 .f32) (i : IVec S500000x1 32) : FVec F S500000x8 .f32 :=
  Host.gather gather_S100000x8_S500000x1_S500000x8_1_0_n_n_0_1_18 nf i

/-- The edge context `x`: the two endpoint rows of each edge, added and halved. -/
def ref_x (nf : FVec F S100000x8 .f32) (ei : IVec S2x500000 32) : FVec F S500000x8 .f32 :=
  mulf (addf (ref_take nf (ref_wrap (ref_row0 ei))) (ref_take nf (ref_wrap (ref_row1 ei))))
    (broadcastInDim S500000x8 ![] bcast_S_S500000x8 (constant S_ .f32 0x3F000000#32))

/-- A vector of 256 columns repeated on every one of the 500000 rows (through a `1 × 256` table). -/
def ref_rows (b : FVec F S256 .f32) : FVec F S500000x256 .f32 :=
  broadcastInDim S500000x256 ![0, 1] bcast_S1x256_S500000x256_0_1 (broadcastInDim S1x256 ![1] bcast_S256_S1x256_1 b)

/-- The rectifier: the maximum with a table of zeros. -/
def ref_relu (z : FVec F S500000x256 .f32) : FVec F S500000x256 .f32 :=
  maximumf z (broadcastInDim S500000x256 ![] bcast_S_S500000x256 (constant S_ .f32 0x00000000#32))

/-- The hidden layer `h = max (x · W1 + b1, 0)`. -/
def ref_h (x : FVec F S500000x8 .f32) (W1 : FVec F S8x256 .f32) (b1 : FVec F S256 .f32) : FVec F S500000x256 .f32 :=
  ref_relu (addf (Host.dotGeneral dot_S500000x8_S8x256_S500000x256_1_0_0_1_n_n none x W1) (ref_rows b1))

/-- The column sums of a `500000 × 256` table, from zero. -/
def ref_colsum (z : FVec F S500000x256 .f32) : FVec F S256 .f32 :=
  Host.reduceAdd z (constant S_ .f32 0x00000000#32) reducesTo_S500000x256_S256_d0 h_S_

/-- The column mean of `h`: the column sums divided by 500000. -/
def ref_mean (h : FVec F S500000x256 .f32) : FVec F S256 .f32 :=
  Host.divf (ref_colsum h) (broadcastInDim S256 ![] bcast_S_S256 (constant S_ .f32 0x48F42400#32))

/-- The variance's divisor: 500000 minus the number of lost degrees of freedom, here the integer `0` converted. -/
def ref_count : FVec F S_ .f32 :=
  subf (constant S_ .f32 0x48F42400#32) (sitofp (F := F) .f32 (constantI S_ 32 0#32))

/-- `h` with its column mean taken away, the mean computed inside the variance on a `1 × 256` table. -/
def ref_centered (h : FVec F S500000x256 .f32) : FVec F S500000x256 .f32 :=
  subf h (broadcastInDim S500000x256 ![0, 1] bcast_S1x256_S500000x256_0_1
    (Host.divf (broadcastInDim S1x256 ![1] bcast_S256_S1x256_1 (ref_colsum h))
      (broadcastInDim S1x256 ![] bcast_S_S1x256 (constant S_ .f32 0x48F42400#32))))

/-- The column variance of `h`: the column sums of the squared centred table over the divisor, kept where the
    divisor is positive and replaced by the not-a-number constant elsewhere. -/
def ref_var (h : FVec F S500000x256 .f32) : FVec F S256 .f32 :=
  select (broadcastInDim S256 ![] bcast_S_S256 (cmpf (F := F) .ogt ref_count (constant S_ .f32 0x00000000#32)))
    (Host.divf (ref_colsum (mulf (ref_centered h) (ref_centered h))) (broadcastInDim S256 ![] bcast_S_S256 ref_count))
    (broadcastInDim S256 ![] bcast_S_S256 (constant S_ .f32 0x7FC00000#32))

/-- The normalised hidden layer: `(h - mean) * rsqrt (var + ε) * γ + β`, each vector repeated on every row. -/
def ref_norm (h : FVec F S500000x256 .f32) (mean var gamma beta : FVec F S256 .f32) : FVec F S500000x256 .f32 :=
  addf (mulf (mulf (subf h (ref_rows mean))
      (ref_rows (Host.rsqrt (addf var (broadcastInDim S256 ![] bcast_S_S256 (constant S_ .f32 0x3727C5AC#32))))))
    (ref_rows gamma)) (ref_rows beta)

/-- A `256 → 256` linear layer: the product with the weights plus the bias on every row. -/
def ref_lin (a : FVec F S500000x256 .f32) (W : FVec F S256x256 .f32) (b : FVec F S256 .f32) : FVec F S500000x256 .f32 :=
  addf (Host.dotGeneral dot_S500000x256_S256x256_S500000x256_1_0_0_1_n_n none a W) (ref_rows b)

/-- The `256 → 8` projection: the product with the weights plus the bias on every row (through a `1 × 8` table). -/
def ref_proj (a : FVec F S500000x256 .f32) (Wp : FVec F S256x8 .f32) (bp : FVec F S8 .f32) : FVec F S500000x8 .f32 :=
  addf (Host.dotGeneral dot_S500000x256_S256x8_S500000x8_1_0_0_1_n_n none a Wp)
    (broadcastInDim S500000x8 ![0, 1] bcast_S1x8_S500000x8_0_1 (broadcastInDim S1x8 ![1] bcast_S8_S1x8_1 bp))

/-- The result from the hidden layer and its two statistics: normalise, three `256 → 256` layers, project to 8
    columns, halve, and add to the edge attributes. -/
def ref_out (ea : FVec F S500000x8 .f32) (h : FVec F S500000x256 .f32) (mean var gamma beta : FVec F S256 .f32)
    (W2 : FVec F S256x256 .f32) (b2 : FVec F S256 .f32) (Wv : FVec F S256x256 .f32) (bv : FVec F S256 .f32)
    (Wo : FVec F S256x256 .f32) (bo : FVec F S256 .f32) (Wp : FVec F S256x8 .f32) (bp : FVec F S8 .f32) : FVec F S500000x8 .f32 :=
  addf ea (mulf (broadcastInDim S500000x8 ![] bcast_S_S500000x8 (constant S_ .f32 0x3F000000#32))
    (ref_proj (ref_lin (ref_lin (ref_lin (ref_norm h mean var gamma beta) W2 b2) Wv bv) Wo bo) Wp bp))

/-- The reference's result as a function of the arguments it reads: the edge attributes, the node features, the
    edge index table, and the node encoder's twelve parameters. -/
def refResult (ea : FVec F S500000x8 .f32) (nf : FVec F S100000x8 .f32) (ei : IVec S2x500000 32)
    (W1 : FVec F S8x256 .f32) (b1 gamma beta : FVec F S256 .f32)
    (W2 : FVec F S256x256 .f32) (b2 : FVec F S256 .f32) (Wv : FVec F S256x256 .f32) (bv : FVec F S256 .f32)
    (Wo : FVec F S256x256 .f32) (bo : FVec F S256 .f32) (Wp : FVec F S256x8 .f32) (bp : FVec F S8 .f32) : FVec F S500000x8 .f32 :=
  ref_out ea (ref_h (ref_x nf ei) W1 b1) (ref_mean (ref_h (ref_x nf ei) W1 b1)) (ref_var (ref_h (ref_x nf ei) W1 b1))
    gamma beta W2 b2 Wv bv Wo bo Wp bp

/-! ## The operations

The program's operations in order, in seven stretches; a called function's operations stand at the call, over
that call's own buffers. -/

/-- The edge encoder's branch, which the result never reads: a linear layer with rectifier on the edge attributes, its column mean and variance, the normalisation, and a second linear layer. -/
abbrev opsA : List (HloOp τ sig (Elt F)) :=
  [ binary main_arg0 main_arg3 main_v0 ((fun l r => Host.dotGeneral dot_S500000x8_S8x256_S500000x256_1_0_0_1_n_n none l r) : (⟨S500000x8, .f32⟩ : BufTy).Contents (Elt F) → (⟨S8x256, .f32⟩ : BufTy).Contents (Elt F) → (⟨S500000x256, .f32⟩ : BufTy).Contents (Elt F)),
    unary main_arg4 main_v1 (broadcastInDim S1x256 ![1] bcast_S256_S1x256_1 : (⟨S256, .f32⟩ : BufTy).Contents (Elt F) → (⟨S1x256, .f32⟩ : BufTy).Contents (Elt F)),
    unary main_v1 main_v2 (broadcastInDim S500000x256 ![0, 1] bcast_S1x256_S500000x256_0_1 : (⟨S1x256, .f32⟩ : BufTy).Contents (Elt F) → (⟨S500000x256, .f32⟩ : BufTy).Contents (Elt F)),
    binary main_v0 main_v2 main_v3 (addf : (⟨S500000x256, .f32⟩ : BufTy).Contents (Elt F) → (⟨S500000x256, .f32⟩ : BufTy).Contents (Elt F) → (⟨S500000x256, .f32⟩ : BufTy).Contents (Elt F)),
    TRef.nullary main_call0.cst (constant S_ .f32 0x00000000#32),
    TRef.unary main_call0.cst main_call0.v0 (broadcastInDim S500000x256 ![] bcast_S_S500000x256),
    TRef.binary (TRef.of (T := ⟨S500000x256, .f32⟩) main_v3) main_call0.v0 main_call0.v1 maximumf,
    nullary main_cst (constant S_ .f32 0x00000000#32),
    binary main_v4 main_cst main_v5 ((fun x v => Host.reduceAdd x v reducesTo_S500000x256_S256_d0 h_S_) : (⟨S500000x256, .f32⟩ : BufTy).Contents (Elt F) → (⟨S_, .f32⟩ : BufTy).Contents (Elt F) → (⟨S256, .f32⟩ : BufTy).Contents (Elt F)),
    nullary main_cst_0 (constant S_ .f32 0x48F42400#32),
    unary main_cst_0 main_v6 (broadcastInDim S256 ![] bcast_S_S256 : (⟨S_, .f32⟩ : BufTy).Contents (Elt F) → (⟨S256, .f32⟩ : BufTy).Contents (Elt F)),
    binary main_v5 main_v6 main_v7 (Host.divf : (⟨S256, .f32⟩ : BufTy).Contents (Elt F) → (⟨S256, .f32⟩ : BufTy).Contents (Elt F) → (⟨S256, .f32⟩ : BufTy).Contents (Elt F)),
    nullary main_c (constantI S_ 32 0#32),
    TRef.nullary main_call1.cst (constant S_ .f32 0x00000000#32),
    TRef.binary (TRef.of (T := ⟨S500000x256, .f32⟩) main_v4) main_call1.cst main_call1.v0 (fun x v => Host.reduceAdd x v reducesTo_S500000x256_S256_d0 h_S_),
    TRef.unary main_call1.v0 main_call1.v1 (broadcastInDim S1x256 ![1] bcast_S256_S1x256_1),
    TRef.nullary main_call1.cst_0 (constant S_ .f32 0x48F42400#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S500000x256 ![0, 1] bcast_S1x256_S500000x256_0_1),
    TRef.binary (TRef.of (T := ⟨S500000x256, .f32⟩) main_v4) main_call1.v4 main_call1.v5 subf,
    TRef.binary main_call1.v5 main_call1.v5 main_call1.v6 mulf,
    TRef.unary (TRef.of (T := ⟨S_, .i32⟩) main_c) main_call1.v7 (sitofp (F := F) .f32),
    TRef.nullary main_call1.cst_1 (constant S_ .f32 0x48F42400#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S500000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf (F := F) .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v7 main_v9 (broadcastInDim S1x256 ![1] bcast_S256_S1x256_1 : (⟨S256, .f32⟩ : BufTy).Contents (Elt F) → (⟨S1x256, .f32⟩ : BufTy).Contents (Elt F)),
    unary main_v9 main_v10 (broadcastInDim S500000x256 ![0, 1] bcast_S1x256_S500000x256_0_1 : (⟨S1x256, .f32⟩ : BufTy).Contents (Elt F) → (⟨S500000x256, .f32⟩ : BufTy).Contents (Elt F)),
    binary main_v4 main_v10 main_v11 (subf : (⟨S500000x256, .f32⟩ : BufTy).Contents (Elt F) → (⟨S500000x256, .f32⟩ : BufTy).Contents (Elt F) → (⟨S500000x256, .f32⟩ : BufTy).Contents (Elt F)),
    nullary main_cst_1 (constant S_ .f32 0x3727C5AC#32),
    unary main_cst_1 main_v12 (broadcastInDim S256 ![] bcast_S_S256 : (⟨S_, .f32⟩ : BufTy).Contents (Elt F) → (⟨S256, .f32⟩ : BufTy).Contents (Elt F)),
    binary main_v8 main_v12 main_v13 (addf : (⟨S256, .f32⟩ : BufTy).Contents (Elt F) → (⟨S256, .f32⟩ : BufTy).Contents (Elt F) → (⟨S256, .f32⟩ : BufTy).Contents (Elt F)),
    unary main_v13 main_v14 (Host.rsqrt : (⟨S256, .f32⟩ : BufTy).Contents (Elt F) → (⟨S256, .f32⟩ : BufTy).Contents (Elt F)),
    unary main_v14 main_v15 (broadcastInDim S1x256 ![1] bcast_S256_S1x256_1 : (⟨S256, .f32⟩ : BufTy).Contents (Elt F) → (⟨S1x256, .f32⟩ : BufTy).Contents (Elt F)),
    unary main_v15 main_v16 (broadcastInDim S500000x256 ![0, 1] bcast_S1x256_S500000x256_0_1 : (⟨S1x256, .f32⟩ : BufTy).Contents (Elt F) → (⟨S500000x256, .f32⟩ : BufTy).Contents (Elt F)),
    binary main_v11 main_v16 main_v17 (mulf : (⟨S500000x256, .f32⟩ : BufTy).Contents (Elt F) → (⟨S500000x256, .f32⟩ : BufTy).Contents (Elt F) → (⟨S500000x256, .f32⟩ : BufTy).Contents (Elt F)),
    unary main_arg5 main_v18 (broadcastInDim S1x256 ![1] bcast_S256_S1x256_1 : (⟨S256, .f32⟩ : BufTy).Contents (Elt F) → (⟨S1x256, .f32⟩ : BufTy).Contents (Elt F)),
    unary main_v18 main_v19 (broadcastInDim S500000x256 ![0, 1] bcast_S1x256_S500000x256_0_1 : (⟨S1x256, .f32⟩ : BufTy).Contents (Elt F) → (⟨S500000x256, .f32⟩ : BufTy).Contents (Elt F)),
    binary main_v17 main_v19 main_v20 (mulf : (⟨S500000x256, .f32⟩ : BufTy).Contents (Elt F) → (⟨S500000x256, .f32⟩ : BufTy).Contents (Elt F) → (⟨S500000x256, .f32⟩ : BufTy).Contents (Elt F)),
    unary main_arg6 main_v21 (broadcastInDim S1x256 ![1] bcast_S256_S1x256_1 : (⟨S256, .f32⟩ : BufTy).Contents (Elt F) → (⟨S1x256, .f32⟩ : BufTy).Contents (Elt F)),
    unary main_v21 main_v22 (broadcastInDim S500000x256 ![0, 1] bcast_S1x256_S500000x256_0_1 : (⟨S1x256, .f32⟩ : BufTy).Contents (Elt F) → (⟨S500000x256, .f32⟩ : BufTy).Contents (Elt F)),
    binary main_v20 main_v22 main_v23 (addf : (⟨S500000x256, .f32⟩ : BufTy).Contents (Elt F) → (⟨S500000x256, .f32⟩ : BufTy).Contents (Elt F) → (⟨S500000x256, .f32⟩ : BufTy).Contents (Elt F)),
    binary main_v23 main_arg7 main_v24 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg8 main_v25 (broadcastInDim S1x256 ![1] bcast_S256_S1x256_1 : (⟨S256, .f32⟩ : BufTy).Contents (Elt F) → (⟨S1x256, .f32⟩ : BufTy).Contents (Elt F)),
    unary main_v25 main_v26 (broadcastInDim S500000x256 ![0, 1] bcast_S1x256_S500000x256_0_1 : (⟨S1x256, .f32⟩ : BufTy).Contents (Elt F) → (⟨S500000x256, .f32⟩ : BufTy).Contents (Elt F)),
    binary main_v24 main_v26 main_v27 (addf : (⟨S500000x256, .f32⟩ : BufTy).Contents (Elt F) → (⟨S500000x256, .f32⟩ : BufTy).Contents (Elt F) → (⟨S500000x256, .f32⟩ : BufTy).Contents (Elt F)) ]

/-- The edge context: the two rows of the index table, each wrapped and gathered, the sum and the halving. -/
abbrev opsX : List (HloOp τ sig (Elt F)) :=
  [ unary main_arg2 main_v28 ((extractStridedSlice S1x500000 ![0, 0] · slices_S2x500000_S1x500000_0_0) : (⟨S2x500000, .i32⟩ : BufTy).Contents (Elt F) → (⟨S1x500000, .i32⟩ : BufTy).Contents (Elt F)),
    reshape main_v28 main_v29 rfl shapeCasts_S1x500000_S500000,
    nullary main_c_2 (constantI S_ 32 0#32),
    unary main_c_2 main_v30 (broadcastInDim S500000 ![] bcast_S_S500000 : (⟨S_, .i32⟩ : BufTy).Contents (Elt F) → (⟨S500000, .i32⟩ : BufTy).Contents (Elt F)),
    binary main_v29 main_v30 main_v31 (cmpi .slt : (⟨S500000, .i32⟩ : BufTy).Contents (Elt F) → (⟨S500000, .i32⟩ : BufTy).Contents (Elt F) → (⟨S500000, .i1⟩ : BufTy).Contents (Elt F)),
    nullary main_c_3 (constantI S_ 32 100000#32),
    unary main_c_3 main_v32 (broadcastInDim S500000 ![] bcast_S_S500000 : (⟨S_, .i32⟩ : BufTy).Contents (Elt F) → (⟨S500000, .i32⟩ : BufTy).Contents (Elt F)),
    binary main_v29 main_v32 main_v33 (addi : (⟨S500000, .i32⟩ : BufTy).Contents (Elt F) → (⟨S500000, .i32⟩ : BufTy).Contents (Elt F) → (⟨S500000, .i32⟩ : BufTy).Contents (Elt F)),
    ternary main_v31 main_v33 main_v29 main_v34 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v34 main_v35 (broadcastInDim S500000x1 ![0] bcast_S500000_S500000x1_0 : (⟨S500000, .i32⟩ : BufTy).Contents (Elt F) → (⟨S500000x1, .i32⟩ : BufTy).Contents (Elt F)),
    binary main_arg1 main_v35 main_v36 ((fun x i => Host.gather gather_S100000x8_S500000x1_S500000x8_1_0_n_n_0_1_18 x i) : (⟨S100000x8, .f32⟩ : BufTy).Contents (Elt F) → (⟨S500000x1, .i32⟩ : BufTy).Contents (Elt F) → (⟨S500000x8, .f32⟩ : BufTy).Contents (Elt F)),
    unary main_arg2 main_v37 ((extractStridedSlice S1x500000 ![1, 0] · slices_S2x500000_S1x500000_1_0) : (⟨S2x500000, .i32⟩ : BufTy).Contents (Elt F) → (⟨S1x500000, .i32⟩ : BufTy).Contents (Elt F)),
    reshape main_v37 main_v38 rfl shapeCasts_S1x500000_S500000,
    nullary main_c_4 (constantI S_ 32 0#32),
    unary main_c_4 main_v39 (broadcastInDim S500000 ![] bcast_S_S500000 : (⟨S_, .i32⟩ : BufTy).Contents (Elt F) → (⟨S500000, .i32⟩ : BufTy).Contents (Elt F)),
    binary main_v38 main_v39 main_v40 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v41 (broadcastInDim S500000 ![] bcast_S_S500000 : (⟨S_, .i32⟩ : BufTy).Contents (Elt F) → (⟨S500000, .i32⟩ : BufTy).Contents (Elt F)),
    binary main_v38 main_v41 main_v42 (addi : (⟨S500000, .i32⟩ : BufTy).Contents (Elt F) → (⟨S500000, .i32⟩ : BufTy).Contents (Elt F) → (⟨S500000, .i32⟩ : BufTy).Contents (Elt F)),
    ternary main_v40 main_v42 main_v38 main_v43 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v43 main_v44 (broadcastInDim S500000x1 ![0] bcast_S500000_S500000x1_0 : (⟨S500000, .i32⟩ : BufTy).Contents (Elt F) → (⟨S500000x1, .i32⟩ : BufTy).Contents (Elt F)),
    binary main_arg1 main_v44 main_v45 ((fun x i => Host.gather gather_S100000x8_S500000x1_S500000x8_1_0_n_n_0_1_18 x i) : (⟨S100000x8, .f32⟩ : BufTy).Contents (Elt F) → (⟨S500000x1, .i32⟩ : BufTy).Contents (Elt F) → (⟨S500000x8, .f32⟩ : BufTy).Contents (Elt F)),
    binary main_v36 main_v45 main_v46 (addf : (⟨S500000x8, .f32⟩ : BufTy).Contents (Elt F) → (⟨S500000x8, .f32⟩ : BufTy).Contents (Elt F) → (⟨S500000x8, .f32⟩ : BufTy).Contents (Elt F)),
    nullary main_cst_6 (constant S_ .f32 0x3F000000#32),
    unary main_cst_6 main_v47 (broadcastInDim S500000x8 ![] bcast_S_S500000x8 : (⟨S_, .f32⟩ : BufTy).Contents (Elt F) → (⟨S500000x8, .f32⟩ : BufTy).Contents (Elt F)),
    binary main_v46 main_v47 main_v48 (mulf : (⟨S500000x8, .f32⟩ : BufTy).Contents (Elt F) → (⟨S500000x8, .f32⟩ : BufTy).Contents (Elt F) → (⟨S500000x8, .f32⟩ : BufTy).Contents (Elt F)) ]

/-- The hidden layer's product with its weights, and its bias made a one-row table. -/
abbrev opsH0 : List (HloOp τ sig (Elt F)) :=
  [ binary main_v48 main_arg9 main_v49 ((fun l r => Host.dotGeneral dot_S500000x8_S8x256_S500000x256_1_0_0_1_n_n none l r) : (⟨S500000x8, .f32⟩ : BufTy).Contents (Elt F) → (⟨S8x256, .f32⟩ : BufTy).Contents (Elt F) → (⟨S500000x256, .f32⟩ : BufTy).Contents (Elt F)),
    unary main_arg10 main_v50 (broadcastInDim S1x256 ![1] bcast_S256_S1x256_1 : (⟨S256, .f32⟩ : BufTy).Contents (Elt F) → (⟨S1x256, .f32⟩ : BufTy).Contents (Elt F)) ]

/-- The hidden layer's bias on every row, the sum, and the rectifier. -/
abbrev opsH1 : List (HloOp τ sig (Elt F)) :=
  [ unary main_v50 main_v51 (broadcastInDim S500000x256 ![0, 1] bcast_S1x256_S500000x256_0_1 : (⟨S1x256, .f32⟩ : BufTy).Contents (Elt F) → (⟨S500000x256, .f32⟩ : BufTy).Contents (Elt F)),
    binary main_v49 main_v51 main_v52 (addf : (⟨S500000x256, .f32⟩ : BufTy).Contents (Elt F) → (⟨S500000x256, .f32⟩ : BufTy).Contents (Elt F) → (⟨S500000x256, .f32⟩ : BufTy).Contents (Elt F)),
    TRef.nullary main_call2.cst (constant S_ .f32 0x00000000#32),
    TRef.unary main_call2.cst main_call2.v0 (broadcastInDim S500000x256 ![] bcast_S_S500000x256),
    TRef.binary (TRef.of (T := ⟨S500000x256, .f32⟩) main_v52) main_call2.v0 main_call2.v1 maximumf ]

/-- The hidden layer's column mean. -/
abbrev opsM : List (HloOp τ sig (Elt F)) :=
  [ nullary main_cst_7 (constant S_ .f32 0x00000000#32),
    binary main_v53 main_cst_7 main_v54 ((fun x v => Host.reduceAdd x v reducesTo_S500000x256_S256_d0 h_S_) : (⟨S500000x256, .f32⟩ : BufTy).Contents (Elt F) → (⟨S_, .f32⟩ : BufTy).Contents (Elt F) → (⟨S256, .f32⟩ : BufTy).Contents (Elt F)),
    nullary main_cst_8 (constant S_ .f32 0x48F42400#32),
    unary main_cst_8 main_v55 (broadcastInDim S256 ![] bcast_S_S256 : (⟨S_, .f32⟩ : BufTy).Contents (Elt F) → (⟨S256, .f32⟩ : BufTy).Contents (Elt F)),
    binary main_v54 main_v55 main_v56 (Host.divf : (⟨S256, .f32⟩ : BufTy).Contents (Elt F) → (⟨S256, .f32⟩ : BufTy).Contents (Elt F) → (⟨S256, .f32⟩ : BufTy).Contents (Elt F)) ]

/-- The hidden layer's column variance, with the select on a positive divisor. -/
abbrev opsV : List (HloOp τ sig (Elt F)) :=
  [ nullary main_c_9 (constantI S_ 32 0#32),
    TRef.nullary main_call3.cst (constant S_ .f32 0x00000000#32),
    TRef.binary (TRef.of (T := ⟨S500000x256, .f32⟩) main_v53) main_call3.cst main_call3.v0 (fun x v => Host.reduceAdd x v reducesTo_S500000x256_S256_d0 h_S_),
    TRef.unary main_call3.v0 main_call3.v1 (broadcastInDim S1x256 ![1] bcast_S256_S1x256_1),
    TRef.nullary main_call3.cst_0 (constant S_ .f32 0x48F42400#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S500000x256 ![0, 1] bcast_S1x256_S500000x256_0_1),
    TRef.binary (TRef.of (T := ⟨S500000x256, .f32⟩) main_v53) main_call3.v4 main_call3.v5 subf,
    TRef.binary main_call3.v5 main_call3.v5 main_call3.v6 mulf,
    TRef.unary (TRef.of (T := ⟨S_, .i32⟩) main_c_9) main_call3.v7 (sitofp (F := F) .f32),
    TRef.nullary main_call3.cst_1 (constant S_ .f32 0x48F42400#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S500000x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf (F := F) .ogt),
    TRef.nullary main_call3.cst_4 (constant S_ .f32 0x7FC00000#32),
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b) ]

/-- The normalisation, the three square layers, the projection, the halving and the residual sum. -/
abbrev opsO : List (HloOp τ sig (Elt F)) :=
  [ unary main_v56 main_v58 (broadcastInDim S1x256 ![1] bcast_S256_S1x256_1 : (⟨S256, .f32⟩ : BufTy).Contents (Elt F) → (⟨S1x256, .f32⟩ : BufTy).Contents (Elt F)),
    unary main_v58 main_v59 (broadcastInDim S500000x256 ![0, 1] bcast_S1x256_S500000x256_0_1 : (⟨S1x256, .f32⟩ : BufTy).Contents (Elt F) → (⟨S500000x256, .f32⟩ : BufTy).Contents (Elt F)),
    binary main_v53 main_v59 main_v60 (subf : (⟨S500000x256, .f32⟩ : BufTy).Contents (Elt F) → (⟨S500000x256, .f32⟩ : BufTy).Contents (Elt F) → (⟨S500000x256, .f32⟩ : BufTy).Contents (Elt F)),
    nullary main_cst_10 (constant S_ .f32 0x3727C5AC#32),
    unary main_cst_10 main_v61 (broadcastInDim S256 ![] bcast_S_S256 : (⟨S_, .f32⟩ : BufTy).Contents (Elt F) → (⟨S256, .f32⟩ : BufTy).Contents (Elt F)),
    binary main_v57 main_v61 main_v62 (addf : (⟨S256, .f32⟩ : BufTy).Contents (Elt F) → (⟨S256, .f32⟩ : BufTy).Contents (Elt F) → (⟨S256, .f32⟩ : BufTy).Contents (Elt F)),
    unary main_v62 main_v63 (Host.rsqrt : (⟨S256, .f32⟩ : BufTy).Contents (Elt F) → (⟨S256, .f32⟩ : BufTy).Contents (Elt F)),
    unary main_v63 main_v64 (broadcastInDim S1x256 ![1] bcast_S256_S1x256_1 : (⟨S256, .f32⟩ : BufTy).Contents (Elt F) → (⟨S1x256, .f32⟩ : BufTy).Contents (Elt F)),
    unary main_v64 main_v65 (broadcastInDim S500000x256 ![0, 1] bcast_S1x256_S500000x256_0_1 : (⟨S1x256, .f32⟩ : BufTy).Contents (Elt F) → (⟨S500000x256, .f32⟩ : BufTy).Contents (Elt F)),
    binary main_v60 main_v65 main_v66 (mulf : (⟨S500000x256, .f32⟩ : BufTy).Contents (Elt F) → (⟨S500000x256, .f32⟩ : BufTy).Contents (Elt F) → (⟨S500000x256, .f32⟩ : BufTy).Contents (Elt F)),
    unary main_arg11 main_v67 (broadcastInDim S1x256 ![1] bcast_S256_S1x256_1 : (⟨S256, .f32⟩ : BufTy).Contents (Elt F) → (⟨S1x256, .f32⟩ : BufTy).Contents (Elt F)),
    unary main_v67 main_v68 (broadcastInDim S500000x256 ![0, 1] bcast_S1x256_S500000x256_0_1 : (⟨S1x256, .f32⟩ : BufTy).Contents (Elt F) → (⟨S500000x256, .f32⟩ : BufTy).Contents (Elt F)),
    binary main_v66 main_v68 main_v69 (mulf : (⟨S500000x256, .f32⟩ : BufTy).Contents (Elt F) → (⟨S500000x256, .f32⟩ : BufTy).Contents (Elt F) → (⟨S500000x256, .f32⟩ : BufTy).Contents (Elt F)),
    unary main_arg12 main_v70 (broadcastInDim S1x256 ![1] bcast_S256_S1x256_1 : (⟨S256, .f32⟩ : BufTy).Contents (Elt F) → (⟨S1x256, .f32⟩ : BufTy).Contents (Elt F)),
    unary main_v70 main_v71 (broadcastInDim S500000x256 ![0, 1] bcast_S1x256_S500000x256_0_1 : (⟨S1x256, .f32⟩ : BufTy).Contents (Elt F) → (⟨S500000x256, .f32⟩ : BufTy).Contents (Elt F)),
    binary main_v69 main_v71 main_v72 (addf : (⟨S500000x256, .f32⟩ : BufTy).Contents (Elt F) → (⟨S500000x256, .f32⟩ : BufTy).Contents (Elt F) → (⟨S500000x256, .f32⟩ : BufTy).Contents (Elt F)),
    binary main_v72 main_arg13 main_v73 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg14 main_v74 (broadcastInDim S1x256 ![1] bcast_S256_S1x256_1 : (⟨S256, .f32⟩ : BufTy).Contents (Elt F) → (⟨S1x256, .f32⟩ : BufTy).Contents (Elt F)),
    unary main_v74 main_v75 (broadcastInDim S500000x256 ![0, 1] bcast_S1x256_S500000x256_0_1 : (⟨S1x256, .f32⟩ : BufTy).Contents (Elt F) → (⟨S500000x256, .f32⟩ : BufTy).Contents (Elt F)),
    binary main_v73 main_v75 main_v76 (addf : (⟨S500000x256, .f32⟩ : BufTy).Contents (Elt F) → (⟨S500000x256, .f32⟩ : BufTy).Contents (Elt F) → (⟨S500000x256, .f32⟩ : BufTy).Contents (Elt F)),
    binary main_v76 main_arg15 main_v77 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg16 main_v78 (broadcastInDim S1x256 ![1] bcast_S256_S1x256_1 : (⟨S256, .f32⟩ : BufTy).Contents (Elt F) → (⟨S1x256, .f32⟩ : BufTy).Contents (Elt F)),
    unary main_v78 main_v79 (broadcastInDim S500000x256 ![0, 1] bcast_S1x256_S500000x256_0_1 : (⟨S1x256, .f32⟩ : BufTy).Contents (Elt F) → (⟨S500000x256, .f32⟩ : BufTy).Contents (Elt F)),
    binary main_v77 main_v79 main_v80 (addf : (⟨S500000x256, .f32⟩ : BufTy).Contents (Elt F) → (⟨S500000x256, .f32⟩ : BufTy).Contents (Elt F) → (⟨S500000x256, .f32⟩ : BufTy).Contents (Elt F)),
    binary main_v80 main_arg17 main_v81 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg18 main_v82 (broadcastInDim S1x256 ![1] bcast_S256_S1x256_1 : (⟨S256, .f32⟩ : BufTy).Contents (Elt F) → (⟨S1x256, .f32⟩ : BufTy).Contents (Elt F)),
    unary main_v82 main_v83 (broadcastInDim S500000x256 ![0, 1] bcast_S1x256_S500000x256_0_1 : (⟨S1x256, .f32⟩ : BufTy).Contents (Elt F) → (⟨S500000x256, .f32⟩ : BufTy).Contents (Elt F)),
    binary main_v81 main_v83 main_v84 (addf : (⟨S500000x256, .f32⟩ : BufTy).Contents (Elt F) → (⟨S500000x256, .f32⟩ : BufTy).Contents (Elt F) → (⟨S500000x256, .f32⟩ : BufTy).Contents (Elt F)),
    binary main_v84 main_arg19 main_v85 ((fun l r => Host.dotGeneral dot_S500000x256_S256x8_S500000x8_1_0_0_1_n_n none l r) : (⟨S500000x256, .f32⟩ : BufTy).Contents (Elt F) → (⟨S256x8, .f32⟩ : BufTy).Contents (Elt F) → (⟨S500000x8, .f32⟩ : BufTy).Contents (Elt F)),
    unary main_arg20 main_v86 (broadcastInDim S1x8 ![1] bcast_S8_S1x8_1 : (⟨S8, .f32⟩ : BufTy).Contents (Elt F) → (⟨S1x8, .f32⟩ : BufTy).Contents (Elt F)),
    unary main_v86 main_v87 (broadcastInDim S500000x8 ![0, 1] bcast_S1x8_S500000x8_0_1 : (⟨S1x8, .f32⟩ : BufTy).Contents (Elt F) → (⟨S500000x8, .f32⟩ : BufTy).Contents (Elt F)),
    binary main_v85 main_v87 main_v88 (addf : (⟨S500000x8, .f32⟩ : BufTy).Contents (Elt F) → (⟨S500000x8, .f32⟩ : BufTy).Contents (Elt F) → (⟨S500000x8, .f32⟩ : BufTy).Contents (Elt F)),
    nullary main_cst_11 (constant S_ .f32 0x3F000000#32),
    unary main_cst_11 main_v89 (broadcastInDim S500000x8 ![] bcast_S_S500000x8 : (⟨S_, .f32⟩ : BufTy).Contents (Elt F) → (⟨S500000x8, .f32⟩ : BufTy).Contents (Elt F)),
    binary main_v89 main_v88 main_v90 (mulf : (⟨S500000x8, .f32⟩ : BufTy).Contents (Elt F) → (⟨S500000x8, .f32⟩ : BufTy).Contents (Elt F) → (⟨S500000x8, .f32⟩ : BufTy).Contents (Elt F)),
    binary main_arg0 main_v90 main_v91 (addf : (⟨S500000x8, .f32⟩ : BufTy).Contents (Elt F) → (⟨S500000x8, .f32⟩ : BufTy).Contents (Elt F) → (⟨S500000x8, .f32⟩ : BufTy).Contents (Elt F)) ]

/-- The first window of the program: the unread branch, the edge context, the start of the hidden layer. -/
abbrev opsP0 : List (HloOp τ sig (Elt F)) := opsA ++ (opsX ++ opsH0)
/-- The second window: the rest of the hidden layer, its two statistics, and the result. -/
abbrev opsP1 : List (HloOp τ sig (Elt F)) := opsH1 ++ (opsM ++ (opsV ++ opsO))
/-- All of the program's operations. -/
abbrev ops : List (HloOp τ sig (Elt F)) := opsP0 ++ opsP1

/-! ## The program is its operations in order -/

set_option maxRecDepth 8192 in
set_option maxHeartbeats 4000000 in
/-- The first window is its three stretches run in order: the calls unfold to their bodies at the calls' buffers. -/
theorem main_part0_eq (c : Dev nD) : main_part0 (F := F) c = seq opsP0 := rfl

set_option maxRecDepth 8192 in
set_option maxHeartbeats 4000000 in
/-- The second window is its four stretches run in order. -/
theorem main_part1_eq (c : Dev nD) : main_part1 (F := F) c = seq opsP1 := rfl

/-- The program is the two windows in a row, so all the operations in a row. -/
theorem main_eq (c : Dev nD) : main (F := F) c = seq ops := by
  simp only [ops, seq_append (l₁ := opsP0) (l₂ := opsP1), ← main_part0_eq c, ← main_part1_eq c]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## The operations touch TensorCore buffers only, and each determines its result -/

set_option maxRecDepth 8192 in
/-- Each operation of `opsA` touches TensorCore buffers only. -/
theorem opsA_sub : (opsA : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
set_option maxRecDepth 8192 in
/-- Each operation of `opsA` determines its results. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of `opsX` touches TensorCore buffers only. -/
theorem opsX_sub : (opsX : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
/-- Each operation of `opsX` determines its results. -/
theorem opsX_fresh : (opsX : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of `opsH0` touches TensorCore buffers only. -/
theorem opsH0_sub : (opsH0 : List (HloOp τ sig (Elt F))).Forall fun op => op.bufs ⊆ tcRefs τ sig :=
  ⟨binary_bufs_sub .., unary_bufs_sub ..⟩
set_option maxRecDepth 8192 in
/-- Each operation of `opsH0` determines its results. -/
theorem opsH0_fresh : (opsH0 : List (HloOp τ sig (Elt F))).Forall fun op => op.fresh = ∅ :=
  ⟨rfl, rfl⟩

set_option maxRecDepth 8192 in
/-- Each operation of `opsH1` touches TensorCore buffers only. -/
theorem opsH1_sub : (opsH1 : List (HloOp τ sig (Elt F))).Forall fun op => op.bufs ⊆ tcRefs τ sig :=
  ⟨unary_bufs_sub .., binary_bufs_sub .., nullary_bufs_sub .., unary_bufs_sub .., binary_bufs_sub ..⟩
set_option maxRecDepth 8192 in
/-- Each operation of `opsH1` determines its results. -/
theorem opsH1_fresh : (opsH1 : List (HloOp τ sig (Elt F))).Forall fun op => op.fresh = ∅ :=
  ⟨rfl, rfl, rfl, rfl, rfl⟩

set_option maxRecDepth 8192 in
/-- Each operation of `opsM` touches TensorCore buffers only. -/
theorem opsM_sub : (opsM : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
/-- Each operation of `opsM` determines its results. -/
theorem opsM_fresh : (opsM : List (HloOp τ sig (Elt F))).Forall fun op => op.fresh = ∅ :=
  ⟨rfl, rfl, rfl, rfl, rfl⟩

set_option maxRecDepth 8192 in
/-- Each operation of `opsV` touches TensorCore buffers only. -/
theorem opsV_sub : (opsV : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
/-- Each operation of `opsV` determines its results. -/
theorem opsV_fresh : (opsV : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
/-- Each operation of `opsO` touches TensorCore buffers only. -/
theorem opsO_sub : (opsO : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩
set_option maxRecDepth 8192 in
/-- Each operation of `opsO` determines its results. -/
theorem opsO_fresh : (opsO : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line touches TensorCore buffers only: stretch by stretch. -/
theorem ops_sub : (ops : List (HloOp τ sig (Elt F))).Forall fun op => op.bufs ⊆ tcRefs τ sig :=
  List.forall_iff_forall_mem.mpr fun op h => by
    simp only [ops, opsP0, opsP1, List.mem_append] at h
    rcases h with (h | h | h) | h | h | h | h
    exacts [List.forall_iff_forall_mem.mp opsA_sub op h, List.forall_iff_forall_mem.mp opsX_sub op h, List.forall_iff_forall_mem.mp opsH0_sub op h, List.forall_iff_forall_mem.mp opsH1_sub op h, List.forall_iff_forall_mem.mp opsM_sub op h, List.forall_iff_forall_mem.mp opsV_sub op h, List.forall_iff_forall_mem.mp opsO_sub op h]

/-- Every operation of the line determines its results: stretch by stretch. -/
theorem ops_fresh : ∀ op ∈ (ops : List (HloOp τ sig (Elt F))), op.fresh = ∅ := fun op h => by
  simp only [ops, opsP0, opsP1, List.mem_append] at h
  rcases h with (h | h | h) | h | h | h | h
  exacts [List.forall_iff_forall_mem.mp opsA_fresh op h, List.forall_iff_forall_mem.mp opsX_fresh op h, List.forall_iff_forall_mem.mp opsH0_fresh op h, List.forall_iff_forall_mem.mp opsH1_fresh op h, List.forall_iff_forall_mem.mp opsM_fresh op h, List.forall_iff_forall_mem.mp opsV_fresh op h, List.forall_iff_forall_mem.mp opsO_fresh op h]

/-! ## What a stretch does not write it keeps -/

/-- The buffers that stretch `opsA` writes. -/
abbrev WA : List (Ref sig .tc) := [main_v0, main_v1, main_v2, main_v3, main_call0_cst, main_call0_v0, main_v4, main_cst, main_v5, main_cst_0, main_v6, main_v7, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v8, main_v9, main_v10, main_v11, main_cst_1, main_v12, main_v13, main_v14, main_v15, main_v16, main_v17, main_v18, main_v19, main_v20, main_v21, main_v22, main_v23, main_v24, main_v25, main_v26, main_v27]
set_option maxRecDepth 8192 in
set_option maxHeartbeats 2000000 in
/-- Each operation of `opsA` writes one buffer of that list. -/
theorem opsA_writes : (opsA : List (HloOp τ sig (Elt F))).Forall fun op => op.writes ⊆ (WA.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepA (V : Valuation τ sig (Elt F)) {r : Ref sig .tc} (h : r ∉ WA) :
    after opsA V (no_index (Proc.devRef .tc r)) = V (Proc.devRef .tc r) :=
  after_of_writes_sub opsA V opsA_writes h

/-- The buffers that stretch `opsX` writes. -/
abbrev WX : List (Ref sig .tc) := [main_v28, main_v29, main_c_2, main_v30, main_v31, main_c_3, main_v32, main_v33, main_v34, main_v35, main_v36, main_v37, main_v38, main_c_4, main_v39, main_v40, main_c_5, main_v41, main_v42, main_v43, main_v44, main_v45, main_v46, main_cst_6, main_v47, main_v48]
set_option maxRecDepth 8192 in
set_option maxHeartbeats 2000000 in
/-- Each operation of `opsX` writes one buffer of that list. -/
theorem opsX_writes : (opsX : List (HloOp τ sig (Elt F))).Forall fun op => op.writes ⊆ (WX.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepX (V : Valuation τ sig (Elt F)) {r : Ref sig .tc} (h : r ∉ WX) :
    after opsX V (no_index (Proc.devRef .tc r)) = V (Proc.devRef .tc r) :=
  after_of_writes_sub opsX V opsX_writes h

/-- The buffers that stretch `opsH0` writes. -/
abbrev WH0 : List (Ref sig .tc) := [main_v49, main_v50]
set_option maxRecDepth 8192 in
set_option maxHeartbeats 2000000 in
/-- Each operation of `opsH0` writes one buffer of that list. -/
theorem opsH0_writes : (opsH0 : List (HloOp τ sig (Elt F))).Forall fun op => op.writes ⊆ (WH0.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepH0 (V : Valuation τ sig (Elt F)) {r : Ref sig .tc} (h : r ∉ WH0) :
    after opsH0 V (no_index (Proc.devRef .tc r)) = V (Proc.devRef .tc r) :=
  after_of_writes_sub opsH0 V opsH0_writes h

/-- The buffers that stretch `opsH1` writes. -/
abbrev WH1 : List (Ref sig .tc) := [main_v51, main_v52, main_call2_cst, main_call2_v0, main_v53]
set_option maxRecDepth 8192 in
set_option maxHeartbeats 2000000 in
/-- Each operation of `opsH1` writes one buffer of that list. -/
theorem opsH1_writes : (opsH1 : List (HloOp τ sig (Elt F))).Forall fun op => op.writes ⊆ (WH1.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepH1 (V : Valuation τ sig (Elt F)) {r : Ref sig .tc} (h : r ∉ WH1) :
    after opsH1 V (no_index (Proc.devRef .tc r)) = V (Proc.devRef .tc r) :=
  after_of_writes_sub opsH1 V opsH1_writes h

/-- The buffers that stretch `opsM` writes. -/
abbrev WM : List (Ref sig .tc) := [main_cst_7, main_v54, main_cst_8, main_v55, main_v56]
set_option maxRecDepth 8192 in
set_option maxHeartbeats 2000000 in
/-- Each operation of `opsM` writes one buffer of that list. -/
theorem opsM_writes : (opsM : List (HloOp τ sig (Elt F))).Forall fun op => op.writes ⊆ (WM.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepM (V : Valuation τ sig (Elt F)) {r : Ref sig .tc} (h : r ∉ WM) :
    after opsM V (no_index (Proc.devRef .tc r)) = V (Proc.devRef .tc r) :=
  after_of_writes_sub opsM V opsM_writes h

/-- The buffers that stretch `opsV` writes. -/
abbrev WV : List (Ref sig .tc) := [main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v57]
set_option maxRecDepth 8192 in
set_option maxHeartbeats 2000000 in
/-- Each operation of `opsV` writes one buffer of that list. -/
theorem opsV_writes : (opsV : List (HloOp τ sig (Elt F))).Forall fun op => op.writes ⊆ (WV.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepV (V : Valuation τ sig (Elt F)) {r : Ref sig .tc} (h : r ∉ WV) :
    after opsV V (no_index (Proc.devRef .tc r)) = V (Proc.devRef .tc r) :=
  after_of_writes_sub opsV V opsV_writes h

/-- The buffers that stretch `opsO` writes. -/
abbrev WO : List (Ref sig .tc) := [main_v58, main_v59, main_v60, main_cst_10, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_cst_11, main_v89, main_v90, main_v91]
set_option maxRecDepth 8192 in
set_option maxHeartbeats 2000000 in
/-- Each operation of `opsO` writes one buffer of that list. -/
theorem opsO_writes : (opsO : List (HloOp τ sig (Elt F))).Forall fun op => op.writes ⊆ (WO.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer outside that list keeps its contents through the stretch. -/
theorem keepO (V : Valuation τ sig (Elt F)) {r : Ref sig .tc} (h : r ∉ WO) :
    after opsO V (no_index (Proc.devRef .tc r)) = V (Proc.devRef .tc r) :=
  after_of_writes_sub opsO V opsO_writes h

/-! ## What each stretch computes

The contents of a stretch's last buffer after the stretch, from any contents before it: each operation's result
read at its own buffer is its function of its operands' contents, and the composition is the stage by definition. -/

set_option maxRecDepth 8192 in
set_option maxHeartbeats 2000000 in
/-- The edge context after its stretch: `ref_x` of the node features and the index table. -/
theorem opsX_x (V : Valuation τ sig (Elt F)) :
    after opsX V (no_index (Proc.devRef .tc main_v48)) = ref_x (V (Proc.devRef .tc main_arg1)) (V (Proc.devRef .tc main_arg2)) := by
  simp only [opsX]
  after_results_simp
  rfl

set_option maxRecDepth 8192 in
set_option maxHeartbeats 2000000 in
/-- The hidden layer after its two stretches: `ref_h` of the edge context, the weights and the bias. -/
theorem opsH_h (V : Valuation τ sig (Elt F)) :
    after opsH1 (after opsH0 V) (no_index (Proc.devRef .tc main_v53)) = ref_h (V (Proc.devRef .tc main_v48)) (V (Proc.devRef .tc main_arg9)) (V (Proc.devRef .tc main_arg10)) := by
  simp only [opsH0, opsH1]
  after_results_simp
  rfl

set_option maxRecDepth 8192 in
set_option maxHeartbeats 2000000 in
/-- The mean after its stretch: `ref_mean` of the hidden layer. -/
theorem opsM_mean (V : Valuation τ sig (Elt F)) :
    after opsM V (no_index (Proc.devRef .tc main_v56)) = ref_mean (V (Proc.devRef .tc main_v53)) := by
  simp only [opsM]
  after_results_simp
  rfl

set_option maxRecDepth 8192 in
set_option maxHeartbeats 2000000 in
/-- The variance after its stretch: `ref_var` of the hidden layer. -/
theorem opsV_var (V : Valuation τ sig (Elt F)) :
    after opsV V (no_index (Proc.devRef .tc main_v57)) = ref_var (V (Proc.devRef .tc main_v53)) := by
  simp only [opsV]
  after_results_simp
  rfl

set_option maxRecDepth 8192 in
set_option maxHeartbeats 4000000 in
/-- The result after the last stretch: `ref_out` of the edge attributes, the hidden layer, its two statistics and the remaining parameters. -/
theorem opsO_out (V : Valuation τ sig (Elt F)) :
    after opsO V (no_index (Proc.devRef .tc main_v91)) = ref_out (V (Proc.devRef .tc main_arg0)) (V (Proc.devRef .tc main_v53)) (V (Proc.devRef .tc main_v56)) (V (Proc.devRef .tc main_v57)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [opsO]
  after_results_simp
  rfl

/-! ## The whole line -/

/-- The contents after all the operations: the seven stretches applied in order. -/
theorem after_ops (V : Valuation τ sig (Elt F)) :
    after ops V = after opsO (after opsV (after opsM (after opsH1 (after opsH0 (after opsX (after opsA V)))))) := by
  simp only [ops, opsP0, opsP1, after_append]

/-- A buffer that no stretch writes keeps its contents through the whole line. -/
theorem after_ops_keep (V : Valuation τ sig (Elt F)) {r : Ref sig .tc} (hA : r ∉ WA) (hX : r ∉ WX) (hH0 : r ∉ WH0) (hH1 : r ∉ WH1) (hM : r ∉ WM) (hV : r ∉ WV) (hO : r ∉ WO) :
    after ops V (Proc.devRef .tc r) = V (Proc.devRef .tc r) :=
  (congrFun (after_ops V) _).trans ((keepO _ hO).trans ((keepV _ hV).trans ((keepM _ hM).trans ((keepH1 _ hH1).trans
    ((keepH0 _ hH0).trans ((keepX _ hX).trans (keepA V hA)))))))

set_option maxRecDepth 8192 in
set_option maxHeartbeats 4000000 in
/-- The result buffer after all the operations is `refResult` of the arguments' contents before them: the last
    stretch reads the hidden layer, its mean and its variance, each left by its own stretch and kept by the later
    ones, and every argument is kept by all. -/
theorem after_ops_result (V : Valuation τ sig (Elt F)) :
    after ops V (Proc.devRef .tc main_v91) = refResult (V (Proc.devRef .tc main_arg0)) (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [after_ops, opsO_out]
  simp (disch := decide) only [keepV, keepM, keepH1, keepH0, keepX, keepA, opsV_var, opsM_mean, opsH_h, opsX_x]
  rfl

/-- On every device, for any float values, from any memory with zero counters: every weakly fair execution of the
    reference terminates with its result buffer at `refResult` of the arguments' launch contents, and with every
    argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v91) = refResult (m ((c.tc : Thread nD τ).loc main_arg0))
          (m ((c.tc : Thread nD τ).loc main_arg1))
          (m ((c.tc : Thread nD τ).loc main_arg2))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v91).trans (after_ops_result (launchContents m c)),
      (h c main_arg0).trans (after_ops_keep _ (by decide) (by decide) (by decide) (by decide) (by decide) (by decide) (by decide)),
      (h c main_arg1).trans (after_ops_keep _ (by decide) (by decide) (by decide) (by decide) (by decide) (by decide) (by decide)),
      (h c main_arg2).trans (after_ops_keep _ (by decide) (by decide) (by decide) (by decide) (by decide) (by decide) (by decide)),
      (h c main_arg3).trans (after_ops_keep _ (by decide) (by decide) (by decide) (by decide) (by decide) (by decide) (by decide)),
      (h c main_arg4).trans (after_ops_keep _ (by decide) (by decide) (by decide) (by decide) (by decide) (by decide) (by decide)),
      (h c main_arg5).trans (after_ops_keep _ (by decide) (by decide) (by decide) (by decide) (by decide) (by decide) (by decide)),
      (h c main_arg6).trans (after_ops_keep _ (by decide) (by decide) (by decide) (by decide) (by decide) (by decide) (by decide)),
      (h c main_arg7).trans (after_ops_keep _ (by decide) (by decide) (by decide) (by decide) (by decide) (by decide) (by decide)),
      (h c main_arg8).trans (after_ops_keep _ (by decide) (by decide) (by decide) (by decide) (by decide) (by decide) (by decide)),
      (h c main_arg9).trans (after_ops_keep _ (by decide) (by decide) (by decide) (by decide) (by decide) (by decide) (by decide)),
      (h c main_arg10).trans (after_ops_keep _ (by decide) (by decide) (by decide) (by decide) (by decide) (by decide) (by decide)),
      (h c main_arg11).trans (after_ops_keep _ (by decide) (by decide) (by decide) (by decide) (by decide) (by decide) (by decide)),
      (h c main_arg12).trans (after_ops_keep _ (by decide) (by decide) (by decide) (by decide) (by decide) (by decide) (by decide)),
      (h c main_arg13).trans (after_ops_keep _ (by decide) (by decide) (by decide) (by decide) (by decide) (by decide) (by decide)),
      (h c main_arg14).trans (after_ops_keep _ (by decide) (by decide) (by decide) (by decide) (by decide) (by decide) (by decide)),
      (h c main_arg15).trans (after_ops_keep _ (by decide) (by decide) (by decide) (by decide) (by decide) (by decide) (by decide)),
      (h c main_arg16).trans (after_ops_keep _ (by decide) (by decide) (by decide) (by decide) (by decide) (by decide) (by decide)),
      (h c main_arg17).trans (after_ops_keep _ (by decide) (by decide) (by decide) (by decide) (by decide) (by decide) (by decide)),
      (h c main_arg18).trans (after_ops_keep _ (by decide) (by decide) (by decide) (by decide) (by decide) (by decide) (by decide)),
      (h c main_arg19).trans (after_ops_keep _ (by decide) (by decide) (by decide) (by decide) (by decide) (by decide) (by decide)),
      (h c main_arg20).trans (after_ops_keep _ (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefValue.lean ====
import proofs.«121266_j58025008169388_1_alg».proof.Proof.RefRun
import proofs.«121266_j58025008169388_1_alg».proof.Proof.Spec
import Idealize.ShloMosaic.Lib.StackMember
import Idealize.ShloMosaic.Lib.KernelVsHost
import Idealize.ShloMosaic.Lib.IdealHost
import Idealize.ShloMosaic.Lib.Pipeline.Value

/-!
The reference's result, read entry by entry.

Each named stage of the reference is a composition of whole-array operations: a contraction of two
matrices, a vector laid along every row, a scalar laid everywhere, a sum down the rows, and
entrywise arithmetic. Read at one entry, a contraction is the finite sum of products over the
shared coordinate, a vector laid along the rows is its entry at the column, a sum down the rows is
its initial value plus the sum over the row coordinate, and the entrywise operations are the
extended reals' own. Put together, the activation is `Spec.act`, the column mean is `Spec.mean`,
the variance is the mean of squared deviations `Spec.varR` (the divisor 500000 − 0 is positive, so
the guarded quotient is the quotient), and everything after the statistics is `Spec.tail`.
-/

noncomputable section

open scoped BigOperators
open Idealize.ShloMosaic Idealize.ShloMosaic.ValueIdx

namespace Cert.ReferenceIdeal.RefValue

open Cert.ReferenceIdeal Cert.ReferenceIdeal.RefRun

/-! ### Layout operations read at an index -/

/-- A vector of `n` entries laid out as the one row of a `1 × n` array reads, at column `c`, its entry `c`. -/
theorem rowOf_apply {α : Type} {n : Nat} (h : (⟨1, ![n]⟩ : Shape).BroadcastsInDim ⟨2, ![1, n]⟩ ![1])
    (b : (⟨1, ![n]⟩ : Shape).Idx → α) (r : Fin 1) (c : Fin n) :
    broadcastInDim ⟨2, ![1, n]⟩ ![1] h b (ix2 r c) = b (ix1 c) := by
  refine broadcastInDim_apply ![1] h b (ix2 r c) (ix1 c) ?_
  intro a
  match a with
  | ⟨0, _⟩ =>
    show c.val = if n = 1 then 0 else c.val
    split
    · have := c.isLt; omega
    · rfl

/-- A vector laid along every one of `m` rows (first as one row, then that row repeated) reads, at
    `(r, c)`, its entry `c`. -/
theorem rows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_oneRow_apply h2 _ r c, rowOf_apply h1 b 0 c]

/-- The host's reciprocal square root at an index is the extended reals' own. -/
theorem hostRsqrt_apply {s : Shape} {φ : FTy} (a : FVec Ideal s φ) (i : s.Idx) :
    Host.rsqrt a i = Ideal.rsqrt (a i) := rfl

/-! ### The three contractions read at an index -/

/-- The `500000 × 8` by `8 × 256` product at `(r, j)`: the sum over the 8 shared coordinates. -/
theorem dot_8_256_apply (A : FVec Ideal S500000x8 .f32) (B : FVec Ideal S8x256 .f32) (r : Fin 500000) (j : Fin 256) :
    Host.dotGeneral (F := Ideal) dot_S500000x8_S8x256_S500000x256_1_0_0_1_n_n none A B (ix2 r j)
      = ∑ k : Fin 8, A (ix2 r k) * B (ix2 k j) :=
  StackMember.dotGeneral_plain_apply (m := 500000) (n := 256) (k := 8) none A B r j

/-- The `500000 × 256` by `256 × 256` product at `(r, j)`. -/
theorem dot_256_256_apply (A : FVec Ideal S500000x256 .f32) (B : FVec Ideal S256x256 .f32) (r : Fin 500000) (j : Fin 256) :
    Host.dotGeneral (F := Ideal) dot_S500000x256_S256x256_S500000x256_1_0_0_1_n_n none A B (ix2 r j)
      = ∑ k : Fin 256, A (ix2 r k) * B (ix2 k j) :=
  StackMember.dotGeneral_plain_apply (m := 500000) (n := 256) (k := 256) none A B r j

/-- The `500000 × 256` by `256 × 8` product at `(r, d)`. -/
theorem dot_256_8_apply (A : FVec Ideal S500000x256 .f32) (B : FVec Ideal S256x8 .f32) (r : Fin 500000) (d : Fin 8) :
    Host.dotGeneral (F := Ideal) dot_S500000x256_S256x8_S500000x8_1_0_0_1_n_n none A B (ix2 r d)
      = ∑ k : Fin 256, A (ix2 r k) * B (ix2 k d) :=
  StackMember.dotGeneral_plain_apply (m := 500000) (n := 8) (k := 256) none A B r d

/-! ### The reference's building blocks at an entry -/

/-- A 256-vector laid along every row reads its entry at the column. -/
theorem ref_rows_apply (b : FVec Ideal S256 .f32) (r : Fin 500000) (c : Fin 256) :
    ref_rows (F := Ideal) b (ix2 r c) = b (ix1 c) :=
  rows_apply _ _ b r c

/-- Clipping below at zero, entry by entry. -/
theorem ref_relu_apply (z : FVec Ideal S500000x256 .f32) (i : S500000x256.Idx) :
    ref_relu (F := Ideal) z i = max (z i) 0 := by
  unfold ref_relu
  rw [maximumf_apply, broadcastInDim_scalar_apply, constant_apply, Ideal.ofBits_zero_f32]

/-- The activation at `(r, j)`. -/
theorem ref_h_apply (x : FVec Ideal S500000x8 .f32) (W1 : FVec Ideal S8x256 .f32) (b1 : FVec Ideal S256 .f32)
    (r : Fin 500000) (j : Fin 256) :
    ref_h (F := Ideal) x W1 b1 (ix2 r j) = max ((∑ k : Fin 8, x (ix2 r k) * W1 (ix2 k j)) + b1 (ix1 j)) 0 := by
  unfold ref_h
  rw [ref_relu_apply, addf_apply, dot_8_256_apply, ref_rows_apply]

/-- The sum down the rows, from zero: at column `j` the sum over all rows of that column's entries. -/
theorem ref_colsum_apply (z : FVec Ideal S500000x256 .f32) (j : Fin 256) :
    ref_colsum (F := Ideal) z (ix1 j) = ∑ r : Fin 500000, z (ix2 r j) := by
  have hr : S500000x256.Reduces [0] S256 := by decide
  unfold ref_colsum
  rw [hostReduceAdd_apply, Ideal.hostReduceAdd_single Gen.reducesTo_S500000x256_S256_d0 hr z _ (ix1 j),
    constant_apply, Ideal.ofBits_zero_f32, zero_add]
  refine Finset.sum_congr rfl fun r _ => congrArg z ?_
  funext a
  match a with
  | ⟨0, _⟩ => exact Fin.ext rfl
  | ⟨1, _⟩ => exact Fin.ext rfl

/-- The column mean at `j`. -/
theorem ref_mean_apply (h : FVec Ideal S500000x256 .f32) (j : Fin 256) :
    ref_mean (F := Ideal) h (ix1 j)
      = Ideal.div (∑ r : Fin 500000, h (ix2 r j)) (Ideal.ofBits .f32 0x48F42400#32) := by
  unfold ref_mean
  rw [hostDivf_apply, ref_colsum_apply, broadcastInDim_scalar_apply, constant_apply]

/-- The variance's divisor, 500000 minus the converted integer zero, is the literal 500000. -/
theorem ref_count_eq : ref_count (F := Ideal) ix0 = Ideal.ofBits .f32 0x48F42400#32 := by
  unfold ref_count
  show Ideal.ofBits .f32 0x48F42400#32 - (((0#32 : BitVec 32).toInt : ℝ) : EReal) = _
  rw [BitVec.toInt_zero, Int.cast_zero, EReal.coe_zero, sub_zero]

/-- The divisor is positive, so the guard of the variance's quotient holds at every column. -/
theorem ref_guard_apply (i : S256.Idx) :
    broadcastInDim S256 ![] Gen.bcast_S_S256
      (cmpf (F := Ideal) .ogt ref_count (constant (F := Ideal) S_ .f32 0x00000000#32)) i = 1#1 := by
  rw [broadcastInDim_scalar_apply, cmpf_apply, ref_count_eq, constant_apply, Ideal.ofBits_zero_f32,
    Spec.ofBits_rows, Ideal.cmpf_def]
  have hpos : (0 : EReal) < ((500000 : ℝ) : EReal) := by exact_mod_cast (by norm_num : (0 : ℝ) < 500000)
  unfold Ideal.cmp
  simp [hpos]

/-- The centred activation at `(r, j)`: the entry minus its column's mean. -/
theorem ref_centered_apply (h : FVec Ideal S500000x256 .f32) (r : Fin 500000) (j : Fin 256) :
    ref_centered (F := Ideal) h (ix2 r j)
      = h (ix2 r j) - Ideal.div (∑ r' : Fin 500000, h (ix2 r' j)) (Ideal.ofBits .f32 0x48F42400#32) := by
  unfold ref_centered
  rw [subf_apply, broadcastInDim_oneRow_apply, hostDivf_apply, rowOf_apply, ref_colsum_apply,
    broadcastInDim_scalar_apply, constant_apply]

/-- The variance at column `j`: the guard holds, so it is the quotient of the summed squared
    deviations by the divisor. -/
theorem ref_var_apply (h : FVec Ideal S500000x256 .f32) (j : Fin 256) :
    ref_var (F := Ideal) h (ix1 j)
      = Ideal.div (∑ r : Fin 500000, ref_centered (F := Ideal) h (ix2 r j) * ref_centered (F := Ideal) h (ix2 r j))
          (Ideal.ofBits .f32 0x48F42400#32) := by
  unfold ref_var
  rw [select_apply, ref_guard_apply, select_one, hostDivf_apply, ref_colsum_apply, broadcastInDim_scalar_apply,
    ref_count_eq]
  rfl

/-- The normalised activation at `(r, j)`. -/
theorem ref_norm_apply (h : FVec Ideal S500000x256 .f32) (mu var gamma beta : FVec Ideal S256 .f32)
    (r : Fin 500000) (j : Fin 256) :
    ref_norm (F := Ideal) h mu var gamma beta (ix2 r j)
      = (h (ix2 r j) - mu (ix1 j)) * Ideal.rsqrt (var (ix1 j) + Ideal.ofBits .f32 0x3727C5AC#32) * gamma (ix1 j)
          + beta (ix1 j) := by
  unfold ref_norm
  rw [addf_apply, mulf_apply, mulf_apply, subf_apply, ref_rows_apply, ref_rows_apply, ref_rows_apply, ref_rows_apply,
    hostRsqrt_apply, addf_apply, broadcastInDim_scalar_apply, constant_apply]

/-- A square affine layer at `(r, j)`. -/
theorem ref_lin_apply (a : FVec Ideal S500000x256 .f32) (W : FVec Ideal S256x256 .f32) (b : FVec Ideal S256 .f32)
    (r : Fin 500000) (j : Fin 256) :
    ref_lin (F := Ideal) a W b (ix2 r j) = (∑ k : Fin 256, a (ix2 r k) * W (ix2 k j)) + b (ix1 j) := by
  unfold ref_lin
  rw [addf_apply, dot_256_256_apply, ref_rows_apply]

/-- The projection to the output width at `(r, d)`. -/
theorem ref_proj_apply (a : FVec Ideal S500000x256 .f32) (Wp : FVec Ideal S256x8 .f32) (bp : FVec Ideal S8 .f32)
    (r : Fin 500000) (d : Fin 8) :
    ref_proj (F := Ideal) a Wp bp (ix2 r d) = (∑ k : Fin 256, a (ix2 r k) * Wp (ix2 k d)) + bp (ix1 d) := by
  unfold ref_proj
  rw [addf_apply, dot_256_8_apply, rows_apply]

/-! ### Each layer as a function of the two coordinates -/

theorem ref_norm_rd2 (h : FVec Ideal S500000x256 .f32) (mu var gamma beta : FVec Ideal S256 .f32) :
    Spec.rd2 (ref_norm (F := Ideal) h mu var gamma beta)
      = Spec.h1n (Spec.rd2 h) (Spec.rd1 mu) (Spec.rd1 var) (Spec.rd1 gamma) (Spec.rd1 beta) := by
  funext r j
  exact ref_norm_apply h mu var gamma beta r j

theorem ref_lin_rd2 (a : FVec Ideal S500000x256 .f32) (W : FVec Ideal S256x256 .f32) (b : FVec Ideal S256 .f32) :
    Spec.rd2 (ref_lin (F := Ideal) a W b) = Spec.dense (Spec.rd2 a) (Spec.rd2 W) (Spec.rd1 b) := by
  funext r j
  exact ref_lin_apply a W b r j

theorem ref_proj_rd2 (a : FVec Ideal S500000x256 .f32) (Wp : FVec Ideal S256x8 .f32) (bp : FVec Ideal S8 .f32) :
    Spec.rd2 (ref_proj (F := Ideal) a Wp bp) = Spec.dense (Spec.rd2 a) (Spec.rd2 Wp) (Spec.rd1 bp) := by
  funext r d
  exact ref_proj_apply a Wp bp r d

/-! ### Each stage is the specification's function -/

/-- The activation stage is the affine layer clipped below at zero. -/
theorem ref_h_eq (x : FVec Ideal S500000x8 .f32) (W1 : FVec Ideal S8x256 .f32) (b1 : FVec Ideal S256 .f32) :
    Spec.rd2 (ref_h x W1 b1) = Spec.act (Spec.rd2 x) (Spec.rd2 W1) (Spec.rd1 b1) := by
  funext r j
  exact ref_h_apply x W1 b1 r j

/-- The mean stage is the column sum divided by the number of rows. -/
theorem ref_mean_eq (h : FVec Ideal S500000x256 .f32) : Spec.rd1 (ref_mean h) = Spec.mean (Spec.rd2 h) := by
  funext j
  exact ref_mean_apply h j

/-- The variance stage is the mean of the squared deviations from the column mean. -/
theorem ref_var_eq (h : FVec Ideal S500000x256 .f32) : Spec.rd1 (ref_var h) = Spec.varR (Spec.rd2 h) := by
  funext j
  refine (ref_var_apply h j).trans ?_
  refine congrArg (Ideal.div · (Ideal.ofBits .f32 0x48F42400#32)) (Finset.sum_congr rfl fun r _ => ?_)
  rw [ref_centered_apply]
  rfl

/-- Everything after the statistics is the specification's tail, entry by entry. -/
theorem ref_out_eq (ea : FVec Ideal S500000x8 .f32) (h : FVec Ideal S500000x256 .f32)
    (mu var gamma beta : FVec Ideal S256 .f32)
    (W2 : FVec Ideal S256x256 .f32) (b2 : FVec Ideal S256 .f32) (Wv : FVec Ideal S256x256 .f32) (bv : FVec Ideal S256 .f32)
    (Wo : FVec Ideal S256x256 .f32) (bo : FVec Ideal S256 .f32) (Wp : FVec Ideal S256x8 .f32) (bp : FVec Ideal S8 .f32) :
    ref_out ea h mu var gamma beta W2 b2 Wv bv Wo bo Wp bp = fun i =>
      Spec.tail (Spec.rd2 ea) (Spec.rd2 h) (Spec.rd1 mu) (Spec.rd1 var) (Spec.rd1 gamma) (Spec.rd1 beta)
        (Spec.rd2 W2) (Spec.rd1 b2) (Spec.rd2 Wv) (Spec.rd1 bv) (Spec.rd2 Wo) (Spec.rd1 bo) (Spec.rd2 Wp) (Spec.rd1 bp)
        (i 0) (i 1) := by
  funext i
  obtain ⟨r, d, rfl⟩ : ∃ (r : Fin 500000) (d : Fin 8), i = ix2 r d := ⟨i 0, i 1, eq_ix2 i⟩
  show ref_out ea h mu var gamma beta W2 b2 Wv bv Wo bo Wp bp (ix2 r d)
    = Spec.tail (Spec.rd2 ea) (Spec.rd2 h) (Spec.rd1 mu) (Spec.rd1 var) (Spec.rd1 gamma) (Spec.rd1 beta)
        (Spec.rd2 W2) (Spec.rd1 b2) (Spec.rd2 Wv) (Spec.rd1 bv) (Spec.rd2 Wo) (Spec.rd1 bo) (Spec.rd2 Wp) (Spec.rd1 bp) r d
  unfold ref_out Spec.tail
  rw [addf_apply, mulf_apply, broadcastInDim_scalar_apply, constant_apply,
    ← ref_norm_rd2, ← ref_lin_rd2, ← ref_lin_rd2, ← ref_lin_rd2, ← ref_proj_rd2]
  rfl

/-- The reference's whole result: the tail over the activation of the gathered rows, with the
    activation's own column mean and mean of squared deviations as its statistics. -/
theorem refResult_eq (ea : FVec Ideal S500000x8 .f32) (nf : FVec Ideal S100000x8 .f32) (ei : IVec S2x500000 32)
    (W1 : FVec Ideal S8x256 .f32) (b1 gamma beta : FVec Ideal S256 .f32)
    (W2 : FVec Ideal S256x256 .f32) (b2 : FVec Ideal S256 .f32) (Wv : FVec Ideal S256x256 .f32) (bv : FVec Ideal S256 .f32)
    (Wo : FVec Ideal S256x256 .f32) (bo : FVec Ideal S256 .f32) (Wp : FVec Ideal S256x8 .f32) (bp : FVec Ideal S8 .f32) :
    refResult ea nf ei W1 b1 gamma beta W2 b2 Wv bv Wo bo Wp bp = fun i =>
      Spec.tail (Spec.rd2 ea)
        (Spec.act (Spec.rd2 (ref_x nf ei)) (Spec.rd2 W1) (Spec.rd1 b1))
        (Spec.mean (Spec.act (Spec.rd2 (ref_x nf ei)) (Spec.rd2 W1) (Spec.rd1 b1)))
        (Spec.varR (Spec.act (Spec.rd2 (ref_x nf ei)) (Spec.rd2 W1) (Spec.rd1 b1)))
        (Spec.rd1 gamma) (Spec.rd1 beta)
        (Spec.rd2 W2) (Spec.rd1 b2) (Spec.rd2 Wv) (Spec.rd1 bv) (Spec.rd2 Wo) (Spec.rd1 bo) (Spec.rd2 Wp) (Spec.rd1 bp)
        (i 0) (i 1) := by
  unfold refResult
  rw [ref_out_eq, ref_mean_eq, ref_var_eq, ref_h_eq]

end Cert.ReferenceIdeal.RefValue

end
-- ==== Proof.Finite.lean ====
import proofs.«121266_j58025008169388_1_alg».proof.Defs
import Idealize.ShloMosaic.Lib.ReduceAll
import Idealize.ShloMosaic.Lib.ValueIdx
import Mathlib.Data.EReal.Basic

noncomputable section

namespace Cert.Finite

open Idealize.ShloMosaic Idealize.SL.Sem

/-- The pattern `0x7F800000` is plus infinity. -/
theorem inf_eq : Ideal.ofBits .f32 0x7F800000#32 = (⊤ : EReal) := by
  simp [Ideal.ofBits, Ideal.ieee]

/-- An extended real whose absolute value `max x (-x)` lies strictly below plus infinity is a real number:
    at either infinity the absolute value is plus infinity itself. -/
theorem real_of_abs_lt (x : EReal)
    (h : Ideal.cmp .olt (max x (-x)) (Ideal.ofBits .f32 0x7F800000#32) = 1#1) : ∃ a : ℝ, x = (a : EReal) := by
  rw [inf_eq] at h
  induction x using EReal.rec with
  | bot => simp [Ideal.cmp] at h
  | coe a => exact ⟨a, rfl⟩
  | top => simp [Ideal.cmp] at h

/-- A conjunction of two one-bit vectors that is 1 at an index has both operands 1 there. -/
theorem and_split {s : Shape} (a b : IVec s 1) (j : s.Idx) (h : andi a b j = 1#1) : a j = 1#1 ∧ b j = 1#1 :=
  IntOp.andi_eq_one.1 h

/-- One array's conjunct of the precondition: if "every `|x i|` is below plus infinity" reduces to 1,
    every entry of `x` is a real number. -/
theorem all_real {s u : Shape} {axes : List (Fin s.rank)} [Subsingleton u.Idx]
    (x : FVec Ideal s .f32) (bound : FVec Ideal s .f32) (hb : ∀ i, bound i = Ideal.ofBits .f32 0x7F800000#32)
    (init : IVec u 1) (rt : s.ReducesTo axes u) (hu : 0 < u.numel) (j : u.Idx)
    (h : Host.reduce IntOp.andi (cmpf .olt (Host.absf x) bound) init rt hu j = 1#1) :
    ∀ i, ∃ a : ℝ, x i = (a : EReal) := by
  intro i
  have e := Host.reduce_andi_all (cmpf .olt (Host.absf x) bound) init rt hu j h i
  have e' : Ideal.cmp .olt (max (x i) (-(x i))) (bound i) = 1#1 := e
  rw [hb i] at e'
  exact real_of_abs_lt (x i) e'

variable [Cert.Pre_finite_inputs.Facts]

/-- Under the precondition the node features, the first layer's weights and its bias are real numbers,
    entry by entry: the precondition is the conjunction, over the float inputs in order, of
    "every `|x i|` is below plus infinity"; it is split from the right down to each of the three. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg9) i = (a : EReal))
    ∧ (∀ i, ∃ a : ℝ, m ((c.tc : Thread Cert.KernelIdeal.nD Cert.KernelIdeal.τ).loc Cert.KernelIdeal.main_arg10) i = (a : EReal)) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  -- the conjunction is nested to the left, one float input after another (the integer input is skipped):
  -- ten splits reach the conjunction ending at the bias, one more the weights, seven more the node features
  have c18 := (and_split _ _ _ h).1
  have c17 := (and_split _ _ _ c18).1
  have c16 := (and_split _ _ _ c17).1
  have c15 := (and_split _ _ _ c16).1
  have c14 := (and_split _ _ _ c15).1
  have c13 := (and_split _ _ _ c14).1
  have c12 := (and_split _ _ _ c13).1
  have c11 := (and_split _ _ _ c12).1
  have c10 := (and_split _ _ _ c11).1
  have c9 := (and_split _ _ _ c10).1
  have s9 := and_split _ _ _ c9
  have s8 := and_split _ _ _ s9.1
  have c6 := (and_split _ _ _ s8.1).1
  have c5 := (and_split _ _ _ c6).1
  have c4 := (and_split _ _ _ c5).1
  have c3 := (and_split _ _ _ c4).1
  have c2 := (and_split _ _ _ c3).1
  have c1 := (and_split _ _ _ c2).1
  have s1 := and_split _ _ _ c1
  exact ⟨all_real _ _ (fun _ => rfl) _ _ _ _ s1.2, all_real _ _ (fun _ => rfl) _ _ _ _ s8.2,
    all_real _ _ (fun _ => rfl) _ _ _ _ s9.2⟩

end Cert.Finite

end
-- ==== Proof.lean ====
/-
  The certificate of the fused edge-attention kernel against its reference, at the ideal instance.

  Both programs gather the two end nodes' features of every edge and average them (the same host operations), and apply
  to that context x a dense layer with a ramp, H = max (x · W1 + b1) 0, a batch normalisation over the 500000 rows, three
  more dense layers and a projection, blended into the edge attributes with weight one half. They differ in the batch
  statistics only. The reference takes the mean of H and then the mean of the squared deviations from it. The kernel sums H
  and H² block by block over a grid of 100 blocks of 5000 rows in a first region, divides on the host, takes the mean of
  squares minus the squared mean as the variance, and normalises in a second region. Over the extended reals the two
  variances agree wherever every entry of H is a real number: Σ (h − S/n)² = Σ h² − S²/n. That holds under the
  precondition, for x is made of entries of the node features, which with the first layer's weights and bias are finite.
  A sum over all rows is the running sum of the block sums, in any grouping (addition of extended reals is commutative
  and associative). Format changes are the identity at the ideal instance and a matrix product into the zero accumulator
  is the finite sum the host's contraction is.

  The frames: each kernel program is a host stretch, a region, a host stretch, a region; one run over the four segments
  leaves every buffer at a fold from the launch memory, in which no argument is ever written. The reference is a line of
  host operations. The idealization rewrote no operation, so there is nothing for it to preserve.
-/
import proofs.«121266_j58025008169388_1_alg».proof.Defs
import proofs.«121266_j58025008169388_1_alg».proof.Proof.Gen.Kernel
import proofs.«121266_j58025008169388_1_alg».proof.Proof.Gen.KernelIdeal
import proofs.«121266_j58025008169388_1_alg».proof.Proof.Gen.ReferenceIdeal
import proofs.«121266_j58025008169388_1_alg».proof.Proof.Gen.Pre_finite_inputs
import proofs.«121266_j58025008169388_1_alg».proof.Proof.Bits.Run
import proofs.«121266_j58025008169388_1_alg».proof.Proof.Ideal.KernelValue
import proofs.«121266_j58025008169388_1_alg».proof.Proof.RefValue
import proofs.«121266_j58025008169388_1_alg».proof.Proof.Finite

noncomputable section

namespace Cert.Proof

open Idealize.ShloMosaic Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run _ _ _).mono (fun _ h c => (h c).2) (Cert.ReferenceIdeal.RefRun.run (F := Ideal) m ρ)

/-- The idealization rewrote no operation. -/
theorem preserves : Cert.preserves_Kernel_KernelIdeal := trivial

/-! ## The two results are one function of the arguments -/

/-- The reference's edge context and the kernel's are one term: the same host operations, each over its program's records. -/
theorem ref_x_eq_ctx (nf : FVec Ideal Cert.KernelIdeal.S100000x8 .f32) (ei : IVec Cert.KernelIdeal.S2x500000 32) :
    Cert.ReferenceIdeal.RefRun.ref_x (F := Ideal) nf ei = Cert.KernelIdeal.HandValue.ctx (F := Ideal) nf ei := rfl

/-- Under the precondition every entry of the first-layer activation is a real number. -/
theorem act_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 500000) (j : Fin 256) :
    ∃ a : ℝ, Cert.KernelIdeal.HandValue.actOf m c r j = (a : EReal) := by
  obtain ⟨hnf, hW, hb⟩ := Cert.Finite.real_of_pre m hpre c
  exact Cert.Spec.act_real _ _ _ (fun r k => Cert.KernelIdeal.HandValue.ctx_real _ _ hnf _) (fun k j => hW _) (fun j => hb _) r j

/-- What the reference computes from the same arguments is what the kernel computes: the variance identity. -/
theorem ref_eq_kernel (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.RefRun.refResult (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      = Cert.KernelIdeal.HandValue.kernelOut m c := by
  rw [Cert.ReferenceIdeal.RefValue.refResult_eq, ref_x_eq_ctx]
  unfold Cert.KernelIdeal.HandValue.kernelOut Cert.KernelIdeal.HandValue.outWith
  funext i
  exact (congrFun (congrFun (Cert.Spec.tail_var_eq _ (Cert.KernelIdeal.HandValue.actOf m c) (act_real m hpre c) _ _ _ _ _ _ _ _ _ _) (i 0)) (i 1)).symm

/-! ## The claims -/

theorem algebraic : Cert.algebraic_KernelIdeal_ReferenceIdeal := by
  intro m ρ m' ρ' hpre hagree
  refine ⟨fun c => Cert.KernelIdeal.HandValue.kernelOut m c, ?_, ?_⟩
  · exact (θ_run _ _ _).mono (fun r h c => ⟨(h c).1.trans (Cert.KernelIdeal.HandValue.kernel_value m c), (h c).2⟩)
      (Cert.KernelIdeal.Hand.run_result (F := Ideal) m ρ)
  · refine (θ_run _ _ _).mono (fun r h c => ⟨(h c).1.trans ?_, (h c).2⟩) (Cert.ReferenceIdeal.RefRun.run (F := Ideal) m' ρ')
    obtain ⟨h0, h1, h2, h3, h4, h5, h6, h7, h8, h9, h10, h11, h12, h13, h14, h15, h16, h17, h18, h19, h20⟩ := hagree c
    rw [h0, h1, h2, h9, h10, h11, h12, h13, h14, h15, h16, h17, h18, h19, h20]
    exact ref_eq_kernel m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
